-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x32 : Shape := ⟨2, ![4096, 32]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096x32 32) (main_v13 : IVec S_ 1) (main_v15 : IVec S4096x32 1) (main_c_5 : IVec S_ 1) : IVec S_ 1 :=
  let main_v16 : IVec S_ 1 := (fun x v => Host.reduce IntOp.andi x v reducesTo_S4096x32_S_d0_1 h_S_) main_v15 main_c_5
  let main_v17 : IVec S_ 1 := andi main_v13 main_v16
  let main_c_6 : IVec S_ 32 := constantI S_ 32 4096#32
  let main_v18 : IVec S4096x32 32 := broadcastInDim S4096x32 ![] bcast_S_S4096x32 main_c_6
  let main_v19 : IVec S4096x32 1 := cmpi .slt main_arg3 main_v18
  let main_c_7 : IVec S_ 1 := constantI S_ 1 1#1
  let main_v20 : IVec S_ 1 := (fun x v => Host.reduce IntOp.andi x v reducesTo_S4096x32_S_d0_1 h_S_) main_v19 main_c_7
  let main_v21 : IVec S_ 1 := andi main_v17 main_v20
  main_v21

def fn {F : FTy → Type} [FloatOps F] (main_arg0 : FVec F S2048x4096 .f32) (main_arg1 : FVec F S4096x32 .f32) (main_arg2 : FVec F S4096 .f32) (main_arg3 : IVec S4096x32 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x32 32 := broadcastInDim S4096x32 ![] bcast_S_S4096x32 main_c_4
  let main_v15 : IVec S4096x32 1 := cmpi .sge main_arg3 main_v14
  let main_c_5 : IVec S_ 1 := constantI S_ 1 1#1
  fn_part1 (F := F) main_arg3 main_v13 main_v15 main_c_5
-- ==== Kernel.lean ====
abbrev S2048x4096 : Shape := ⟨2, ![2048, 4096]⟩
abbrev S4096x32 : Shape := ⟨2, ![4096, 32]⟩
abbrev S4096 : Shape := ⟨1, ![4096]⟩
abbrev S32x4096 : Shape := ⟨2, ![32, 4096]⟩
abbrev S4096x4096 : Shape := ⟨2, ![4096, 4096]⟩
abbrev S32x1024 : Shape := ⟨2, ![32, 1024]⟩
abbrev S512x1024 : Shape := ⟨2, ![512, 1024]⟩
abbrev S1x1024 : Shape := ⟨2, ![1, 1024]⟩
abbrev S1024 : Shape := ⟨1, ![1024]⟩
abbrev S1x4096 : Shape := ⟨2, ![1, 4096]⟩
abbrev S1024x512 : Shape := ⟨2, ![1024, 512]⟩
abbrev S1024x1024 : Shape := ⟨2, ![1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S4096x32, .f32⟩
  | .hbm, ⟨2, _⟩ => ⟨S4096, .f32⟩
  | .hbm, ⟨3, _⟩ => ⟨S4096x32, .i32⟩
  | .hbm, ⟨4, _⟩ => ⟨S32x4096, .f32⟩
  | .hbm, ⟨5, _⟩ => ⟨S32x4096, .i32⟩
  | .hbm, ⟨6, _⟩ => ⟨S4096x4096, .bf16⟩
  | .hbm, ⟨7, _⟩ => ⟨S2048x4096, .bf16⟩
  | .hbm, ⟨8, _⟩ => ⟨S1x4096, .f32⟩
  | .hbm, ⟨9, _⟩ => ⟨S2048x4096, .f32⟩
  | .local _ .vmem, ⟨0, _⟩ => ⟨S32x1024, .f32⟩
  | .local _ .vmem, ⟨1, _⟩ => ⟨S32x1024, .f32⟩
  | .local _ .vmem, ⟨2, _⟩ => ⟨S32x1024, .i32⟩
  | .local _ .vmem, ⟨3, _⟩ => ⟨S32x1024, .i32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S4096x32_S32x4096_1_0 : S4096x32.Transposes [1, 0] S32x4096
  iota_S512x1024_d0_w32 : S512x1024.Iotas .tc 32 [0]
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S32x1024_S1x1024_0_0 : ∀ a, (![0, 0] : Fin 2 → Nat) a + S1x1024.size a ≤ S32x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  shapeCasts_S1x1024_S1x1024 : S1x1024.ShapeCasts S1x1024
  inb_S32x1024_S1x1024_1_0 : ∀ a, (![1, 0] : Fin 2 → Nat) a + S1x1024.size a ≤ S32x1024.size a
  inb_S32x1024_S1x1024_2_0 : ∀ a, (![2, 0] : Fin 2 → Nat) a + S1x1024.size a ≤ S32x1024.size a
  inb_S32x1024_S1x1024_3_0 : ∀ a, (![3, 0] : Fin 2 → Nat) a + S1x1024.size a ≤ S32x1024.size a
  inb_S32x1024_S1x1024_4_0 : ∀ a, (![4, 0] : Fin 2 → Nat) a + S1x1024.size a ≤ S32x1024.size a
  inb_S32x1024_S1x1024_5_0 : ∀ a, (![5, 0] : Fin 2 → Nat) a + S1x1024.size a ≤ S32x1024.size a
  inb_S32x1024_S1x1024_6_0 : ∀ a, (![6, 0] : Fin 2 → Nat) a + S1x1024.size a ≤ S32x1024.size a
  inb_S32x1024_S1x1024_7_0 : ∀ a, (![7, 0] : Fin 2 → Nat) a + S1x1024.size a ≤ S32x1024.size a
  inb_S32x1024_S1x1024_8_0 : ∀ a, (![8, 0] : Fin 2 → Nat) a + S1x1024.size a ≤ S32x1024.size a
  inb_S32x1024_S1x1024_9_0 : ∀ a, (![9, 0] : Fin 2 → Nat) a + S1x1024.size a ≤ S32x1024.size a
  inb_S32x1024_S1x1024_10_0 : ∀ a, (![10, 0] : Fin 2 → Nat) a + S1x1024.size a ≤ S32x1024.size a
  inb_S32x1024_S1x1024_11_0 : ∀ a, (![11, 0] : Fin 2 → Nat) a + S1x1024.size a ≤ S32x1024.size a
  inb_S32x1024_S1x1024_12_0 : ∀ a, (![12, 0] : Fin 2 → Nat) a + S1x1024.size a ≤ S32x1024.size a
  inb_S32x1024_S1x1024_13_0 : ∀ a, (![13, 0] : Fin 2 → Nat) a + S1x1024.size a ≤ S32x1024.size a
  inb_S32x1024_S1x1024_14_0 : ∀ a, (![14, 0] : Fin 2 → Nat) a + S1x1024.size a ≤ S32x1024.size a
  inb_S32x1024_S1x1024_15_0 : ∀ a, (![15, 0] : Fin 2 → Nat) a + S1x1024.size a ≤ S32x1024.size a
  inb_S32x1024_S1x1024_16_0 : ∀ a, (![16, 0] : Fin 2 → Nat) a + S1x1024.size a ≤ S32x1024.size a
  inb_S32x1024_S1x1024_17_0 : ∀ a, (![17, 0] : Fin 2 → Nat) a + S1x1024.size a ≤ S32x1024.size a
  inb_S32x1024_S1x1024_18_0 : ∀ a, (![18, 0] : Fin 2 → Nat) a + S1x1024.size a ≤ S32x1024.size a
  inb_S32x1024_S1x1024_19_0 : ∀ a, (![19, 0] : Fin 2 → Nat) a + S1x1024.size a ≤ S32x1024.size a
  inb_S32x1024_S1x1024_20_0 : ∀ a, (![20, 0] : Fin 2 → Nat) a + S1x1024.size a ≤ S32x1024.size a
  inb_S32x1024_S1x1024_21_0 : ∀ a, (![21, 0] : Fin 2 → Nat) a + S1x1024.size a ≤ S32x1024.size a
  inb_S32x1024_S1x1024_22_0 : ∀ a, (![22, 0] : Fin 2 → Nat) a + S1x1024.size a ≤ S32x1024.size a
  inb_S32x1024_S1x1024_23_0 : ∀ a, (![23, 0] : Fin 2 → Nat) a + S1x1024.size a ≤ S32x1024.size a
  inb_S32x1024_S1x1024_24_0 : ∀ a, (![24, 0] : Fin 2 → Nat) a + S1x1024.size a ≤ S32x1024.size a
  inb_S32x1024_S1x1024_25_0 : ∀ a, (![25, 0] : Fin 2 → Nat) a + S1x1024.size a ≤ S32x1024.size a
  inb_S32x1024_S1x1024_26_0 : ∀ a, (![26, 0] : Fin 2 → Nat) a + S1x1024.size a ≤ S32x1024.size a
  inb_S32x1024_S1x1024_27_0 : ∀ a, (![27, 0] : Fin 2 → Nat) a + S1x1024.size a ≤ S32x1024.size a
  inb_S32x1024_S1x1024_28_0 : ∀ a, (![28, 0] : Fin 2 → Nat) a + S1x1024.size a ≤ S32x1024.size a
  inb_S32x1024_S1x1024_29_0 : ∀ a, (![29, 0] : Fin 2 → Nat) a + S1x1024.size a ≤ S32x1024.size a
  inb_S32x1024_S1x1024_30_0 : ∀ a, (![30, 0] : Fin 2 → Nat) a + S1x1024.size a ≤ S32x1024.size a
  inb_S32x1024_S1x1024_31_0 : ∀ a, (![31, 0] : Fin 2 → Nat) a + S1x1024.size a ≤ S32x1024.size a
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x4096.size a
  hwx0_0 : ∀ i : grid0.Coords, EltTy.bits .f32 = 32 ∨ (Rect.block (s := S32x4096) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x4096.size a
  hwx0_1 : ∀ i : grid0.Coords, EltTy.bits .i32 = 32 ∨ (Rect.block (s := S32x4096) S32x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .bf16 = 32 ∨ (Rect.block (s := S4096x4096) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x4096.size a
  hwx1_0 : ∀ i : grid1.Coords, EltTy.bits .bf16 = 32 ∨ (Rect.block (s := S2048x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .bf16 = 32 ∨ (Rect.block (s := S4096x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x4096.size a
  hwx1_3 : ∀ i : grid1.Coords, EltTy.bits .f32 = 32 ∨ (Rect.block (s := S2048x4096) S1024x1024.size (cc1_transform_3 i) (hinb1_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x32 : Shape := ⟨2, ![4096, 32]⟩
abbrev S4096 : Shape := ⟨1, ![4096]⟩
abbrev S_ : Shape := ⟨0, ![]⟩
abbrev S4096x32x1 : Shape := ⟨3, ![4096, 32, 1]⟩
abbrev S1 : Shape := ⟨1, ![1]⟩
abbrev S1x1x1 : Shape := ⟨3, ![1, 1, 1]⟩
abbrev S2048x4096x32 : Shape := ⟨3, ![2048, 4096, 32]⟩
abbrev S1x4096x32 : Shape := ⟨3, ![1, 4096, 32]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x32, .f32⟩
  | .hbm, ⟨2, _⟩ => ⟨S4096, .f32⟩
  | .hbm, ⟨3, _⟩ => ⟨S4096x32, .i32⟩
  | .hbm, ⟨4, _⟩ => ⟨S_, .i32⟩
  | .hbm, ⟨5, _⟩ => ⟨S4096x32, .i32⟩
  | .hbm, ⟨6, _⟩ => ⟨S4096x32, .i1⟩
  | .hbm, ⟨7, _⟩ => ⟨S_, .i32⟩
  | .hbm, ⟨8, _⟩ => ⟨S4096x32, .i32⟩
  | .hbm, ⟨9, _⟩ => ⟨S4096x32, .i32⟩
  | .hbm, ⟨10, _⟩ => ⟨S4096x32, .i32⟩
  | .hbm, ⟨11, _⟩ => ⟨S4096x32x1, .i32⟩
  | .hbm, ⟨12, _⟩ => ⟨S1, .i32⟩
  | .hbm, ⟨13, _⟩ => ⟨S_, .i32⟩
  | .hbm, ⟨14, _⟩ => ⟨S4096x32x1, .i32⟩
  | .hbm, ⟨15, _⟩ => ⟨S4096x32x1, .i1⟩
  | .hbm, ⟨16, _⟩ => ⟨S1x1x1, .i32⟩
  | .hbm, ⟨17, _⟩ => ⟨S4096x32x1, .i32⟩
  | .hbm, ⟨18, _⟩ => ⟨S4096x32x1, .i1⟩
  | .hbm, ⟨19, _⟩ => ⟨S4096x32x1, .i1⟩
  | .hbm, ⟨20, _⟩ => ⟨S_, .i1⟩
  | .hbm, ⟨21, _⟩ => ⟨S4096x32, .i1⟩
  | .hbm, ⟨22, _⟩ => ⟨S2048x4096x32, .f32⟩
  | .hbm, ⟨23, _⟩ => ⟨S2048x4096x32, .i1⟩
  | .hbm, ⟨24, _⟩ => ⟨S_, .f32⟩
  | .hbm, ⟨25, _⟩ => ⟨S2048x4096x32, .f32⟩
  | .hbm, ⟨26, _⟩ => ⟨S2048x4096x32, .f32⟩
  | .hbm, ⟨27, _⟩ => ⟨S1x4096x32, .f32⟩
  | .hbm, ⟨28, _⟩ => ⟨S2048x4096x32, .f32⟩
  | .hbm, ⟨29, _⟩ => ⟨S2048x4096x32, .f32⟩
  | .hbm, ⟨30, _⟩ => ⟨S_, .f32⟩
  | .hbm, ⟨31, _⟩ => ⟨S2048x4096, .f32⟩
  | .hbm, ⟨32, _⟩ => ⟨S1x4096, .f32⟩
  | .hbm, ⟨33, _⟩ => ⟨S2048x4096, .f32⟩
  | .hbm, ⟨34, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S1_S1x1x1_2 : S1.BroadcastsInDim S1x1x1 (![2] : Fin 1 → Fin S1x1x1.rank)
  bcast_S1x1x1_S4096x32x1_0_1_2 : S1x1x1.BroadcastsInDim S4096x32x1 (![0, 1, 2] : Fin 3 → Fin S4096x32x1.rank)
  reducesTo_S4096x32x1_S4096x32_d2 : S4096x32x1.ReducesTo [2] S4096x32
  h_S_ : 0 < S_.numel
  bcast_S4096x32_S2048x4096x32_1_2 : S4096x32.BroadcastsInDim S2048x4096x32 (![1, 2] : Fin 2 → Fin S2048x4096x32.rank)
  bcast_S_S2048x4096x32 : S_.BroadcastsInDim S2048x4096x32 (![] : Fin 0 → Fin S2048x4096x32.rank)
  bcast_S4096x32_S1x4096x32_1_2 : S4096x32.BroadcastsInDim S1x4096x32 (![1, 2] : Fin 2 → Fin S1x4096x32.rank)
  bcast_S1x4096x32_S2048x4096x32_0_1_2 : S1x4096x32.BroadcastsInDim S2048x4096x32 (![0, 1, 2] : Fin 3 → Fin S2048x4096x32.rank)
  reducesTo_S2048x4096x32_S2048x4096_d2 : S2048x4096x32.ReducesTo [2] S2048x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  gather_S2048x4096_S4096x32x1_S2048x4096x32_0_1_n_n_1_2_20481_wf : GatherDims.WF S2048x4096 S4096x32x1 S2048x4096x32 [0] [1] [] [1] [] 2 ![2048, 1]

variable [Facts₀]

def gather_S2048x4096_S4096x32x1_S2048x4096x32_0_1_n_n_1_2_20481 : GatherDims S2048x4096 S4096x32x1 S2048x4096x32 where
  offsetDims := [0]
  collapsedSliceDims := [1]
  operandBatchingDims := []
  startIndicesBatchingDims := []
  startIndexMap := [1]
  indexVectorDim := 2
  sliceSizes := ![2048, 1]
  wf := gather_S2048x4096_S4096x32x1_S2048x4096x32_0_1_n_n_1_2_20481_wf

class Facts : Prop extends Facts₀ where

variable [Facts]
-- ==== Proof.K.Common.lean ====
/-
  What the two kernel regions' modules share: the staging and scratch memrefs a body is called with at a grid
  point, the matmul region's two branch conditions (k = 0: the accumulator is reset; k = 7: the output block is
  stored) in closed form over the grid, where its output window is idle, and each window's block at a point read
  off the array the region finds (a parameter `V`: the TensorCore's buffer contents at the region's entry).
-/
import proofs.«429429_j44581760532973_3_alg».proof.Proof.Gen.Kernel.Launch
import proofs.«429429_j44581760532973_3_alg».proof.Proof.Gen.Kernel.Skeleton
import proofs.«429429_j44581760532973_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The memrefs a body is called with -/

abbrev ms0_0 (t : Fin cfg0.N) : Memref sig .tc .vmem S32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
/-- The densify kernel's accumulator: a whole scoped buffer of its own. -/
abbrev scM0 : Memref sig .tc .vmem S512x1024 .f32 := Memref.whole cc0_scratch0

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The matmul kernel's accumulator, carried along the contraction axis of its grid. -/
abbrev scM1 : Memref sig .tc .vmem S1024x1024 .f32 := Memref.whole cc1_scratch0

/-! ## The matmul body's two conditions, over the grid -/

/-- `k = 0`: the body resets its accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- `k = 7`: the body stores the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt0 (w : Fin cfg0.W) (t : Fin cfg0.N) : cfg0.idle w (grid0.coords t) = false := rfl
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from `k = 7` the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

section Regions
variable (V : (c : Dev nD) → (b : Ref sig .tc) → Buf (Elt F) ((c : Thread nD τ).loc b))

/-! ## The windows' blocks, read off the arrays the region finds -/

/-- Window `w` of the densify region at point `t`: its block of the array at `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Window `w` of the matmul region at point `t`: its block of the array at `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data over the arrays at `V` whose body leaves the block in place (one statement per input window). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.Kernel.Hand

end
-- ==== Proof.K.Run0.lean ====
/-
  The densify kernel's body. At grid point (k, j) it builds, in its scratch, the 512 x 1024 tile of the dense matrix whose
  entry (r, o) is the sum over the 32 fan-in slots f of weight(f, o) where index(f, o) equals the absolute row
  512 k + r, and zero elsewhere: the scratch is set to zero and the 32 slots are added one after the other; the tile is
  then stored (narrowed to bf16) into the output block. Stated here: the output block as a function of the two input
  blocks and the point, and the body's triple.
-/
import proofs.«429429_j44581760532973_3_alg».proof.Proof.K.Common
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through -/

/-- Row `f` of a 32 x 1024 input block (one fan-in slot, all 1024 output columns). -/
abbrev rIn_0 : Rect S32x1024 := Rect.unit (s := S32x1024) ![0, 0] S1x1024.size inb_S32x1024_S1x1024_0_0
abbrev rIn_1 : Rect S32x1024 := Rect.unit (s := S32x1024) ![1, 0] S1x1024.size inb_S32x1024_S1x1024_1_0
abbrev rIn_2 : Rect S32x1024 := Rect.unit (s := S32x1024) ![2, 0] S1x1024.size inb_S32x1024_S1x1024_2_0
abbrev rIn_3 : Rect S32x1024 := Rect.unit (s := S32x1024) ![3, 0] S1x1024.size inb_S32x1024_S1x1024_3_0
abbrev rIn_4 : Rect S32x1024 := Rect.unit (s := S32x1024) ![4, 0] S1x1024.size inb_S32x1024_S1x1024_4_0
abbrev rIn_5 : Rect S32x1024 := Rect.unit (s := S32x1024) ![5, 0] S1x1024.size inb_S32x1024_S1x1024_5_0
abbrev rIn_6 : Rect S32x1024 := Rect.unit (s := S32x1024) ![6, 0] S1x1024.size inb_S32x1024_S1x1024_6_0
abbrev rIn_7 : Rect S32x1024 := Rect.unit (s := S32x1024) ![7, 0] S1x1024.size inb_S32x1024_S1x1024_7_0
abbrev rIn_8 : Rect S32x1024 := Rect.unit (s := S32x1024) ![8, 0] S1x1024.size inb_S32x1024_S1x1024_8_0
abbrev rIn_9 : Rect S32x1024 := Rect.unit (s := S32x1024) ![9, 0] S1x1024.size inb_S32x1024_S1x1024_9_0
abbrev rIn_10 : Rect S32x1024 := Rect.unit (s := S32x1024) ![10, 0] S1x1024.size inb_S32x1024_S1x1024_10_0
abbrev rIn_11 : Rect S32x1024 := Rect.unit (s := S32x1024) ![11, 0] S1x1024.size inb_S32x1024_S1x1024_11_0
abbrev rIn_12 : Rect S32x1024 := Rect.unit (s := S32x1024) ![12, 0] S1x1024.size inb_S32x1024_S1x1024_12_0
abbrev rIn_13 : Rect S32x1024 := Rect.unit (s := S32x1024) ![13, 0] S1x1024.size inb_S32x1024_S1x1024_13_0
abbrev rIn_14 : Rect S32x1024 := Rect.unit (s := S32x1024) ![14, 0] S1x1024.size inb_S32x1024_S1x1024_14_0
abbrev rIn_15 : Rect S32x1024 := Rect.unit (s := S32x1024) ![15, 0] S1x1024.size inb_S32x1024_S1x1024_15_0
abbrev rIn_16 : Rect S32x1024 := Rect.unit (s := S32x1024) ![16, 0] S1x1024.size inb_S32x1024_S1x1024_16_0
abbrev rIn_17 : Rect S32x1024 := Rect.unit (s := S32x1024) ![17, 0] S1x1024.size inb_S32x1024_S1x1024_17_0
abbrev rIn_18 : Rect S32x1024 := Rect.unit (s := S32x1024) ![18, 0] S1x1024.size inb_S32x1024_S1x1024_18_0
abbrev rIn_19 : Rect S32x1024 := Rect.unit (s := S32x1024) ![19, 0] S1x1024.size inb_S32x1024_S1x1024_19_0
abbrev rIn_20 : Rect S32x1024 := Rect.unit (s := S32x1024) ![20, 0] S1x1024.size inb_S32x1024_S1x1024_20_0
abbrev rIn_21 : Rect S32x1024 := Rect.unit (s := S32x1024) ![21, 0] S1x1024.size inb_S32x1024_S1x1024_21_0
abbrev rIn_22 : Rect S32x1024 := Rect.unit (s := S32x1024) ![22, 0] S1x1024.size inb_S32x1024_S1x1024_22_0
abbrev rIn_23 : Rect S32x1024 := Rect.unit (s := S32x1024) ![23, 0] S1x1024.size inb_S32x1024_S1x1024_23_0
abbrev rIn_24 : Rect S32x1024 := Rect.unit (s := S32x1024) ![24, 0] S1x1024.size inb_S32x1024_S1x1024_24_0
abbrev rIn_25 : Rect S32x1024 := Rect.unit (s := S32x1024) ![25, 0] S1x1024.size inb_S32x1024_S1x1024_25_0
abbrev rIn_26 : Rect S32x1024 := Rect.unit (s := S32x1024) ![26, 0] S1x1024.size inb_S32x1024_S1x1024_26_0
abbrev rIn_27 : Rect S32x1024 := Rect.unit (s := S32x1024) ![27, 0] S1x1024.size inb_S32x1024_S1x1024_27_0
abbrev rIn_28 : Rect S32x1024 := Rect.unit (s := S32x1024) ![28, 0] S1x1024.size inb_S32x1024_S1x1024_28_0
abbrev rIn_29 : Rect S32x1024 := Rect.unit (s := S32x1024) ![29, 0] S1x1024.size inb_S32x1024_S1x1024_29_0
abbrev rIn_30 : Rect S32x1024 := Rect.unit (s := S32x1024) ![30, 0] S1x1024.size inb_S32x1024_S1x1024_30_0
abbrev rIn_31 : Rect S32x1024 := Rect.unit (s := S32x1024) ![31, 0] S1x1024.size inb_S32x1024_S1x1024_31_0
/-- The whole 512 x 1024 tile. -/
abbrev rTile : Rect S512x1024 := Rect.unit (s := S512x1024) ![0, 0] S512x1024.size inb_S512x1024_S512x1024_0_0

/-! ## The scratch after each slot

`acc0_k` is the scratch once the first `k` fan-in slots have been added: `acc0_0` is the zero tile, and `acc0_(f+1)` is
`acc0_f` plus, entrywise, weight row `f` where index row `f` equals the absolute row and zero elsewhere (each step through
the payloads the printed body computes it by). -/

def acc0_0 (i : grid0.Coords) (x0 : Vec F S32x1024 .f32) (x1 : Vec F S32x1024 .i32) : Vec F S512x1024 .f32 :=
  k0_pay2
def acc0_1 (i : grid0.Coords) (x0 : Vec F S32x1024 .f32) (x1 : Vec F S32x1024 .i32) : Vec F S512x1024 .f32 :=
  k0_pay3 i (View.ld x1 rIn_0) (View.ld x0 rIn_0) (acc0_0 i x0 x1)
def acc0_2 (i : grid0.Coords) (x0 : Vec F S32x1024 .f32) (x1 : Vec F S32x1024 .i32) : Vec F S512x1024 .f32 :=
  k0_pay6 (k0_pay4 i (View.ld x1 rIn_1)) (acc0_1 i x0 x1) (Scalar.ofBits .f32 0x00000000#32) (k0_pay5 (View.ld x0 rIn_1))
def acc0_3 (i : grid0.Coords) (x0 : Vec F S32x1024 .f32) (x1 : Vec F S32x1024 .i32) : Vec F S512x1024 .f32 :=
  k0_pay7 (k0_pay1 i) (View.ld x1 rIn_2) (View.ld x0 rIn_2) (acc0_2 i x0 x1)
def acc0_4 (i : grid0.Coords) (x0 : Vec F S32x1024 .f32) (x1 : Vec F S32x1024 .i32) : Vec F S512x1024 .f32 :=
  k0_pay9 (k0_pay8 (k0_pay1 i) (View.ld x1 rIn_3) (View.ld x0 rIn_3) (acc0_3 i x0 x1))
def acc0_5 (i : grid0.Coords) (x0 : Vec F S32x1024 .f32) (x1 : Vec F S32x1024 .i32) : Vec F S512x1024 .f32 :=
  k0_pay10 (k0_pay1 i) (View.ld x1 rIn_4) (View.ld x0 rIn_4) (acc0_4 i x0 x1)
def acc0_6 (i : grid0.Coords) (x0 : Vec F S32x1024 .f32) (x1 : Vec F S32x1024 .i32) : Vec F S512x1024 .f32 :=
  k0_pay11 (k0_pay1 i) (View.ld x1 rIn_5) (View.ld x0 rIn_5) (acc0_5 i x0 x1)
def acc0_7 (i : grid0.Coords) (x0 : Vec F S32x1024 .f32) (x1 : Vec F S32x1024 .i32) : Vec F S512x1024 .f32 :=
  k0_pay12 (k0_pay1 i) (View.ld x1 rIn_6) (View.ld x0 rIn_6) (acc0_6 i x0 x1)
def acc0_8 (i : grid0.Coords) (x0 : Vec F S32x1024 .f32) (x1 : Vec F S32x1024 .i32) : Vec F S512x1024 .f32 :=
  k0_pay13 (k0_pay1 i) (View.ld x1 rIn_7) (View.ld x0 rIn_7) (acc0_7 i x0 x1)
def acc0_9 (i : grid0.Coords) (x0 : Vec F S32x1024 .f32) (x1 : Vec F S32x1024 .i32) : Vec F S512x1024 .f32 :=
  k0_pay16 (k0_pay1 i) (k0_pay14 (View.ld x1 rIn_8)) (k0_pay15 (View.ld x0 rIn_8)) (acc0_8 i x0 x1)
def acc0_10 (i : grid0.Coords) (x0 : Vec F S32x1024 .f32) (x1 : Vec F S32x1024 .i32) : Vec F S512x1024 .f32 :=
  k0_pay17 (k0_pay1 i) (View.ld x1 rIn_9) (View.ld x0 rIn_9) (acc0_9 i x0 x1)
def acc0_11 (i : grid0.Coords) (x0 : Vec F S32x1024 .f32) (x1 : Vec F S32x1024 .i32) : Vec F S512x1024 .f32 :=
  k0_pay20 (k0_pay18 (View.ld x0 rIn_10)) (k0_pay19 (k0_pay1 i) (View.ld x1 rIn_10)) (acc0_10 i x0 x1)
def acc0_12 (i : grid0.Coords) (x0 : Vec F S32x1024 .f32) (x1 : Vec F S32x1024 .i32) : Vec F S512x1024 .f32 :=
  k0_pay21 (k0_pay1 i) (View.ld x1 rIn_11) (View.ld x0 rIn_11) (acc0_11 i x0 x1)
def acc0_13 (i : grid0.Coords) (x0 : Vec F S32x1024 .f32) (x1 : Vec F S32x1024 .i32) : Vec F S512x1024 .f32 :=
  k0_pay23 (k0_pay22 (k0_pay1 i) (View.ld x1 rIn_12) (View.ld x0 rIn_12) (acc0_12 i x0 x1))
def acc0_14 (i : grid0.Coords) (x0 : Vec F S32x1024 .f32) (x1 : Vec F S32x1024 .i32) : Vec F S512x1024 .f32 :=
  k0_pay24 (k0_pay1 i) (View.ld x1 rIn_13) (View.ld x0 rIn_13) (acc0_13 i x0 x1)
def acc0_15 (i : grid0.Coords) (x0 : Vec F S32x1024 .f32) (x1 : Vec F S32x1024 .i32) : Vec F S512x1024 .f32 :=
  k0_pay25 (k0_pay1 i) (View.ld x1 rIn_14) (View.ld x0 rIn_14) (acc0_14 i x0 x1)
def acc0_16 (i : grid0.Coords) (x0 : Vec F S32x1024 .f32) (x1 : Vec F S32x1024 .i32) : Vec F S512x1024 .f32 :=
  k0_pay26 (k0_pay1 i) (View.ld x1 rIn_15) (View.ld x0 rIn_15) (acc0_15 i x0 x1)
def acc0_17 (i : grid0.Coords) (x0 : Vec F S32x1024 .f32) (x1 : Vec F S32x1024 .i32) : Vec F S512x1024 .f32 :=
  k0_pay27 (k0_pay1 i) (View.ld x1 rIn_16) (View.ld x0 rIn_16) (acc0_16 i x0 x1)
def acc0_18 (i : grid0.Coords) (x0 : Vec F S32x1024 .f32) (x1 : Vec F S32x1024 .i32) : Vec F S512x1024 .f32 :=
  k0_pay29 (k0_pay1 i) (k0_pay28 (View.ld x1 rIn_17)) (View.ld x0 rIn_17) (acc0_17 i x0 x1)
def acc0_19 (i : grid0.Coords) (x0 : Vec F S32x1024 .f32) (x1 : Vec F S32x1024 .i32) : Vec F S512x1024 .f32 :=
  k0_pay30 (k0_pay1 i) (View.ld x1 rIn_18) (View.ld x0 rIn_18) (acc0_18 i x0 x1)
def acc0_20 (i : grid0.Coords) (x0 : Vec F S32x1024 .f32) (x1 : Vec F S32x1024 .i32) : Vec F S512x1024 .f32 :=
  k0_pay33 (k0_pay31 (View.ld x0 rIn_19)) (k0_pay32 (k0_pay1 i) (View.ld x1 rIn_19)) (acc0_19 i x0 x1)
def acc0_21 (i : grid0.Coords) (x0 : Vec F S32x1024 .f32) (x1 : Vec F S32x1024 .i32) : Vec F S512x1024 .f32 :=
  k0_pay34 (k0_pay1 i) (View.ld x1 rIn_20) (View.ld x0 rIn_20) (acc0_20 i x0 x1)
def acc0_22 (i : grid0.Coords) (x0 : Vec F S32x1024 .f32) (x1 : Vec F S32x1024 .i32) : Vec F S512x1024 .f32 :=
  k0_pay37 (k0_pay35 (k0_pay1 i) (View.ld x1 rIn_21)) (acc0_21 i x0 x1) (Scalar.ofBits .f32 0x00000000#32) (k0_pay36 (View.ld x0 rIn_21))
def acc0_23 (i : grid0.Coords) (x0 : Vec F S32x1024 .f32) (x1 : Vec F S32x1024 .i32) : Vec F S512x1024 .f32 :=
  k0_pay38 (k0_pay1 i) (View.ld x1 rIn_22) (View.ld x0 rIn_22) (acc0_22 i x0 x1)
def acc0_24 (i : grid0.Coords) (x0 : Vec F S32x1024 .f32) (x1 : Vec F S32x1024 .i32) : Vec F S512x1024 .f32 :=
  k0_pay40 (k0_pay39 (k0_pay1 i) (View.ld x1 rIn_23) (View.ld x0 rIn_23) (acc0_23 i x0 x1))
def acc0_25 (i : grid0.Coords) (x0 : Vec F S32x1024 .f32) (x1 : Vec F S32x1024 .i32) : Vec F S512x1024 .f32 :=
  k0_pay41 (k0_pay1 i) (View.ld x1 rIn_24) (View.ld x0 rIn_24) (acc0_24 i x0 x1)
def acc0_26 (i : grid0.Coords) (x0 : Vec F S32x1024 .f32) (x1 : Vec F S32x1024 .i32) : Vec F S512x1024 .f32 :=
  k0_pay42 (k0_pay1 i) (View.ld x1 rIn_25) (View.ld x0 rIn_25) (acc0_25 i x0 x1)
def acc0_27 (i : grid0.Coords) (x0 : Vec F S32x1024 .f32) (x1 : Vec F S32x1024 .i32) : Vec F S512x1024 .f32 :=
  k0_pay43 (k0_pay1 i) (View.ld x1 rIn_26) (View.ld x0 rIn_26) (acc0_26 i x0 x1)
def acc0_28 (i : grid0.Coords) (x0 : Vec F S32x1024 .f32) (x1 : Vec F S32x1024 .i32) : Vec F S512x1024 .f32 :=
  k0_pay44 (k0_pay1 i) (View.ld x1 rIn_27) (View.ld x0 rIn_27) (acc0_27 i x0 x1)
def acc0_29 (i : grid0.Coords) (x0 : Vec F S32x1024 .f32) (x1 : Vec F S32x1024 .i32) : Vec F S512x1024 .f32 :=
  k0_pay47 (k0_pay1 i) (k0_pay45 (View.ld x1 rIn_28)) (k0_pay46 (View.ld x0 rIn_28)) (acc0_28 i x0 x1)
def acc0_30 (i : grid0.Coords) (x0 : Vec F S32x1024 .f32) (x1 : Vec F S32x1024 .i32) : Vec F S512x1024 .f32 :=
  k0_pay48 (k0_pay1 i) (View.ld x1 rIn_29) (View.ld x0 rIn_29) (acc0_29 i x0 x1)
def acc0_31 (i : grid0.Coords) (x0 : Vec F S32x1024 .f32) (x1 : Vec F S32x1024 .i32) : Vec F S512x1024 .f32 :=
  k0_pay51 (k0_pay49 (View.ld x0 rIn_30)) (k0_pay50 (k0_pay1 i) (View.ld x1 rIn_30)) (acc0_30 i x0 x1)
def acc0_32 (i : grid0.Coords) (x0 : Vec F S32x1024 .f32) (x1 : Vec F S32x1024 .i32) : Vec F S512x1024 .f32 :=
  k0_pay52 (k0_pay1 i) (View.ld x1 rIn_31) (View.ld x0 rIn_31) (acc0_31 i x0 x1)

/-- What the body leaves in the output block, from the weight block `x0`, the index block `x1` and the point `i`. -/
def out0 (i : grid0.Coords) (x0 : Vec F S32x1024 .f32) (x1 : Vec F S32x1024 .i32) : Vec F S512x1024 .bf16 :=
  k0_pay53 (acc0_32 i x0 x1)

/-! ## Reading the scratch back -/

/-- A load of a whole buffer right after a store of the whole buffer reads the stored value, whatever was stored before. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The whole tile's rectangle starts at the origin. -/
theorem hzT : (![0, 0] : Fin S512x1024.rank → Nat) = fun _ => 0 := funext fun a => by fin_cases a <;> rfl

set_option maxHeartbeats 4000000 in
/-- The body on whole memrefs: inputs kept, the output block from anything to `out0`, the scratch from anything to something. -/
theorem sound_kernel0 (c : Dev nD) (i : grid0.Coords)
    (arg2 : Memref sig .tc .vmem S32x1024 .f32) (harg2 : arg2.IsWhole) (arg3 : Memref sig .tc .vmem S32x1024 .i32) (harg3 : arg3.IsWhole)
    (arg4 : Memref sig .tc .vmem S512x1024 .bf16) (harg4 : arg4.IsWhole) (arg5 : Memref sig .tc .vmem S512x1024 .f32) (harg5 : arg5.IsWhole)
    (x0 : Vec F S32x1024 .f32) (x1 : Vec F S32x1024 .i32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0 i x0 x1) ∗ (∃ d, owns (c : Thread nD τ) arg5 fullShare d)) -∗ K ⟨⟩))
      ⊢ wp frame (wpE (defs₀ (F := F)) Variants.none c none) E (cc0__densify_kernel i arg2 harg2 arg3 harg3 arg4 harg4 arg5 harg5) K := by
  simp only [cc0__densify_kernel_eq_skeleton]; unfold cc0__densify_kernel_skel
  unfold owns
  iintro ⟨⟨%f0, %hf0, H0⟩, ⟨%f1, %hf1, H1⟩, ⟨%d4, %f4, -, H4⟩, ⟨%d5, %f5, -, H5⟩, Hk⟩
  subst hf0
  subst hf1
  sl_exec
  sl_step
  -- the scratch read back after each slot is the chain's next term
  have e0 : sound_kernel0.sl.v16 c arg5 = acc0_0 i (arg2.view.read (Elt F) f0) (arg3.view.read (Elt F) f1) := by
    unfold sound_kernel0.sl.v16 sound_kernel0.sl.H5_1
    rw [View.readCov_unit_zero _ hzT]
    rfl
  have e1 : sound_kernel0.sl.v33 c i arg2 arg3 arg5 f0 f1 = acc0_1 i (arg2.view.read (Elt F) f0) (arg3.view.read (Elt F) f1) := by
    unfold sound_kernel0.sl.v33 sound_kernel0.sl.H5_2
    rw [readCov_cons_whole _ hzT]
    rw [e0]
    rfl
  have e2 : sound_kernel0.sl.v50 c i arg2 arg3 arg5 f0 f1 = acc0_2 i (arg2.view.read (Elt F) f0) (arg3.view.read (Elt F) f1) := by
    unfold sound_kernel0.sl.v50 sound_kernel0.sl.H5_3
    rw [readCov_cons_whole _ hzT]
    rw [e1]
    rfl
  have e3 : sound_kernel0.sl.v67 c i arg2 arg3 arg5 f0 f1 = acc0_3 i (arg2.view.read (Elt F) f0) (arg3.view.read (Elt F) f1) := by
    unfold sound_kernel0.sl.v67 sound_kernel0.sl.H5_4
    rw [readCov_cons_whole _ hzT]
    rw [e2]
    rfl
  have e4 : sound_kernel0.sl.v84 c i arg2 arg3 arg5 f0 f1 = acc0_4 i (arg2.view.read (Elt F) f0) (arg3.view.read (Elt F) f1) := by
    unfold sound_kernel0.sl.v84 sound_kernel0.sl.H5_5
    rw [readCov_cons_whole _ hzT]
    unfold sound_kernel0.sl.r_2
    rw [e3]
    rfl
  have e5 : sound_kernel0.sl.v101 c i arg2 arg3 arg5 f0 f1 = acc0_5 i (arg2.view.read (Elt F) f0) (arg3.view.read (Elt F) f1) := by
    unfold sound_kernel0.sl.v101 sound_kernel0.sl.H5_6
    rw [readCov_cons_whole _ hzT]
    rw [e4]
    rfl
  have e6 : sound_kernel0.sl.v118 c i arg2 arg3 arg5 f0 f1 = acc0_6 i (arg2.view.read (Elt F) f0) (arg3.view.read (Elt F) f1) := by
    unfold sound_kernel0.sl.v118 sound_kernel0.sl.H5_7
    rw [readCov_cons_whole _ hzT]
    rw [e5]
    rfl
  have e7 : sound_kernel0.sl.v135 c i arg2 arg3 arg5 f0 f1 = acc0_7 i (arg2.view.read (Elt F) f0) (arg3.view.read (Elt F) f1) := by
    unfold sound_kernel0.sl.v135 sound_kernel0.sl.H5_8
    rw [readCov_cons_whole _ hzT]
    rw [e6]
    rfl
  have e8 : sound_kernel0.sl.v152 c i arg2 arg3 arg5 f0 f1 = acc0_8 i (arg2.view.read (Elt F) f0) (arg3.view.read (Elt F) f1) := by
    unfold sound_kernel0.sl.v152 sound_kernel0.sl.H5_9
    rw [readCov_cons_whole _ hzT]
    rw [e7]
    rfl
  have e9 : sound_kernel0.sl.v169 c i arg2 arg3 arg5 f0 f1 = acc0_9 i (arg2.view.read (Elt F) f0) (arg3.view.read (Elt F) f1) := by
    unfold sound_kernel0.sl.v169 sound_kernel0.sl.H5_10
    rw [readCov_cons_whole _ hzT]
    rw [e8]
    rfl
  have e10 : sound_kernel0.sl.v186 c i arg2 arg3 arg5 f0 f1 = acc0_10 i (arg2.view.read (Elt F) f0) (arg3.view.read (Elt F) f1) := by
    unfold sound_kernel0.sl.v186 sound_kernel0.sl.H5_11
    rw [readCov_cons_whole _ hzT]
    rw [e9]
    rfl
  have e11 : sound_kernel0.sl.v203 c i arg2 arg3 arg5 f0 f1 = acc0_11 i (arg2.view.read (Elt F) f0) (arg3.view.read (Elt F) f1) := by
    unfold sound_kernel0.sl.v203 sound_kernel0.sl.H5_12
    rw [readCov_cons_whole _ hzT]
    rw [e10]
    rfl
  have e12 : sound_kernel0.sl.v220 c i arg2 arg3 arg5 f0 f1 = acc0_12 i (arg2.view.read (Elt F) f0) (arg3.view.read (Elt F) f1) := by
    unfold sound_kernel0.sl.v220 sound_kernel0.sl.H5_13
    rw [readCov_cons_whole _ hzT]
    rw [e11]
    rfl
  have e13 : sound_kernel0.sl.v237 c i arg2 arg3 arg5 f0 f1 = acc0_13 i (arg2.view.read (Elt F) f0) (arg3.view.read (Elt F) f1) := by
    unfold sound_kernel0.sl.v237 sound_kernel0.sl.H5_14
    rw [readCov_cons_whole _ hzT]
    unfold sound_kernel0.sl.r_8
    rw [e12]
    rfl
  have e14 : sound_kernel0.sl.v254 c i arg2 arg3 arg5 f0 f1 = acc0_14 i (arg2.view.read (Elt F) f0) (arg3.view.read (Elt F) f1) := by
    unfold sound_kernel0.sl.v254 sound_kernel0.sl.H5_15
    rw [readCov_cons_whole _ hzT]
    rw [e13]
    rfl
  have e15 : sound_kernel0.sl.v271 c i arg2 arg3 arg5 f0 f1 = acc0_15 i (arg2.view.read (Elt F) f0) (arg3.view.read (Elt F) f1) := by
    unfold sound_kernel0.sl.v271 sound_kernel0.sl.H5_16
    rw [readCov_cons_whole _ hzT]
    rw [e14]
    rfl
  have e16 : sound_kernel0.sl.v288 c i arg2 arg3 arg5 f0 f1 = acc0_16 i (arg2.view.read (Elt F) f0) (arg3.view.read (Elt F) f1) := by
    unfold sound_kernel0.sl.v288 sound_kernel0.sl.H5_17
    rw [readCov_cons_whole _ hzT]
    rw [e15]
    rfl
  have e17 : sound_kernel0.sl.v305 c i arg2 arg3 arg5 f0 f1 = acc0_17 i (arg2.view.read (Elt F) f0) (arg3.view.read (Elt F) f1) := by
    unfold sound_kernel0.sl.v305 sound_kernel0.sl.H5_18
    rw [readCov_cons_whole _ hzT]
    rw [e16]
    rfl
  have e18 : sound_kernel0.sl.v322 c i arg2 arg3 arg5 f0 f1 = acc0_18 i (arg2.view.read (Elt F) f0) (arg3.view.read (Elt F) f1) := by
    unfold sound_kernel0.sl.v322 sound_kernel0.sl.H5_19
    rw [readCov_cons_whole _ hzT]
    rw [e17]
    rfl
  have e19 : sound_kernel0.sl.v339 c i arg2 arg3 arg5 f0 f1 = acc0_19 i (arg2.view.read (Elt F) f0) (arg3.view.read (Elt F) f1) := by
    unfold sound_kernel0.sl.v339 sound_kernel0.sl.H5_20
    rw [readCov_cons_whole _ hzT]
    rw [e18]
    rfl
  have e20 : sound_kernel0.sl.v356 c i arg2 arg3 arg5 f0 f1 = acc0_20 i (arg2.view.read (Elt F) f0) (arg3.view.read (Elt F) f1) := by
    unfold sound_kernel0.sl.v356 sound_kernel0.sl.H5_21
    rw [readCov_cons_whole _ hzT]
    rw [e19]
    rfl
  have e21 : sound_kernel0.sl.v373 c i arg2 arg3 arg5 f0 f1 = acc0_21 i (arg2.view.read (Elt F) f0) (arg3.view.read (Elt F) f1) := by
    unfold sound_kernel0.sl.v373 sound_kernel0.sl.H5_22
    rw [readCov_cons_whole _ hzT]
    rw [e20]
    rfl
  have e22 : sound_kernel0.sl.v390 c i arg2 arg3 arg5 f0 f1 = acc0_22 i (arg2.view.read (Elt F) f0) (arg3.view.read (Elt F) f1) := by
    unfold sound_kernel0.sl.v390 sound_kernel0.sl.H5_23
    rw [readCov_cons_whole _ hzT]
    rw [e21]
    rfl
  have e23 : sound_kernel0.sl.v407 c i arg2 arg3 arg5 f0 f1 = acc0_23 i (arg2.view.read (Elt F) f0) (arg3.view.read (Elt F) f1) := by
    unfold sound_kernel0.sl.v407 sound_kernel0.sl.H5_24
    rw [readCov_cons_whole _ hzT]
    rw [e22]
    rfl
  have e24 : sound_kernel0.sl.v424 c i arg2 arg3 arg5 f0 f1 = acc0_24 i (arg2.view.read (Elt F) f0) (arg3.view.read (Elt F) f1) := by
    unfold sound_kernel0.sl.v424 sound_kernel0.sl.H5_25
    rw [readCov_cons_whole _ hzT]
    unfold sound_kernel0.sl.r_14
    rw [e23]
    rfl
  have e25 : sound_kernel0.sl.v441 c i arg2 arg3 arg5 f0 f1 = acc0_25 i (arg2.view.read (Elt F) f0) (arg3.view.read (Elt F) f1) := by
    unfold sound_kernel0.sl.v441 sound_kernel0.sl.H5_26
    rw [readCov_cons_whole _ hzT]
    rw [e24]
    rfl
  have e26 : sound_kernel0.sl.v458 c i arg2 arg3 arg5 f0 f1 = acc0_26 i (arg2.view.read (Elt F) f0) (arg3.view.read (Elt F) f1) := by
    unfold sound_kernel0.sl.v458 sound_kernel0.sl.H5_27
    rw [readCov_cons_whole _ hzT]
    rw [e25]
    rfl
  have e27 : sound_kernel0.sl.v475 c i arg2 arg3 arg5 f0 f1 = acc0_27 i (arg2.view.read (Elt F) f0) (arg3.view.read (Elt F) f1) := by
    unfold sound_kernel0.sl.v475 sound_kernel0.sl.H5_28
    rw [readCov_cons_whole _ hzT]
    rw [e26]
    rfl
  have e28 : sound_kernel0.sl.v492 c i arg2 arg3 arg5 f0 f1 = acc0_28 i (arg2.view.read (Elt F) f0) (arg3.view.read (Elt F) f1) := by
    unfold sound_kernel0.sl.v492 sound_kernel0.sl.H5_29
    rw [readCov_cons_whole _ hzT]
    rw [e27]
    rfl
  have e29 : sound_kernel0.sl.v509 c i arg2 arg3 arg5 f0 f1 = acc0_29 i (arg2.view.read (Elt F) f0) (arg3.view.read (Elt F) f1) := by
    unfold sound_kernel0.sl.v509 sound_kernel0.sl.H5_30
    rw [readCov_cons_whole _ hzT]
    rw [e28]
    rfl
  have e30 : sound_kernel0.sl.v526 c i arg2 arg3 arg5 f0 f1 = acc0_30 i (arg2.view.read (Elt F) f0) (arg3.view.read (Elt F) f1) := by
    unfold sound_kernel0.sl.v526 sound_kernel0.sl.H5_31
    rw [readCov_cons_whole _ hzT]
    rw [e29]
    rfl
  have e31 : sound_kernel0.sl.v543 c i arg2 arg3 arg5 f0 f1 = acc0_31 i (arg2.view.read (Elt F) f0) (arg3.view.read (Elt F) f1) := by
    unfold sound_kernel0.sl.v543 sound_kernel0.sl.H5_32
    rw [readCov_cons_whole _ hzT]
    rw [e30]
    rfl
  have e32 : sound_kernel0.sl.v552 c i arg2 arg3 arg5 f0 f1 = acc0_32 i (arg2.view.read (Elt F) f0) (arg3.view.read (Elt F) f1) := by
    unfold sound_kernel0.sl.v552 sound_kernel0.sl.H5_33
    rw [readCov_cons_whole _ hzT]
    rw [e31]
    rfl
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (fun y => ⟨_, List.mem_singleton_self _, View.mem_set_unit_zero hzT inb_S512x1024_S512x1024_0_0 y⟩),
      View.canon_unit_zero hzT]
    unfold sound_kernel0.sl.r_20 out0
    rw [e32]
  iexists _; iexists _; isplitr
  swap; · iexact H5
  ipureintro; rfl

end Cert.Kernel.Hand

end
-- ==== Proof.K.Dat0.lean ====
/-
  The densify region's proof data at the region-entry contents `V`: after the body at a point the two input windows'
  buffers hold their blocks and the output window's buffer holds `out0` of them; the region invariant is the class's
  (every scoped buffer that is no staging buffer of this region — the accumulator among them — at some contents, and
  the generator register at some state): the body resets its accumulator at every point, so nothing is carried.
-/
import proofs.«429429_j44581760532973_3_alg».proof.Proof.K.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0 (grid0.coords t) (iblk0 V c 0 t) (iblk0 V c 1 t) := by dsimp only [dat0]

/-- The scoped buffers that are no staging buffer of the densify region, other than its accumulator: the matmul region's
    staging buffers and accumulator, each at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The class's invariant with the accumulator as a memref owned at some contents: what the body is handed and hands
    back. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## The input windows' buffers at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns (no window of this region is ever idle). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the input windows' buffers hold their blocks; the invariant hands the body its accumulator
    at whatever it holds and takes it back at whatever the body leaves there; the other scoped buffers, the generator
    register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  rw [show (dat0 V c).Φ t.castSucc = Pipeline.ΦA spec0 c from rfl, PhiA0_eq]
  iintro ⟨⟨⟨HS, Hr⟩, Hg⟩, Ho, ⟨%d0, H0⟩, ⟨%d1, H1⟩, ⟨%d2, H2⟩⟩
  iapply (sound_kernel0 c (grid0.coords t) _ _ _ _ _ _ _ _ (iblk0 V c 0 t) (iblk0 V c 1 t) Set.univ _)
  isplitl [H0]; · iexact H0
  isplitl [H1]; · iexact H1
  isplitl [H2]; · iexists _; iexact H2
  isplitl [HS]; · iexact HS
  iintro ⟨H0, H1, H2, HS⟩
  isplitl [HS Hr Hg]
  · isplitl [HS Hr]
    · isplitl [HS]; · iexact HS
      iexact Hr
    iexact Hg
  isplitl [Ho]; · iexact Ho
  isplitl [H0]; · iexact H0
  isplitl [H1]; · iexact H1
  iexact H2

/-- The library's body obligation for the densify region, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Run1.lean ====
/-
  The matmul kernel's body, case by case. Along the contraction axis k of its grid the body keeps an accumulator in
  its scratch: at k = 0 it first resets it to zero; at every k it adds the product of its two input blocks; at
  k = 7 it stores accumulator + bias row into the output block. Three cases meet the grid: A (k = 0), B (0 < k < 7),
  C (k = 7). Stated here: what each case leaves in the scratch and (C) in the output block as functions of what the
  body found, and the body's triple per case.
-/
import proofs.«429429_j44581760532973_3_alg».proof.Proof.K.Common
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator after a k = 0 point: zero plus the product of the point's blocks. -/
def sout1_A (x0 : Vec F S1024x512 .bf16) (x1 : Vec F S512x1024 .bf16) : Vec F S1024x1024 .f32 :=
  k1_pay2 (k1_pay1 (F := F)) x0 x1
/-- The accumulator after a later point: what the point before left plus the product of the point's blocks. -/
def sout1_B (xs : Vec F S1024x1024 .f32) (x0 : Vec F S1024x512 .bf16) (x1 : Vec F S512x1024 .bf16) : Vec F S1024x1024 .f32 :=
  k1_pay2 xs x0 x1
/-- The output block after a k = 7 point: the accumulator it leaves plus the bias row on every row. -/
def out1_C (xs : Vec F S1024x1024 .f32) (x0 : Vec F S1024x512 .bf16) (x1 : Vec F S512x1024 .bf16) (x2 : Vec F S1x1024 .f32) : Vec F S1024x1024 .f32 :=
  k1_pay3 (k1_pay2 xs x0 x1) x2

/-- The zero offsets of a rank-two rectangle, as the constant function. -/
private theorem off2_zero : (![0, 0] : Fin 2 → Nat) = fun _ => 0 := by
  funext a; fin_cases a <;> rfl

/-- A list of stores whose last is through the whole accumulator-shaped buffer covers it. -/
private theorem cover_whole1 (w : Vec F S1024x1024 .f32) (L : List (View.Piece (Elt F) S1024x1024 .f32)) (y : S1024x1024.Idx) :
    ∃ p ∈ ((⟨Rect.unit (s := S1024x1024) ![0, 0] S1024x1024.size inb_S1024x1024_S1024x1024_0_0, w⟩ : View.Piece (Elt F) S1024x1024 .f32) :: L), y ∈ p.1.set :=
  ⟨_, List.Mem.head _, View.mem_set_unit_zero off2_zero inb_S1024x1024_S1024x1024_0_0 y⟩

set_option maxHeartbeats 1000000 in
/-- Case A (k = 0, not the last k): inputs kept, the idle output block untouched, the scratch from anything to `sout1_A`. -/
theorem sound_kernel1_A (c : Dev nD) (i : grid1.Coords) (hc0 : cond1_0 i) (hc1 : ¬cond1_1 i)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S512x1024 .bf16) (x2 : Vec F S1x1024 .f32) (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (sout1_A x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover_whole1 _ _),
    View.canon_cons_unit_zero off2_zero]
  sl_unfold_run_names
  rw [View.readCov_unit_zero (S := S1024x1024) _ off2_zero]
  simp only [View.readAt_eq_ld, View.ld_unit_zero (S := S1024x512) off2_zero, View.ld_unit_zero (S := S512x1024) off2_zero]
  rfl

set_option maxHeartbeats 1000000 in
/-- Case B (0 < k < 7): inputs kept, the idle output block untouched, the scratch from `xs` to `sout1_B xs`. -/
theorem sound_kernel1_B (c : Dev nD) (i : grid1.Coords) (hc0 : ¬cond1_0 i) (hc1 : ¬cond1_1 i)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S512x1024 .bf16) (x2 : Vec F S1x1024 .f32) (xi3 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (sout1_B xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover_whole1 _ _),
    View.canon_unit_zero off2_zero]
  simp only [View.readAt_eq_ld, View.ld_unit_zero (S := S1024x1024) off2_zero, View.ld_unit_zero (S := S1024x512) off2_zero,
    View.ld_unit_zero (S := S512x1024) off2_zero]
  rfl

set_option maxHeartbeats 2000000 in
/-- Case C (k = 7): inputs kept, the scratch from `xs` to `sout1_B xs`, the output block from anything to `out1_C`. -/
theorem sound_kernel1_C (c : Dev nD) (i : grid1.Coords) (hc0 : ¬cond1_0 i) (hc1 : cond1_1 i)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S512x1024 .bf16) (x2 : Vec F S1x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (out1_C xs x0 x1 x2) ∗ owns (c : Thread nD τ) arg7 fullShare (sout1_B xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_whole1 _ _),
      View.canon_unit_zero off2_zero]
    sl_unfold_run_names
    rw [View.readCov_unit_zero (S := S1024x1024) _ off2_zero]
    simp only [View.readAt_eq_ld, View.ld_unit_zero (S := S1024x1024) off2_zero, View.ld_unit_zero (S := S1024x512) off2_zero,
      View.ld_unit_zero (S := S512x1024) off2_zero, View.ld_unit_zero (S := S1x1024) off2_zero]
    rfl
  iexists _; isplitr
  swap; · iexact HS
  ipureintro
  sl_unfold_run_names
  rw [View.read_writes_eq_canon _ _ _ (cover_whole1 _ _),
    View.canon_unit_zero off2_zero]
  simp only [View.readAt_eq_ld, View.ld_unit_zero (S := S1024x1024) off2_zero, View.ld_unit_zero (S := S1024x512) off2_zero,
    View.ld_unit_zero (S := S512x1024) off2_zero]
  rfl

end Cert.Kernel.Hand

end
-- ==== Proof.K.Dat1.lean ====
/-
  The matmul region's proof data at the region-entry contents `V`. The accumulator is carried along the contraction
  axis, so the data name, point by point, what the output block's buffer and the scratch hold after the body
  (`outsAt1`: by recursion on the point — at k = 0 from the point's blocks alone, later over what the point before left),
  and the region invariant says so between points (`PhiS1`).
-/
import proofs.«429429_j44581760532973_3_alg».proof.Proof.K.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- One staging buffer of the output window, through which the placeholder below is stated. -/
abbrev VO1_3 : View sig .tc .vmem S1024x1024 .f32 := (Memref.whole cc1_stg3_0 : Memref sig .tc .vmem S1024x1024 .f32).view
/-- The output window's component where the window is idle (away from k = 7): nothing consults it. -/
def idleOut1 : Vec F S1024x1024 .f32 := VO1_3.read (Elt F) (VO1_3.writes (Elt F) VO1_3.junk [])

/-- The scoped buffers that are no staging buffer of the matmul region, other than its accumulator: the densify region's
    staging buffers and accumulator, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- What the output window's buffer (first) and the accumulator (second) hold after the body at position `n`. Away
    from k = 7 the output window is idle: its component is a placeholder nothing consults. -/
def outsAt1 (c : Dev nD) : (n : ℕ) → n < cfg1.N → Vec F S1024x1024 .f32 × Vec F S1024x1024 .f32
  | 0, hn => (idleOut1, sout1_A (iblk1 V c 0 ⟨0, hn⟩) (iblk1 V c 1 ⟨0, hn⟩))
  | n + 1, hn =>
    if h0 : (n + 1) % 8 = 0 then
      (idleOut1, sout1_A (iblk1 V c 0 ⟨n + 1, hn⟩) (iblk1 V c 1 ⟨n + 1, hn⟩))
    else if h1 : (n + 1) % 8 = 7 then
      (out1_C (outsAt1 c n (Nat.lt_of_succ_lt hn)).2 (iblk1 V c 0 ⟨n + 1, hn⟩) (iblk1 V c 1 ⟨n + 1, hn⟩) (iblk1 V c 2 ⟨n + 1, hn⟩),
        sout1_B (outsAt1 c n (Nat.lt_of_succ_lt hn)).2 (iblk1 V c 0 ⟨n + 1, hn⟩) (iblk1 V c 1 ⟨n + 1, hn⟩))
    else
      (idleOut1, sout1_B (outsAt1 c n (Nat.lt_of_succ_lt hn)).2 (iblk1 V c 0 ⟨n + 1, hn⟩) (iblk1 V c 1 ⟨n + 1, hn⟩))

/-- `outsAt1` at a k = 0 point. -/
theorem outsAt1_A (c : Dev nD) (t : Fin cfg1.N) (h0 : t.val % 8 = 0) :
    (outsAt1 V c t.val t.isLt).2 = sout1_A (iblk1 V c 0 t) (iblk1 V c 1 t) := by
  obtain ⟨n, hn⟩ := t
  cases n with
  | zero => exact rfl
  | succ n => exact congrArg Prod.snd (dif_pos h0 : outsAt1 V c (n + 1) hn = _)
/-- `outsAt1`'s accumulator at a later point, over what the point before left. -/
theorem outsAt1_B (c : Dev nD) (t : Fin cfg1.N) (h0 : ¬t.val % 8 = 0) :
    (outsAt1 V c t.val t.isLt).2
      = sout1_B (outsAt1 V c (t.val - 1) (Nat.lt_of_le_of_lt (Nat.sub_le _ _) t.isLt)).2 (iblk1 V c 0 t) (iblk1 V c 1 t) := by
  obtain ⟨n, hn⟩ := t
  cases n with
  | zero => exact (by exfalso; (try dsimp only at h0); exact absurd (Nat.zero_mod _) h0)
  | succ n =>
    by_cases h1 : (n + 1) % 8 = 7
    · exact congrArg Prod.snd ((dif_neg h0).trans (dif_pos h1) : outsAt1 V c (n + 1) hn = _)
    · exact congrArg Prod.snd ((dif_neg h0).trans (dif_neg h1) : outsAt1 V c (n + 1) hn = _)
/-- `outsAt1`'s output block at a k = 7 point. -/
theorem outsAt1_C (c : Dev nD) (t : Fin cfg1.N) (h1 : t.val % 8 = 7) :
    (outsAt1 V c t.val t.isLt).1
      = out1_C (outsAt1 V c (t.val - 1) (Nat.lt_of_le_of_lt (Nat.sub_le _ _) t.isLt)).2 (iblk1 V c 0 t) (iblk1 V c 1 t) (iblk1 V c 2 t) := by
  obtain ⟨n, hn⟩ := t
  cases n with
  | zero => exact (by exfalso; (try dsimp only at h1); omega)
  | succ n =>
    have h0 : ¬(n + 1) % 8 = 0 := fun h => by (try dsimp only at h1); omega
    exact congrArg Prod.fst ((dif_neg h0).trans (dif_pos h1) : outsAt1 V c (n + 1) hn = _)

/-- The region invariant before position `n`: before the first point the class's; afterwards the accumulator at what
    the point before left, every other scoped buffer that is no staging buffer of this region at some contents, and the
    generator register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-! ## The invariant, position by position -/

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn
      = iprop(owns (c : Thread nD τ) scM1 fullShare ((outsAt1 V c n hn).2) ∗ rest1 c ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(owns (c : Thread nD τ) scM1 fullShare ((outsAt1 V c (n - 1) (by omega)).2) ∗ rest1 c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Reassociation: the last of eight conjuncts brought to the front. -/
theorem sep8_last_front (a0 a1 a2 a3 a4 a5 a6 s g : sProp 𝕄) :
    (iprop((a0 ∗ a1 ∗ a2 ∗ a3 ∗ a4 ∗ a5 ∗ a6 ∗ s) ∗ g) : sProp 𝕄) = iprop(s ∗ (a0 ∗ a1 ∗ a2 ∗ a3 ∗ a4 ∗ a5 ∗ a6) ∗ g) := by
  have h₁ : iprop((a0 ∗ a1 ∗ a2 ∗ a3 ∗ a4 ∗ a5 ∗ a6 ∗ s) ∗ g) ⊢ (iprop(s ∗ (a0 ∗ a1 ∗ a2 ∗ a3 ∗ a4 ∗ a5 ∗ a6) ∗ g) : sProp 𝕄) := by
    iintro ⟨⟨H0, H1, H2, H3, H4, H5, H6, HS⟩, Hg⟩
    isplitl [HS]; · iexact HS
    isplitr [Hg]
    · isplitl [H0]; · iexact H0
      isplitl [H1]; · iexact H1
      isplitl [H2]; · iexact H2
      isplitl [H3]; · iexact H3
      isplitl [H4]; · iexact H4
      isplitl [H5]; · iexact H5
      iexact H6
    iexact Hg
  have h₂ : iprop(s ∗ (a0 ∗ a1 ∗ a2 ∗ a3 ∗ a4 ∗ a5 ∗ a6) ∗ g) ⊢ (iprop((a0 ∗ a1 ∗ a2 ∗ a3 ∗ a4 ∗ a5 ∗ a6 ∗ s) ∗ g) : sProp 𝕄) := by
    iintro ⟨HS, ⟨H0, H1, H2, H3, H4, H5, H6⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iexact Hg
  exact BI.equiv_iff.mp ⟨h₁, h₂⟩

/-- The class's invariant with the accumulator as a memref owned at some contents, the other scoped buffers grouped
    behind it. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA rest1; rw [scopedRest1_eq]; simp only [scM1, owns_whole]
  exact sep8_last_front _ _ _ _ _ _ _ _ _

/-! ## The input windows' buffers at a point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The input windows' buffers hold their blocks; the point's position modulo 8 says which case
    it is in. At k = 0 the accumulator is handed over at whatever it holds (the class's invariant at the first point,
    what the point before left afterwards) and comes back at the product of the point's blocks; at a later k it is
    handed over at what the point before left and comes back with the point's product added; at k = 7 the output block
    is moreover stored. Away from k = 7 the output window's buffer goes through untouched. The other scoped buffers, the
    generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [outsAt1_A V c t h0]
    by_cases hz : t.val = 0
    · rw [PhiS1_castSucc V c t, PhiS1_zero V c _ _ hz, PhiA1_eq]
      iintro ⟨⟨⟨%ds, HS⟩, Hr, Hg⟩, Ho, ⟨%d0, H0⟩, ⟨%d1, H1⟩, ⟨%d2, H2⟩, ⟨%d3, H3⟩⟩
      iapply (sound_kernel1_A c (grid1.coords t) hc0 hc1 _ _ _ _ _ _ _ _ _ _
        (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, Hr, Hg⟩, Ho, ⟨%d0, H0⟩, ⟨%d1, H1⟩, ⟨%d2, H2⟩, ⟨%d3, H3⟩⟩
      iapply (sound_kernel1_A c (grid1.coords t) hc0 hc1 _ _ _ _ _ _ _ _ _ _
        (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_B V c t h0, outsAt1_C V c t h1]
      rw [PhiS1_castSucc V c t, PhiS1_pos V c _ _ hz]
      iintro ⟨⟨HS, Hr, Hg⟩, Ho, ⟨%d0, H0⟩, ⟨%d1, H1⟩, ⟨%d2, H2⟩, ⟨%d3, H3⟩⟩
      iapply (sound_kernel1_C c (grid1.coords t) hc0 hc1 _ _ _ _ _ _ _ _ _ _
        (iblk1 V c 0 t) (iblk1 V c 1 t) (iblk1 V c 2 t)
        (outsAt1 V c (t.val - 1) (Nat.lt_of_le_of_lt (Nat.sub_le _ _) t.isLt)).2 Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0]
      rw [PhiS1_castSucc V c t, PhiS1_pos V c _ _ hz]
      iintro ⟨⟨HS, Hr, Hg⟩, Ho, ⟨%d0, H0⟩, ⟨%d1, H1⟩, ⟨%d2, H2⟩, ⟨%d3, H3⟩⟩
      iapply (sound_kernel1_B c (grid1.coords t) hc0 hc1 _ _ _ _ _ _ _ _ _ _
        (iblk1 V c 0 t) (iblk1 V c 1 t) (iblk1 V c 2 t) ((dat1 V c).before 3 t d3)
        (outsAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation for the matmul region, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hr, Hg⟩
  isplitl [HS]
  · iexists _; iexact HS
  isplitl [Hr]; · iexact Hr
  iexact Hg

/-- After the last point the invariant gives the class's back: the accumulator's contents are forgotten. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.Kernel.Hand

end
-- ==== Proof.K.Fold.lean ====
/-
  The TensorCore's buffer contents at each boundary of @main's four items, as a fold from the launch memory:
  the two transposes, the densify region (its arrays at what its write-backs leave, every other buffer as entered),
  the convert and the reshape, the matmul region. The result array is read off the last stage; no item writes an
  argument.
-/
import proofs.«429429_j44581760532973_3_alg».proof.Proof.K.Dat0
import proofs.«429429_j44581760532973_3_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the two transposes (the densify region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the densify region's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the convert and the reshape (the matmul region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the matmul region's exit: what the program returns with. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The result array at the end is the matmul region's output window written back. -/
theorem W4_main_v5 (c : Dev nD) : W4 m c (Proc.devRef .tc main_v5) = (dat1 (V3 m) c).arrAt 3 cfg1.N :=
  W4_arr m c 3

end Cert.Kernel.Hand

end
-- ==== Proof.K.Main.lean ====
/-
  The run of @main: its four items as segments (two host stretches, two kernel regions), each region entered from every
  unscoped buffer at the boundary's contents beside the generator register and the core owing nothing, and left the same
  way at the next boundary's contents; the launch over them. Every weakly fair execution terminates and the final memory
  holds every unscoped buffer at the last boundary's contents `W4` — the result array and the untouched arguments among them.
-/
import proofs.«429429_j44581760532973_3_alg».proof.Proof.K.Fold
import proofs.«429429_j44581760532973_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the run holds throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## No item writes an argument

Read back through the fold, an argument's buffer is untouched at every stage: it is no array of the matmul region
(whose arrays are its three operands and the result), neither host operation of the second stretch writes it, it is no
array of the densify region, and neither transpose writes it. -/

/-- No item writes an argument: each reaches the end as launched. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents: the densify region's at what the transposes
    leave, the matmul region's at what the convert and the reshape leave. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the core's dues: every unscoped buffer at the last boundary's contents `W4`, the
    generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The densify region over the thread state: entered from every unscoped buffer at `W1`, left at `W2`. Its arrays are
    split out of the unscoped buffers and put back at the exit contents; the generator register goes into the region
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region over the thread state: entered from every unscoped buffer at `W3`, left at `W4`. Its invariant
    tracks the accumulator between points: it is entered from the class's (every scoped buffer that is no staging buffer
    of the region at some contents, and the generator register), and after the last point the accumulator's contents
    are forgotten, which gives the class's back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the transposes, the densify region, the convert and the reshape, the matmul region. -/
abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments: it is the chain of its items, and the segments' run is that chain. -/
theorem main_run (c : Dev nD) : main (F := F) c = Pipeline.Seg.run (mainSegs m) := (main_chain c).trans (by chain_rfl)

set_option backward.isDefEq.respectTransparency.types false in
/-- THE RUN. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.Kernel.Hand

end
-- ==== Proof.KI.Common.lean ====
/-
  What the two kernel regions' modules share: the staging and scratch memrefs a body is called with at a grid
  point, the matmul region's two branch conditions (k = 0: the accumulator is reset; k = 7: the output block is
  stored) in closed form over the grid, where its output window is idle, and each window's block at a point read
  off the array the region finds (a parameter `V`: the TensorCore's buffer contents at the region's entry).
-/
import proofs.«429429_j44581760532973_3_alg».proof.Proof.Gen.KernelIdeal.Launch
import proofs.«429429_j44581760532973_3_alg».proof.Proof.Gen.KernelIdeal.Skeleton
import proofs.«429429_j44581760532973_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The memrefs a body is called with -/

abbrev ms0_0 (t : Fin cfg0.N) : Memref sig .tc .vmem S32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
/-- The densify kernel's accumulator: a whole scoped buffer of its own. -/
abbrev scM0 : Memref sig .tc .vmem S512x1024 .f32 := Memref.whole cc0_scratch0

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The matmul kernel's accumulator, carried along the contraction axis of its grid. -/
abbrev scM1 : Memref sig .tc .vmem S1024x1024 .f32 := Memref.whole cc1_scratch0

/-! ## The matmul body's two conditions, over the grid -/

/-- `k = 0`: the body resets its accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- `k = 7`: the body stores the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt0 (w : Fin cfg0.W) (t : Fin cfg0.N) : cfg0.idle w (grid0.coords t) = false := rfl
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from `k = 7` the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

section Regions
variable (V : (c : Dev nD) → (b : Ref sig .tc) → Buf (Elt F) ((c : Thread nD τ).loc b))

/-! ## The windows' blocks, read off the arrays the region finds -/

/-- Window `w` of the densify region at point `t`: its block of the array at `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Window `w` of the matmul region at point `t`: its block of the array at `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data over the arrays at `V` whose body leaves the block in place (one statement per input window). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.KernelIdeal.Hand

end
-- ==== Proof.KI.Run0.lean ====
/-
  The densify kernel's body. At grid point (k, j) it builds, in its scratch, the 512 x 1024 tile of the dense matrix whose
  entry (r, o) is the sum over the 32 fan-in slots f of weight(f, o) where index(f, o) equals the absolute row
  512 k + r, and zero elsewhere: the scratch is set to zero and the 32 slots are added one after the other; the tile is
  then stored (narrowed to bf16) into the output block. Stated here: the output block as a function of the two input
  blocks and the point, and the body's triple.
-/
import proofs.«429429_j44581760532973_3_alg».proof.Proof.KI.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through -/

/-- Row `f` of a 32 x 1024 input block (one fan-in slot, all 1024 output columns). -/
abbrev rIn_0 : Rect S32x1024 := Rect.unit (s := S32x1024) ![0, 0] S1x1024.size inb_S32x1024_S1x1024_0_0
abbrev rIn_1 : Rect S32x1024 := Rect.unit (s := S32x1024) ![1, 0] S1x1024.size inb_S32x1024_S1x1024_1_0
abbrev rIn_2 : Rect S32x1024 := Rect.unit (s := S32x1024) ![2, 0] S1x1024.size inb_S32x1024_S1x1024_2_0
abbrev rIn_3 : Rect S32x1024 := Rect.unit (s := S32x1024) ![3, 0] S1x1024.size inb_S32x1024_S1x1024_3_0
abbrev rIn_4 : Rect S32x1024 := Rect.unit (s := S32x1024) ![4, 0] S1x1024.size inb_S32x1024_S1x1024_4_0
abbrev rIn_5 : Rect S32x1024 := Rect.unit (s := S32x1024) ![5, 0] S1x1024.size inb_S32x1024_S1x1024_5_0
abbrev rIn_6 : Rect S32x1024 := Rect.unit (s := S32x1024) ![6, 0] S1x1024.size inb_S32x1024_S1x1024_6_0
abbrev rIn_7 : Rect S32x1024 := Rect.unit (s := S32x1024) ![7, 0] S1x1024.size inb_S32x1024_S1x1024_7_0
abbrev rIn_8 : Rect S32x1024 := Rect.unit (s := S32x1024) ![8, 0] S1x1024.size inb_S32x1024_S1x1024_8_0
abbrev rIn_9 : Rect S32x1024 := Rect.unit (s := S32x1024) ![9, 0] S1x1024.size inb_S32x1024_S1x1024_9_0
abbrev rIn_10 : Rect S32x1024 := Rect.unit (s := S32x1024) ![10, 0] S1x1024.size inb_S32x1024_S1x1024_10_0
abbrev rIn_11 : Rect S32x1024 := Rect.unit (s := S32x1024) ![11, 0] S1x1024.size inb_S32x1024_S1x1024_11_0
abbrev rIn_12 : Rect S32x1024 := Rect.unit (s := S32x1024) ![12, 0] S1x1024.size inb_S32x1024_S1x1024_12_0
abbrev rIn_13 : Rect S32x1024 := Rect.unit (s := S32x1024) ![13, 0] S1x1024.size inb_S32x1024_S1x1024_13_0
abbrev rIn_14 : Rect S32x1024 := Rect.unit (s := S32x1024) ![14, 0] S1x1024.size inb_S32x1024_S1x1024_14_0
abbrev rIn_15 : Rect S32x1024 := Rect.unit (s := S32x1024) ![15, 0] S1x1024.size inb_S32x1024_S1x1024_15_0
abbrev rIn_16 : Rect S32x1024 := Rect.unit (s := S32x1024) ![16, 0] S1x1024.size inb_S32x1024_S1x1024_16_0
abbrev rIn_17 : Rect S32x1024 := Rect.unit (s := S32x1024) ![17, 0] S1x1024.size inb_S32x1024_S1x1024_17_0
abbrev rIn_18 : Rect S32x1024 := Rect.unit (s := S32x1024) ![18, 0] S1x1024.size inb_S32x1024_S1x1024_18_0
abbrev rIn_19 : Rect S32x1024 := Rect.unit (s := S32x1024) ![19, 0] S1x1024.size inb_S32x1024_S1x1024_19_0
abbrev rIn_20 : Rect S32x1024 := Rect.unit (s := S32x1024) ![20, 0] S1x1024.size inb_S32x1024_S1x1024_20_0
abbrev rIn_21 : Rect S32x1024 := Rect.unit (s := S32x1024) ![21, 0] S1x1024.size inb_S32x1024_S1x1024_21_0
abbrev rIn_22 : Rect S32x1024 := Rect.unit (s := S32x1024) ![22, 0] S1x1024.size inb_S32x1024_S1x1024_22_0
abbrev rIn_23 : Rect S32x1024 := Rect.unit (s := S32x1024) ![23, 0] S1x1024.size inb_S32x1024_S1x1024_23_0
abbrev rIn_24 : Rect S32x1024 := Rect.unit (s := S32x1024) ![24, 0] S1x1024.size inb_S32x1024_S1x1024_24_0
abbrev rIn_25 : Rect S32x1024 := Rect.unit (s := S32x1024) ![25, 0] S1x1024.size inb_S32x1024_S1x1024_25_0
abbrev rIn_26 : Rect S32x1024 := Rect.unit (s := S32x1024) ![26, 0] S1x1024.size inb_S32x1024_S1x1024_26_0
abbrev rIn_27 : Rect S32x1024 := Rect.unit (s := S32x1024) ![27, 0] S1x1024.size inb_S32x1024_S1x1024_27_0
abbrev rIn_28 : Rect S32x1024 := Rect.unit (s := S32x1024) ![28, 0] S1x1024.size inb_S32x1024_S1x1024_28_0
abbrev rIn_29 : Rect S32x1024 := Rect.unit (s := S32x1024) ![29, 0] S1x1024.size inb_S32x1024_S1x1024_29_0
abbrev rIn_30 : Rect S32x1024 := Rect.unit (s := S32x1024) ![30, 0] S1x1024.size inb_S32x1024_S1x1024_30_0
abbrev rIn_31 : Rect S32x1024 := Rect.unit (s := S32x1024) ![31, 0] S1x1024.size inb_S32x1024_S1x1024_31_0
/-- The whole 512 x 1024 tile. -/
abbrev rTile : Rect S512x1024 := Rect.unit (s := S512x1024) ![0, 0] S512x1024.size inb_S512x1024_S512x1024_0_0

/-! ## The scratch after each slot

`acc0_k` is the scratch once the first `k` fan-in slots have been added: `acc0_0` is the zero tile, and `acc0_(f+1)` is
`acc0_f` plus, entrywise, weight row `f` where index row `f` equals the absolute row and zero elsewhere (each step through
the payloads the printed body computes it by). -/

def acc0_0 (i : grid0.Coords) (x0 : Vec F S32x1024 .f32) (x1 : Vec F S32x1024 .i32) : Vec F S512x1024 .f32 :=
  k0_pay2
def acc0_1 (i : grid0.Coords) (x0 : Vec F S32x1024 .f32) (x1 : Vec F S32x1024 .i32) : Vec F S512x1024 .f32 :=
  k0_pay3 i (View.ld x1 rIn_0) (View.ld x0 rIn_0) (acc0_0 i x0 x1)
def acc0_2 (i : grid0.Coords) (x0 : Vec F S32x1024 .f32) (x1 : Vec F S32x1024 .i32) : Vec F S512x1024 .f32 :=
  k0_pay6 (k0_pay4 i (View.ld x1 rIn_1)) (acc0_1 i x0 x1) (Scalar.ofBits .f32 0x00000000#32) (k0_pay5 (View.ld x0 rIn_1))
def acc0_3 (i : grid0.Coords) (x0 : Vec F S32x1024 .f32) (x1 : Vec F S32x1024 .i32) : Vec F S512x1024 .f32 :=
  k0_pay7 (k0_pay1 i) (View.ld x1 rIn_2) (View.ld x0 rIn_2) (acc0_2 i x0 x1)
def acc0_4 (i : grid0.Coords) (x0 : Vec F S32x1024 .f32) (x1 : Vec F S32x1024 .i32) : Vec F S512x1024 .f32 :=
  k0_pay9 (k0_pay8 (k0_pay1 i) (View.ld x1 rIn_3) (View.ld x0 rIn_3) (acc0_3 i x0 x1))
def acc0_5 (i : grid0.Coords) (x0 : Vec F S32x1024 .f32) (x1 : Vec F S32x1024 .i32) : Vec F S512x1024 .f32 :=
  k0_pay10 (k0_pay1 i) (View.ld x1 rIn_4) (View.ld x0 rIn_4) (acc0_4 i x0 x1)
def acc0_6 (i : grid0.Coords) (x0 : Vec F S32x1024 .f32) (x1 : Vec F S32x1024 .i32) : Vec F S512x1024 .f32 :=
  k0_pay11 (k0_pay1 i) (View.ld x1 rIn_5) (View.ld x0 rIn_5) (acc0_5 i x0 x1)
def acc0_7 (i : grid0.Coords) (x0 : Vec F S32x1024 .f32) (x1 : Vec F S32x1024 .i32) : Vec F S512x1024 .f32 :=
  k0_pay12 (k0_pay1 i) (View.ld x1 rIn_6) (View.ld x0 rIn_6) (acc0_6 i x0 x1)
def acc0_8 (i : grid0.Coords) (x0 : Vec F S32x1024 .f32) (x1 : Vec F S32x1024 .i32) : Vec F S512x1024 .f32 :=
  k0_pay13 (k0_pay1 i) (View.ld x1 rIn_7) (View.ld x0 rIn_7) (acc0_7 i x0 x1)
def acc0_9 (i : grid0.Coords) (x0 : Vec F S32x1024 .f32) (x1 : Vec F S32x1024 .i32) : Vec F S512x1024 .f32 :=
  k0_pay16 (k0_pay1 i) (k0_pay14 (View.ld x1 rIn_8)) (k0_pay15 (View.ld x0 rIn_8)) (acc0_8 i x0 x1)
def acc0_10 (i : grid0.Coords) (x0 : Vec F S32x1024 .f32) (x1 : Vec F S32x1024 .i32) : Vec F S512x1024 .f32 :=
  k0_pay17 (k0_pay1 i) (View.ld x1 rIn_9) (View.ld x0 rIn_9) (acc0_9 i x0 x1)
def acc0_11 (i : grid0.Coords) (x0 : Vec F S32x1024 .f32) (x1 : Vec F S32x1024 .i32) : Vec F S512x1024 .f32 :=
  k0_pay20 (k0_pay18 (View.ld x0 rIn_10)) (k0_pay19 (k0_pay1 i) (View.ld x1 rIn_10)) (acc0_10 i x0 x1)
def acc0_12 (i : grid0.Coords) (x0 : Vec F S32x1024 .f32) (x1 : Vec F S32x1024 .i32) : Vec F S512x1024 .f32 :=
  k0_pay21 (k0_pay1 i) (View.ld x1 rIn_11) (View.ld x0 rIn_11) (acc0_11 i x0 x1)
def acc0_13 (i : grid0.Coords) (x0 : Vec F S32x1024 .f32) (x1 : Vec F S32x1024 .i32) : Vec F S512x1024 .f32 :=
  k0_pay23 (k0_pay22 (k0_pay1 i) (View.ld x1 rIn_12) (View.ld x0 rIn_12) (acc0_12 i x0 x1))
def acc0_14 (i : grid0.Coords) (x0 : Vec F S32x1024 .f32) (x1 : Vec F S32x1024 .i32) : Vec F S512x1024 .f32 :=
  k0_pay24 (k0_pay1 i) (View.ld x1 rIn_13) (View.ld x0 rIn_13) (acc0_13 i x0 x1)
def acc0_15 (i : grid0.Coords) (x0 : Vec F S32x1024 .f32) (x1 : Vec F S32x1024 .i32) : Vec F S512x1024 .f32 :=
  k0_pay25 (k0_pay1 i) (View.ld x1 rIn_14) (View.ld x0 rIn_14) (acc0_14 i x0 x1)
def acc0_16 (i : grid0.Coords) (x0 : Vec F S32x1024 .f32) (x1 : Vec F S32x1024 .i32) : Vec F S512x1024 .f32 :=
  k0_pay26 (k0_pay1 i) (View.ld x1 rIn_15) (View.ld x0 rIn_15) (acc0_15 i x0 x1)
def acc0_17 (i : grid0.Coords) (x0 : Vec F S32x1024 .f32) (x1 : Vec F S32x1024 .i32) : Vec F S512x1024 .f32 :=
  k0_pay27 (k0_pay1 i) (View.ld x1 rIn_16) (View.ld x0 rIn_16) (acc0_16 i x0 x1)
def acc0_18 (i : grid0.Coords) (x0 : Vec F S32x1024 .f32) (x1 : Vec F S32x1024 .i32) : Vec F S512x1024 .f32 :=
  k0_pay29 (k0_pay1 i) (k0_pay28 (View.ld x1 rIn_17)) (View.ld x0 rIn_17) (acc0_17 i x0 x1)
def acc0_19 (i : grid0.Coords) (x0 : Vec F S32x1024 .f32) (x1 : Vec F S32x1024 .i32) : Vec F S512x1024 .f32 :=
  k0_pay30 (k0_pay1 i) (View.ld x1 rIn_18) (View.ld x0 rIn_18) (acc0_18 i x0 x1)
def acc0_20 (i : grid0.Coords) (x0 : Vec F S32x1024 .f32) (x1 : Vec F S32x1024 .i32) : Vec F S512x1024 .f32 :=
  k0_pay33 (k0_pay31 (View.ld x0 rIn_19)) (k0_pay32 (k0_pay1 i) (View.ld x1 rIn_19)) (acc0_19 i x0 x1)
def acc0_21 (i : grid0.Coords) (x0 : Vec F S32x1024 .f32) (x1 : Vec F S32x1024 .i32) : Vec F S512x1024 .f32 :=
  k0_pay34 (k0_pay1 i) (View.ld x1 rIn_20) (View.ld x0 rIn_20) (acc0_20 i x0 x1)
def acc0_22 (i : grid0.Coords) (x0 : Vec F S32x1024 .f32) (x1 : Vec F S32x1024 .i32) : Vec F S512x1024 .f32 :=
  k0_pay37 (k0_pay35 (k0_pay1 i) (View.ld x1 rIn_21)) (acc0_21 i x0 x1) (Scalar.ofBits .f32 0x00000000#32) (k0_pay36 (View.ld x0 rIn_21))
def acc0_23 (i : grid0.Coords) (x0 : Vec F S32x1024 .f32) (x1 : Vec F S32x1024 .i32) : Vec F S512x1024 .f32 :=
  k0_pay38 (k0_pay1 i) (View.ld x1 rIn_22) (View.ld x0 rIn_22) (acc0_22 i x0 x1)
def acc0_24 (i : grid0.Coords) (x0 : Vec F S32x1024 .f32) (x1 : Vec F S32x1024 .i32) : Vec F S512x1024 .f32 :=
  k0_pay40 (k0_pay39 (k0_pay1 i) (View.ld x1 rIn_23) (View.ld x0 rIn_23) (acc0_23 i x0 x1))
def acc0_25 (i : grid0.Coords) (x0 : Vec F S32x1024 .f32) (x1 : Vec F S32x1024 .i32) : Vec F S512x1024 .f32 :=
  k0_pay41 (k0_pay1 i) (View.ld x1 rIn_24) (View.ld x0 rIn_24) (acc0_24 i x0 x1)
def acc0_26 (i : grid0.Coords) (x0 : Vec F S32x1024 .f32) (x1 : Vec F S32x1024 .i32) : Vec F S512x1024 .f32 :=
  k0_pay42 (k0_pay1 i) (View.ld x1 rIn_25) (View.ld x0 rIn_25) (acc0_25 i x0 x1)
def acc0_27 (i : grid0.Coords) (x0 : Vec F S32x1024 .f32) (x1 : Vec F S32x1024 .i32) : Vec F S512x1024 .f32 :=
  k0_pay43 (k0_pay1 i) (View.ld x1 rIn_26) (View.ld x0 rIn_26) (acc0_26 i x0 x1)
def acc0_28 (i : grid0.Coords) (x0 : Vec F S32x1024 .f32) (x1 : Vec F S32x1024 .i32) : Vec F S512x1024 .f32 :=
  k0_pay44 (k0_pay1 i) (View.ld x1 rIn_27) (View.ld x0 rIn_27) (acc0_27 i x0 x1)
def acc0_29 (i : grid0.Coords) (x0 : Vec F S32x1024 .f32) (x1 : Vec F S32x1024 .i32) : Vec F S512x1024 .f32 :=
  k0_pay47 (k0_pay1 i) (k0_pay45 (View.ld x1 rIn_28)) (k0_pay46 (View.ld x0 rIn_28)) (acc0_28 i x0 x1)
def acc0_30 (i : grid0.Coords) (x0 : Vec F S32x1024 .f32) (x1 : Vec F S32x1024 .i32) : Vec F S512x1024 .f32 :=
  k0_pay48 (k0_pay1 i) (View.ld x1 rIn_29) (View.ld x0 rIn_29) (acc0_29 i x0 x1)
def acc0_31 (i : grid0.Coords) (x0 : Vec F S32x1024 .f32) (x1 : Vec F S32x1024 .i32) : Vec F S512x1024 .f32 :=
  k0_pay51 (k0_pay49 (View.ld x0 rIn_30)) (k0_pay50 (k0_pay1 i) (View.ld x1 rIn_30)) (acc0_30 i x0 x1)
def acc0_32 (i : grid0.Coords) (x0 : Vec F S32x1024 .f32) (x1 : Vec F S32x1024 .i32) : Vec F S512x1024 .f32 :=
  k0_pay52 (k0_pay1 i) (View.ld x1 rIn_31) (View.ld x0 rIn_31) (acc0_31 i x0 x1)

/-- What the body leaves in the output block, from the weight block `x0`, the index block `x1` and the point `i`. -/
def out0 (i : grid0.Coords) (x0 : Vec F S32x1024 .f32) (x1 : Vec F S32x1024 .i32) : Vec F S512x1024 .bf16 :=
  k0_pay53 (acc0_32 i x0 x1)

/-! ## Reading the scratch back -/

/-- A load of a whole buffer right after a store of the whole buffer reads the stored value, whatever was stored before. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The whole tile's rectangle starts at the origin. -/
theorem hzT : (![0, 0] : Fin S512x1024.rank → Nat) = fun _ => 0 := funext fun a => by fin_cases a <;> rfl

set_option maxHeartbeats 4000000 in
/-- The body on whole memrefs: inputs kept, the output block from anything to `out0`, the scratch from anything to something. -/
theorem sound_kernel0 (c : Dev nD) (i : grid0.Coords)
    (arg2 : Memref sig .tc .vmem S32x1024 .f32) (harg2 : arg2.IsWhole) (arg3 : Memref sig .tc .vmem S32x1024 .i32) (harg3 : arg3.IsWhole)
    (arg4 : Memref sig .tc .vmem S512x1024 .bf16) (harg4 : arg4.IsWhole) (arg5 : Memref sig .tc .vmem S512x1024 .f32) (harg5 : arg5.IsWhole)
    (x0 : Vec F S32x1024 .f32) (x1 : Vec F S32x1024 .i32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0 i x0 x1) ∗ (∃ d, owns (c : Thread nD τ) arg5 fullShare d)) -∗ K ⟨⟩))
      ⊢ wp frame (wpE (defs₀ (F := F)) Variants.none c none) E (cc0__densify_kernel i arg2 harg2 arg3 harg3 arg4 harg4 arg5 harg5) K := by
  simp only [cc0__densify_kernel_eq_skeleton]; unfold cc0__densify_kernel_skel
  unfold owns
  iintro ⟨⟨%f0, %hf0, H0⟩, ⟨%f1, %hf1, H1⟩, ⟨%d4, %f4, -, H4⟩, ⟨%d5, %f5, -, H5⟩, Hk⟩
  subst hf0
  subst hf1
  sl_exec
  sl_step
  -- the scratch read back after each slot is the chain's next term
  have e0 : sound_kernel0.sl.v16 c arg5 = acc0_0 i (arg2.view.read (Elt F) f0) (arg3.view.read (Elt F) f1) := by
    unfold sound_kernel0.sl.v16 sound_kernel0.sl.H5_1
    rw [View.readCov_unit_zero _ hzT]
    rfl
  have e1 : sound_kernel0.sl.v33 c i arg2 arg3 arg5 f0 f1 = acc0_1 i (arg2.view.read (Elt F) f0) (arg3.view.read (Elt F) f1) := by
    unfold sound_kernel0.sl.v33 sound_kernel0.sl.H5_2
    rw [readCov_cons_whole _ hzT]
    rw [e0]
    rfl
  have e2 : sound_kernel0.sl.v50 c i arg2 arg3 arg5 f0 f1 = acc0_2 i (arg2.view.read (Elt F) f0) (arg3.view.read (Elt F) f1) := by
    unfold sound_kernel0.sl.v50 sound_kernel0.sl.H5_3
    rw [readCov_cons_whole _ hzT]
    rw [e1]
    rfl
  have e3 : sound_kernel0.sl.v67 c i arg2 arg3 arg5 f0 f1 = acc0_3 i (arg2.view.read (Elt F) f0) (arg3.view.read (Elt F) f1) := by
    unfold sound_kernel0.sl.v67 sound_kernel0.sl.H5_4
    rw [readCov_cons_whole _ hzT]
    rw [e2]
    rfl
  have e4 : sound_kernel0.sl.v84 c i arg2 arg3 arg5 f0 f1 = acc0_4 i (arg2.view.read (Elt F) f0) (arg3.view.read (Elt F) f1) := by
    unfold sound_kernel0.sl.v84 sound_kernel0.sl.H5_5
    rw [readCov_cons_whole _ hzT]
    unfold sound_kernel0.sl.r_2
    rw [e3]
    rfl
  have e5 : sound_kernel0.sl.v101 c i arg2 arg3 arg5 f0 f1 = acc0_5 i (arg2.view.read (Elt F) f0) (arg3.view.read (Elt F) f1) := by
    unfold sound_kernel0.sl.v101 sound_kernel0.sl.H5_6
    rw [readCov_cons_whole _ hzT]
    rw [e4]
    rfl
  have e6 : sound_kernel0.sl.v118 c i arg2 arg3 arg5 f0 f1 = acc0_6 i (arg2.view.read (Elt F) f0) (arg3.view.read (Elt F) f1) := by
    unfold sound_kernel0.sl.v118 sound_kernel0.sl.H5_7
    rw [readCov_cons_whole _ hzT]
    rw [e5]
    rfl
  have e7 : sound_kernel0.sl.v135 c i arg2 arg3 arg5 f0 f1 = acc0_7 i (arg2.view.read (Elt F) f0) (arg3.view.read (Elt F) f1) := by
    unfold sound_kernel0.sl.v135 sound_kernel0.sl.H5_8
    rw [readCov_cons_whole _ hzT]
    rw [e6]
    rfl
  have e8 : sound_kernel0.sl.v152 c i arg2 arg3 arg5 f0 f1 = acc0_8 i (arg2.view.read (Elt F) f0) (arg3.view.read (Elt F) f1) := by
    unfold sound_kernel0.sl.v152 sound_kernel0.sl.H5_9
    rw [readCov_cons_whole _ hzT]
    rw [e7]
    rfl
  have e9 : sound_kernel0.sl.v169 c i arg2 arg3 arg5 f0 f1 = acc0_9 i (arg2.view.read (Elt F) f0) (arg3.view.read (Elt F) f1) := by
    unfold sound_kernel0.sl.v169 sound_kernel0.sl.H5_10
    rw [readCov_cons_whole _ hzT]
    rw [e8]
    rfl
  have e10 : sound_kernel0.sl.v186 c i arg2 arg3 arg5 f0 f1 = acc0_10 i (arg2.view.read (Elt F) f0) (arg3.view.read (Elt F) f1) := by
    unfold sound_kernel0.sl.v186 sound_kernel0.sl.H5_11
    rw [readCov_cons_whole _ hzT]
    rw [e9]
    rfl
  have e11 : sound_kernel0.sl.v203 c i arg2 arg3 arg5 f0 f1 = acc0_11 i (arg2.view.read (Elt F) f0) (arg3.view.read (Elt F) f1) := by
    unfold sound_kernel0.sl.v203 sound_kernel0.sl.H5_12
    rw [readCov_cons_whole _ hzT]
    rw [e10]
    rfl
  have e12 : sound_kernel0.sl.v220 c i arg2 arg3 arg5 f0 f1 = acc0_12 i (arg2.view.read (Elt F) f0) (arg3.view.read (Elt F) f1) := by
    unfold sound_kernel0.sl.v220 sound_kernel0.sl.H5_13
    rw [readCov_cons_whole _ hzT]
    rw [e11]
    rfl
  have e13 : sound_kernel0.sl.v237 c i arg2 arg3 arg5 f0 f1 = acc0_13 i (arg2.view.read (Elt F) f0) (arg3.view.read (Elt F) f1) := by
    unfold sound_kernel0.sl.v237 sound_kernel0.sl.H5_14
    rw [readCov_cons_whole _ hzT]
    unfold sound_kernel0.sl.r_8
    rw [e12]
    rfl
  have e14 : sound_kernel0.sl.v254 c i arg2 arg3 arg5 f0 f1 = acc0_14 i (arg2.view.read (Elt F) f0) (arg3.view.read (Elt F) f1) := by
    unfold sound_kernel0.sl.v254 sound_kernel0.sl.H5_15
    rw [readCov_cons_whole _ hzT]
    rw [e13]
    rfl
  have e15 : sound_kernel0.sl.v271 c i arg2 arg3 arg5 f0 f1 = acc0_15 i (arg2.view.read (Elt F) f0) (arg3.view.read (Elt F) f1) := by
    unfold sound_kernel0.sl.v271 sound_kernel0.sl.H5_16
    rw [readCov_cons_whole _ hzT]
    rw [e14]
    rfl
  have e16 : sound_kernel0.sl.v288 c i arg2 arg3 arg5 f0 f1 = acc0_16 i (arg2.view.read (Elt F) f0) (arg3.view.read (Elt F) f1) := by
    unfold sound_kernel0.sl.v288 sound_kernel0.sl.H5_17
    rw [readCov_cons_whole _ hzT]
    rw [e15]
    rfl
  have e17 : sound_kernel0.sl.v305 c i arg2 arg3 arg5 f0 f1 = acc0_17 i (arg2.view.read (Elt F) f0) (arg3.view.read (Elt F) f1) := by
    unfold sound_kernel0.sl.v305 sound_kernel0.sl.H5_18
    rw [readCov_cons_whole _ hzT]
    rw [e16]
    rfl
  have e18 : sound_kernel0.sl.v322 c i arg2 arg3 arg5 f0 f1 = acc0_18 i (arg2.view.read (Elt F) f0) (arg3.view.read (Elt F) f1) := by
    unfold sound_kernel0.sl.v322 sound_kernel0.sl.H5_19
    rw [readCov_cons_whole _ hzT]
    rw [e17]
    rfl
  have e19 : sound_kernel0.sl.v339 c i arg2 arg3 arg5 f0 f1 = acc0_19 i (arg2.view.read (Elt F) f0) (arg3.view.read (Elt F) f1) := by
    unfold sound_kernel0.sl.v339 sound_kernel0.sl.H5_20
    rw [readCov_cons_whole _ hzT]
    rw [e18]
    rfl
  have e20 : sound_kernel0.sl.v356 c i arg2 arg3 arg5 f0 f1 = acc0_20 i (arg2.view.read (Elt F) f0) (arg3.view.read (Elt F) f1) := by
    unfold sound_kernel0.sl.v356 sound_kernel0.sl.H5_21
    rw [readCov_cons_whole _ hzT]
    rw [e19]
    rfl
  have e21 : sound_kernel0.sl.v373 c i arg2 arg3 arg5 f0 f1 = acc0_21 i (arg2.view.read (Elt F) f0) (arg3.view.read (Elt F) f1) := by
    unfold sound_kernel0.sl.v373 sound_kernel0.sl.H5_22
    rw [readCov_cons_whole _ hzT]
    rw [e20]
    rfl
  have e22 : sound_kernel0.sl.v390 c i arg2 arg3 arg5 f0 f1 = acc0_22 i (arg2.view.read (Elt F) f0) (arg3.view.read (Elt F) f1) := by
    unfold sound_kernel0.sl.v390 sound_kernel0.sl.H5_23
    rw [readCov_cons_whole _ hzT]
    rw [e21]
    rfl
  have e23 : sound_kernel0.sl.v407 c i arg2 arg3 arg5 f0 f1 = acc0_23 i (arg2.view.read (Elt F) f0) (arg3.view.read (Elt F) f1) := by
    unfold sound_kernel0.sl.v407 sound_kernel0.sl.H5_24
    rw [readCov_cons_whole _ hzT]
    rw [e22]
    rfl
  have e24 : sound_kernel0.sl.v424 c i arg2 arg3 arg5 f0 f1 = acc0_24 i (arg2.view.read (Elt F) f0) (arg3.view.read (Elt F) f1) := by
    unfold sound_kernel0.sl.v424 sound_kernel0.sl.H5_25
    rw [readCov_cons_whole _ hzT]
    unfold sound_kernel0.sl.r_14
    rw [e23]
    rfl
  have e25 : sound_kernel0.sl.v441 c i arg2 arg3 arg5 f0 f1 = acc0_25 i (arg2.view.read (Elt F) f0) (arg3.view.read (Elt F) f1) := by
    unfold sound_kernel0.sl.v441 sound_kernel0.sl.H5_26
    rw [readCov_cons_whole _ hzT]
    rw [e24]
    rfl
  have e26 : sound_kernel0.sl.v458 c i arg2 arg3 arg5 f0 f1 = acc0_26 i (arg2.view.read (Elt F) f0) (arg3.view.read (Elt F) f1) := by
    unfold sound_kernel0.sl.v458 sound_kernel0.sl.H5_27
    rw [readCov_cons_whole _ hzT]
    rw [e25]
    rfl
  have e27 : sound_kernel0.sl.v475 c i arg2 arg3 arg5 f0 f1 = acc0_27 i (arg2.view.read (Elt F) f0) (arg3.view.read (Elt F) f1) := by
    unfold sound_kernel0.sl.v475 sound_kernel0.sl.H5_28
    rw [readCov_cons_whole _ hzT]
    rw [e26]
    rfl
  have e28 : sound_kernel0.sl.v492 c i arg2 arg3 arg5 f0 f1 = acc0_28 i (arg2.view.read (Elt F) f0) (arg3.view.read (Elt F) f1) := by
    unfold sound_kernel0.sl.v492 sound_kernel0.sl.H5_29
    rw [readCov_cons_whole _ hzT]
    rw [e27]
    rfl
  have e29 : sound_kernel0.sl.v509 c i arg2 arg3 arg5 f0 f1 = acc0_29 i (arg2.view.read (Elt F) f0) (arg3.view.read (Elt F) f1) := by
    unfold sound_kernel0.sl.v509 sound_kernel0.sl.H5_30
    rw [readCov_cons_whole _ hzT]
    rw [e28]
    rfl
  have e30 : sound_kernel0.sl.v526 c i arg2 arg3 arg5 f0 f1 = acc0_30 i (arg2.view.read (Elt F) f0) (arg3.view.read (Elt F) f1) := by
    unfold sound_kernel0.sl.v526 sound_kernel0.sl.H5_31
    rw [readCov_cons_whole _ hzT]
    rw [e29]
    rfl
  have e31 : sound_kernel0.sl.v543 c i arg2 arg3 arg5 f0 f1 = acc0_31 i (arg2.view.read (Elt F) f0) (arg3.view.read (Elt F) f1) := by
    unfold sound_kernel0.sl.v543 sound_kernel0.sl.H5_32
    rw [readCov_cons_whole _ hzT]
    rw [e30]
    rfl
  have e32 : sound_kernel0.sl.v552 c i arg2 arg3 arg5 f0 f1 = acc0_32 i (arg2.view.read (Elt F) f0) (arg3.view.read (Elt F) f1) := by
    unfold sound_kernel0.sl.v552 sound_kernel0.sl.H5_33
    rw [readCov_cons_whole _ hzT]
    rw [e31]
    rfl
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (fun y => ⟨_, List.mem_singleton_self _, View.mem_set_unit_zero hzT inb_S512x1024_S512x1024_0_0 y⟩),
      View.canon_unit_zero hzT]
    unfold sound_kernel0.sl.r_20 out0
    rw [e32]
  iexists _; iexists _; isplitr
  swap; · iexact H5
  ipureintro; rfl

end Cert.KernelIdeal.Hand

end
-- ==== Proof.KI.Dat0.lean ====
/-
  The densify region's proof data at the region-entry contents `V`: after the body at a point the two input windows'
  buffers hold their blocks and the output window's buffer holds `out0` of them; the region invariant is the class's
  (every scoped buffer that is no staging buffer of this region — the accumulator among them — at some contents, and
  the generator register at some state): the body resets its accumulator at every point, so nothing is carried.
-/
import proofs.«429429_j44581760532973_3_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0 (grid0.coords t) (iblk0 V c 0 t) (iblk0 V c 1 t) := by dsimp only [dat0]

/-- The scoped buffers that are no staging buffer of the densify region, other than its accumulator: the matmul region's
    staging buffers and accumulator, each at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The class's invariant with the accumulator as a memref owned at some contents: what the body is handed and hands
    back. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## The input windows' buffers at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns (no window of this region is ever idle). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the input windows' buffers hold their blocks; the invariant hands the body its accumulator
    at whatever it holds and takes it back at whatever the body leaves there; the other scoped buffers, the generator
    register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  rw [show (dat0 V c).Φ t.castSucc = Pipeline.ΦA spec0 c from rfl, PhiA0_eq]
  iintro ⟨⟨⟨HS, Hr⟩, Hg⟩, Ho, ⟨%d0, H0⟩, ⟨%d1, H1⟩, ⟨%d2, H2⟩⟩
  iapply (sound_kernel0 c (grid0.coords t) _ _ _ _ _ _ _ _ (iblk0 V c 0 t) (iblk0 V c 1 t) Set.univ _)
  isplitl [H0]; · iexact H0
  isplitl [H1]; · iexact H1
  isplitl [H2]; · iexists _; iexact H2
  isplitl [HS]; · iexact HS
  iintro ⟨H0, H1, H2, HS⟩
  isplitl [HS Hr Hg]
  · isplitl [HS Hr]
    · isplitl [HS]; · iexact HS
      iexact Hr
    iexact Hg
  isplitl [Ho]; · iexact Ho
  isplitl [H0]; · iexact H0
  isplitl [H1]; · iexact H1
  iexact H2

/-- The library's body obligation for the densify region, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Run1.lean ====
/-
  The matmul kernel's body, case by case. Along the contraction axis k of its grid the body keeps an accumulator in
  its scratch: at k = 0 it first resets it to zero; at every k it adds the product of its two input blocks; at
  k = 7 it stores accumulator + bias row into the output block. Three cases meet the grid: A (k = 0), B (0 < k < 7),
  C (k = 7). Stated here: what each case leaves in the scratch and (C) in the output block as functions of what the
  body found, and the body's triple per case.
-/
import proofs.«429429_j44581760532973_3_alg».proof.Proof.KI.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator after a k = 0 point: zero plus the product of the point's blocks. -/
def sout1_A (x0 : Vec F S1024x512 .bf16) (x1 : Vec F S512x1024 .bf16) : Vec F S1024x1024 .f32 :=
  k1_pay2 (k1_pay1 (F := F)) x0 x1
/-- The accumulator after a later point: what the point before left plus the product of the point's blocks. -/
def sout1_B (xs : Vec F S1024x1024 .f32) (x0 : Vec F S1024x512 .bf16) (x1 : Vec F S512x1024 .bf16) : Vec F S1024x1024 .f32 :=
  k1_pay2 xs x0 x1
/-- The output block after a k = 7 point: the accumulator it leaves plus the bias row on every row. -/
def out1_C (xs : Vec F S1024x1024 .f32) (x0 : Vec F S1024x512 .bf16) (x1 : Vec F S512x1024 .bf16) (x2 : Vec F S1x1024 .f32) : Vec F S1024x1024 .f32 :=
  k1_pay3 (k1_pay2 xs x0 x1) x2

/-- The zero offsets of a rank-two rectangle, as the constant function. -/
private theorem off2_zero : (![0, 0] : Fin 2 → Nat) = fun _ => 0 := by
  funext a; fin_cases a <;> rfl

/-- A list of stores whose last is through the whole accumulator-shaped buffer covers it. -/
private theorem cover_whole1 (w : Vec F S1024x1024 .f32) (L : List (View.Piece (Elt F) S1024x1024 .f32)) (y : S1024x1024.Idx) :
    ∃ p ∈ ((⟨Rect.unit (s := S1024x1024) ![0, 0] S1024x1024.size inb_S1024x1024_S1024x1024_0_0, w⟩ : View.Piece (Elt F) S1024x1024 .f32) :: L), y ∈ p.1.set :=
  ⟨_, List.Mem.head _, View.mem_set_unit_zero off2_zero inb_S1024x1024_S1024x1024_0_0 y⟩

set_option maxHeartbeats 1000000 in
/-- Case A (k = 0, not the last k): inputs kept, the idle output block untouched, the scratch from anything to `sout1_A`. -/
theorem sound_kernel1_A (c : Dev nD) (i : grid1.Coords) (hc0 : cond1_0 i) (hc1 : ¬cond1_1 i)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S512x1024 .bf16) (x2 : Vec F S1x1024 .f32) (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (sout1_A x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover_whole1 _ _),
    View.canon_cons_unit_zero off2_zero]
  sl_unfold_run_names
  rw [View.readCov_unit_zero (S := S1024x1024) _ off2_zero]
  simp only [View.readAt_eq_ld, View.ld_unit_zero (S := S1024x512) off2_zero, View.ld_unit_zero (S := S512x1024) off2_zero]
  rfl

set_option maxHeartbeats 1000000 in
/-- Case B (0 < k < 7): inputs kept, the idle output block untouched, the scratch from `xs` to `sout1_B xs`. -/
theorem sound_kernel1_B (c : Dev nD) (i : grid1.Coords) (hc0 : ¬cond1_0 i) (hc1 : ¬cond1_1 i)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S512x1024 .bf16) (x2 : Vec F S1x1024 .f32) (xi3 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (sout1_B xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover_whole1 _ _),
    View.canon_unit_zero off2_zero]
  simp only [View.readAt_eq_ld, View.ld_unit_zero (S := S1024x1024) off2_zero, View.ld_unit_zero (S := S1024x512) off2_zero,
    View.ld_unit_zero (S := S512x1024) off2_zero]
  rfl

set_option maxHeartbeats 2000000 in
/-- Case C (k = 7): inputs kept, the scratch from `xs` to `sout1_B xs`, the output block from anything to `out1_C`. -/
theorem sound_kernel1_C (c : Dev nD) (i : grid1.Coords) (hc0 : ¬cond1_0 i) (hc1 : cond1_1 i)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S512x1024 .bf16) (x2 : Vec F S1x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (out1_C xs x0 x1 x2) ∗ owns (c : Thread nD τ) arg7 fullShare (sout1_B xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_whole1 _ _),
      View.canon_unit_zero off2_zero]
    sl_unfold_run_names
    rw [View.readCov_unit_zero (S := S1024x1024) _ off2_zero]
    simp only [View.readAt_eq_ld, View.ld_unit_zero (S := S1024x1024) off2_zero, View.ld_unit_zero (S := S1024x512) off2_zero,
      View.ld_unit_zero (S := S512x1024) off2_zero, View.ld_unit_zero (S := S1x1024) off2_zero]
    rfl
  iexists _; isplitr
  swap; · iexact HS
  ipureintro
  sl_unfold_run_names
  rw [View.read_writes_eq_canon _ _ _ (cover_whole1 _ _),
    View.canon_unit_zero off2_zero]
  simp only [View.readAt_eq_ld, View.ld_unit_zero (S := S1024x1024) off2_zero, View.ld_unit_zero (S := S1024x512) off2_zero,
    View.ld_unit_zero (S := S512x1024) off2_zero]
  rfl

end Cert.KernelIdeal.Hand

end
-- ==== Proof.KI.Dat1.lean ====
/-
  The matmul region's proof data at the region-entry contents `V`. The accumulator is carried along the contraction
  axis, so the data name, point by point, what the output block's buffer and the scratch hold after the body
  (`outsAt1`: by recursion on the point — at k = 0 from the point's blocks alone, later over what the point before left),
  and the region invariant says so between points (`PhiS1`).
-/
import proofs.«429429_j44581760532973_3_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- One staging buffer of the output window, through which the placeholder below is stated. -/
abbrev VO1_3 : View sig .tc .vmem S1024x1024 .f32 := (Memref.whole cc1_stg3_0 : Memref sig .tc .vmem S1024x1024 .f32).view
/-- The output window's component where the window is idle (away from k = 7): nothing consults it. -/
def idleOut1 : Vec F S1024x1024 .f32 := VO1_3.read (Elt F) (VO1_3.writes (Elt F) VO1_3.junk [])

/-- The scoped buffers that are no staging buffer of the matmul region, other than its accumulator: the densify region's
    staging buffers and accumulator, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- What the output window's buffer (first) and the accumulator (second) hold after the body at position `n`. Away
    from k = 7 the output window is idle: its component is a placeholder nothing consults. -/
def outsAt1 (c : Dev nD) : (n : ℕ) → n < cfg1.N → Vec F S1024x1024 .f32 × Vec F S1024x1024 .f32
  | 0, hn => (idleOut1, sout1_A (iblk1 V c 0 ⟨0, hn⟩) (iblk1 V c 1 ⟨0, hn⟩))
  | n + 1, hn =>
    if h0 : (n + 1) % 8 = 0 then
      (idleOut1, sout1_A (iblk1 V c 0 ⟨n + 1, hn⟩) (iblk1 V c 1 ⟨n + 1, hn⟩))
    else if h1 : (n + 1) % 8 = 7 then
      (out1_C (outsAt1 c n (Nat.lt_of_succ_lt hn)).2 (iblk1 V c 0 ⟨n + 1, hn⟩) (iblk1 V c 1 ⟨n + 1, hn⟩) (iblk1 V c 2 ⟨n + 1, hn⟩),
        sout1_B (outsAt1 c n (Nat.lt_of_succ_lt hn)).2 (iblk1 V c 0 ⟨n + 1, hn⟩) (iblk1 V c 1 ⟨n + 1, hn⟩))
    else
      (idleOut1, sout1_B (outsAt1 c n (Nat.lt_of_succ_lt hn)).2 (iblk1 V c 0 ⟨n + 1, hn⟩) (iblk1 V c 1 ⟨n + 1, hn⟩))

/-- `outsAt1` at a k = 0 point. -/
theorem outsAt1_A (c : Dev nD) (t : Fin cfg1.N) (h0 : t.val % 8 = 0) :
    (outsAt1 V c t.val t.isLt).2 = sout1_A (iblk1 V c 0 t) (iblk1 V c 1 t) := by
  obtain ⟨n, hn⟩ := t
  cases n with
  | zero => exact rfl
  | succ n => exact congrArg Prod.snd (dif_pos h0 : outsAt1 V c (n + 1) hn = _)
/-- `outsAt1`'s accumulator at a later point, over what the point before left. -/
theorem outsAt1_B (c : Dev nD) (t : Fin cfg1.N) (h0 : ¬t.val % 8 = 0) :
    (outsAt1 V c t.val t.isLt).2
      = sout1_B (outsAt1 V c (t.val - 1) (Nat.lt_of_le_of_lt (Nat.sub_le _ _) t.isLt)).2 (iblk1 V c 0 t) (iblk1 V c 1 t) := by
  obtain ⟨n, hn⟩ := t
  cases n with
  | zero => exact (by exfalso; (try dsimp only at h0); exact absurd (Nat.zero_mod _) h0)
  | succ n =>
    by_cases h1 : (n + 1) % 8 = 7
    · exact congrArg Prod.snd ((dif_neg h0).trans (dif_pos h1) : outsAt1 V c (n + 1) hn = _)
    · exact congrArg Prod.snd ((dif_neg h0).trans (dif_neg h1) : outsAt1 V c (n + 1) hn = _)
/-- `outsAt1`'s output block at a k = 7 point. -/
theorem outsAt1_C (c : Dev nD) (t : Fin cfg1.N) (h1 : t.val % 8 = 7) :
    (outsAt1 V c t.val t.isLt).1
      = out1_C (outsAt1 V c (t.val - 1) (Nat.lt_of_le_of_lt (Nat.sub_le _ _) t.isLt)).2 (iblk1 V c 0 t) (iblk1 V c 1 t) (iblk1 V c 2 t) := by
  obtain ⟨n, hn⟩ := t
  cases n with
  | zero => exact (by exfalso; (try dsimp only at h1); omega)
  | succ n =>
    have h0 : ¬(n + 1) % 8 = 0 := fun h => by (try dsimp only at h1); omega
    exact congrArg Prod.fst ((dif_neg h0).trans (dif_pos h1) : outsAt1 V c (n + 1) hn = _)

/-- The region invariant before position `n`: before the first point the class's; afterwards the accumulator at what
    the point before left, every other scoped buffer that is no staging buffer of this region at some contents, and the
    generator register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-! ## The invariant, position by position -/

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn
      = iprop(owns (c : Thread nD τ) scM1 fullShare ((outsAt1 V c n hn).2) ∗ rest1 c ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(owns (c : Thread nD τ) scM1 fullShare ((outsAt1 V c (n - 1) (by omega)).2) ∗ rest1 c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Reassociation: the last of eight conjuncts brought to the front. -/
theorem sep8_last_front (a0 a1 a2 a3 a4 a5 a6 s g : sProp 𝕄) :
    (iprop((a0 ∗ a1 ∗ a2 ∗ a3 ∗ a4 ∗ a5 ∗ a6 ∗ s) ∗ g) : sProp 𝕄) = iprop(s ∗ (a0 ∗ a1 ∗ a2 ∗ a3 ∗ a4 ∗ a5 ∗ a6) ∗ g) := by
  have h₁ : iprop((a0 ∗ a1 ∗ a2 ∗ a3 ∗ a4 ∗ a5 ∗ a6 ∗ s) ∗ g) ⊢ (iprop(s ∗ (a0 ∗ a1 ∗ a2 ∗ a3 ∗ a4 ∗ a5 ∗ a6) ∗ g) : sProp 𝕄) := by
    iintro ⟨⟨H0, H1, H2, H3, H4, H5, H6, HS⟩, Hg⟩
    isplitl [HS]; · iexact HS
    isplitr [Hg]
    · isplitl [H0]; · iexact H0
      isplitl [H1]; · iexact H1
      isplitl [H2]; · iexact H2
      isplitl [H3]; · iexact H3
      isplitl [H4]; · iexact H4
      isplitl [H5]; · iexact H5
      iexact H6
    iexact Hg
  have h₂ : iprop(s ∗ (a0 ∗ a1 ∗ a2 ∗ a3 ∗ a4 ∗ a5 ∗ a6) ∗ g) ⊢ (iprop((a0 ∗ a1 ∗ a2 ∗ a3 ∗ a4 ∗ a5 ∗ a6 ∗ s) ∗ g) : sProp 𝕄) := by
    iintro ⟨HS, ⟨H0, H1, H2, H3, H4, H5, H6⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iexact Hg
  exact BI.equiv_iff.mp ⟨h₁, h₂⟩

/-- The class's invariant with the accumulator as a memref owned at some contents, the other scoped buffers grouped
    behind it. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA rest1; rw [scopedRest1_eq]; simp only [scM1, owns_whole]
  exact sep8_last_front _ _ _ _ _ _ _ _ _

/-! ## The input windows' buffers at a point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The input windows' buffers hold their blocks; the point's position modulo 8 says which case
    it is in. At k = 0 the accumulator is handed over at whatever it holds (the class's invariant at the first point,
    what the point before left afterwards) and comes back at the product of the point's blocks; at a later k it is
    handed over at what the point before left and comes back with the point's product added; at k = 7 the output block
    is moreover stored. Away from k = 7 the output window's buffer goes through untouched. The other scoped buffers, the
    generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [outsAt1_A V c t h0]
    by_cases hz : t.val = 0
    · rw [PhiS1_castSucc V c t, PhiS1_zero V c _ _ hz, PhiA1_eq]
      iintro ⟨⟨⟨%ds, HS⟩, Hr, Hg⟩, Ho, ⟨%d0, H0⟩, ⟨%d1, H1⟩, ⟨%d2, H2⟩, ⟨%d3, H3⟩⟩
      iapply (sound_kernel1_A c (grid1.coords t) hc0 hc1 _ _ _ _ _ _ _ _ _ _
        (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, Hr, Hg⟩, Ho, ⟨%d0, H0⟩, ⟨%d1, H1⟩, ⟨%d2, H2⟩, ⟨%d3, H3⟩⟩
      iapply (sound_kernel1_A c (grid1.coords t) hc0 hc1 _ _ _ _ _ _ _ _ _ _
        (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_B V c t h0, outsAt1_C V c t h1]
      rw [PhiS1_castSucc V c t, PhiS1_pos V c _ _ hz]
      iintro ⟨⟨HS, Hr, Hg⟩, Ho, ⟨%d0, H0⟩, ⟨%d1, H1⟩, ⟨%d2, H2⟩, ⟨%d3, H3⟩⟩
      iapply (sound_kernel1_C c (grid1.coords t) hc0 hc1 _ _ _ _ _ _ _ _ _ _
        (iblk1 V c 0 t) (iblk1 V c 1 t) (iblk1 V c 2 t)
        (outsAt1 V c (t.val - 1) (Nat.lt_of_le_of_lt (Nat.sub_le _ _) t.isLt)).2 Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0]
      rw [PhiS1_castSucc V c t, PhiS1_pos V c _ _ hz]
      iintro ⟨⟨HS, Hr, Hg⟩, Ho, ⟨%d0, H0⟩, ⟨%d1, H1⟩, ⟨%d2, H2⟩, ⟨%d3, H3⟩⟩
      iapply (sound_kernel1_B c (grid1.coords t) hc0 hc1 _ _ _ _ _ _ _ _ _ _
        (iblk1 V c 0 t) (iblk1 V c 1 t) (iblk1 V c 2 t) ((dat1 V c).before 3 t d3)
        (outsAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation for the matmul region, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hr, Hg⟩
  isplitl [HS]
  · iexists _; iexact HS
  isplitl [Hr]; · iexact Hr
  iexact Hg

/-- After the last point the invariant gives the class's back: the accumulator's contents are forgotten. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Hand

end
-- ==== Proof.KI.Fold.lean ====
/-
  The TensorCore's buffer contents at each boundary of @main's four items, as a fold from the launch memory:
  the two transposes, the densify region (its arrays at what its write-backs leave, every other buffer as entered),
  the convert and the reshape, the matmul region. The result array is read off the last stage; no item writes an
  argument.
-/
import proofs.«429429_j44581760532973_3_alg».proof.Proof.KI.Dat0
import proofs.«429429_j44581760532973_3_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the two transposes (the densify region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the densify region's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the convert and the reshape (the matmul region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the matmul region's exit: what the program returns with. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The result array at the end is the matmul region's output window written back. -/
theorem W4_main_v5 (c : Dev nD) : W4 m c (Proc.devRef .tc main_v5) = (dat1 (V3 m) c).arrAt 3 cfg1.N :=
  W4_arr m c 3

end Cert.KernelIdeal.Hand

end
-- ==== Proof.KI.Main.lean ====
/-
  The run of @main: its four items as segments (two host stretches, two kernel regions), each region entered from every
  unscoped buffer at the boundary's contents beside the generator register and the core owing nothing, and left the same
  way at the next boundary's contents; the launch over them. Every weakly fair execution terminates and the final memory
  holds every unscoped buffer at the last boundary's contents `W4` — the result array and the untouched arguments among them.
-/
import proofs.«429429_j44581760532973_3_alg».proof.Proof.KI.Fold
import proofs.«429429_j44581760532973_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the run holds throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## No item writes an argument

Read back through the fold, an argument's buffer is untouched at every stage: it is no array of the matmul region
(whose arrays are its three operands and the result), neither host operation of the second stretch writes it, it is no
array of the densify region, and neither transpose writes it. -/

/-- No item writes an argument: each reaches the end as launched. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents: the densify region's at what the transposes
    leave, the matmul region's at what the convert and the reshape leave. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the core's dues: every unscoped buffer at the last boundary's contents `W4`, the
    generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The densify region over the thread state: entered from every unscoped buffer at `W1`, left at `W2`. Its arrays are
    split out of the unscoped buffers and put back at the exit contents; the generator register goes into the region
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region over the thread state: entered from every unscoped buffer at `W3`, left at `W4`. Its invariant
    tracks the accumulator between points: it is entered from the class's (every scoped buffer that is no staging buffer
    of the region at some contents, and the generator register), and after the last point the accumulator's contents
    are forgotten, which gives the class's back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the transposes, the densify region, the convert and the reshape, the matmul region. -/
abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments: it is the chain of its items, and the segments' run is that chain. -/
theorem main_run (c : Dev nD) : main (F := F) c = Pipeline.Seg.run (mainSegs m) := (main_chain c).trans (by chain_rfl)

set_option backward.isDefEq.respectTransparency.types false in
/-- THE RUN. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.KernelIdeal.Hand

end
-- ==== Proof.KI.Val0Core.lean ====
/-
  One step of the densify body read at an entry, at the ideal instance: the tile's row numbers, the zero tile, a row of an
  input block loaded as a one-row vector, and the accumulate step — the scratch plus, at entry (r, o), slot f's weight
  where slot f's index is the absolute row 512 k + r, zero elsewhere. Also: thirty-two additions from zero are the sum
  over the thirty-two slots.
-/
import proofs.«429429_j44581760532973_3_alg».proof.Proof.KI.Run0
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

/-! ## Words -/

/-- The addend of one fan-in slot at one entry: the weight where the slot's index is the entry's absolute row, zero elsewhere. -/
def slotTerm (idx row : BitVec 32) (w : EReal) : EReal := if idx = row then w else 0

/-- A select on the bit of an equality test is the `if` on the equality. -/
theorem select_cmpi_eq {α : Type} (a b : BitVec 32) (x y : α) :
    Scalar.select (IntOp.cmpi .eq a b) x y = if a = b then x else y := by
  by_cases h : a = b
  · rw [if_pos h, (Idealize.ShloMosaic.StableHlo.Predicate.cmpi_eq_iff).mpr h]; exact select_one x y
  · rw [if_neg h, eq_zero_of_ne_one (fun e => h ((Idealize.ShloMosaic.StableHlo.Predicate.cmpi_eq_iff).mp e))]; exact select_zero x y

/-- Row `r` of tile `k` of 512 rows, `k` below 8, as a 32-bit word: nothing wraps. -/
theorem row_word (k r : Nat) :
    BitVec.ofNat 32 r + BitVec.ofNat 32 k * 512#32 = BitVec.ofNat 32 (512 * k + r) := by
  apply BitVec.eq_of_toNat_eq
  simp only [BitVec.toNat_add, BitVec.toNat_mul, BitVec.toNat_ofNat]
  omega

/-! ## The row iota, the zero tile, one loaded row -/

/-- The tile's row numbers: entry (r, o) is the absolute row 512 k + r. -/
theorem pay1_apply (i : grid0.Coords) (r : Fin 512) (o : Fin 1024) :
    k0_pay1 i (ix2 r o) = BitVec.ofNat 32 (512 * (i 0).val + r.val) := by
  unfold k0_pay1
  show IntOp.addi (iota .tc S512x1024 32 [0] iota_S512x1024_d0_w32 (ix2 r o)) (Scalar.muli (BitVec.ofNat 32 (i 0).val) 512#32) = _
  rw [iota_single_apply]
  exact row_word (i 0).val r.val

/-- Row `f` of a 32 x 1024 block loaded as a 1 x 1024 vector reads, at (0, o), the block at (f, o). -/
theorem ld_row {Val : EltTy → Type} {e : EltTy} (X : S32x1024.Idx → Val e) (f : Nat) (hf : f < 32)
    (inb : ∀ a, (![f, 0] : Fin 2 → Nat) a + S1x1024.size a ≤ S32x1024.size a) (o : Fin 1024) :
    View.ld X (Rect.unit (s := S32x1024) ![f, 0] S1x1024.size inb) (ix2 (0 : Fin 1) o) = X (ix2 (⟨f, hf⟩ : Fin 32) o) := by
  show X _ = X _
  refine congrArg X (funext fun a => Fin.ext ?_)
  match a with
  | ⟨0, _⟩ => show f + 1 * 0 = f; omega
  | ⟨1, _⟩ => show 0 + 1 * o.val = o.val; omega

/-! ## One accumulate step at an entry -/

/-- The zero tile. -/
theorem pay2_apply (r : Fin 512) (o : Fin 1024) : ((k0_pay2 (F := Ideal)) (ix2 r o) : EReal) = 0 := by
  unfold k0_pay2
  refine (congrFun (shapeCast_self _ shapeCasts_S512x1024_S512x1024) (ix2 r o)).trans ?_
  exact Idealize.ShloMosaic.Ideal.ofBits_zero_f32

/-- One accumulate step: the scratch plus, at entry (r, o), the slot's weight where the slot's index is the entry's row. -/
theorem step_core (v3 : IVec S512x1024 32) (idxrow : Vec Ideal S1x1024 .i32) (wrow : Vec Ideal S1x1024 .f32)
    (acc : Vec Ideal S512x1024 .f32) (r : Fin 512) (o : Fin 1024) :
    (k0_pay7 (F := Ideal) v3 idxrow wrow acc (ix2 r o) : EReal)
      = (acc (ix2 r o) : EReal) + slotTerm (idxrow (ix2 (0 : Fin 1) o)) (v3 (ix2 r o)) (wrow (ix2 (0 : Fin 1) o)) := by
  unfold k0_pay7
  refine (congrFun (shapeCast_self _ shapeCasts_S512x1024_S512x1024) (ix2 r o)).trans ?_
  show (acc (ix2 r o) : EReal) + Scalar.select (IntOp.cmpi .eq
      (broadcastTo S512x1024 (shapeCast S1x1024 (shapeCast S1024 idxrow shapeCasts_S1x1024_S1024) shapeCasts_S1024_S1x1024)
        broadcasts_S1x1024_S512x1024 (ix2 r o)) (v3 (ix2 r o)))
      (broadcastTo S512x1024 (shapeCast S1x1024 (shapeCast S1x1024 (shapeCast S1024 wrow shapeCasts_S1x1024_S1024)
        shapeCasts_S1024_S1x1024) shapeCasts_S1x1024_S1x1024) broadcasts_S1x1024_S512x1024 (ix2 r o))
      (Ideal.ofBits .f32 0x00000000#32) = _
  rw [select_cmpi_eq, Idealize.ShloMosaic.Ideal.ofBits_zero_f32, shapeCast_self, shapeCast_shapeCast, shapeCast_shapeCast,
    broadcastTo_1b_ab_apply, broadcastTo_1b_ab_apply]
  rfl

/-! ## Thirty-two additions from zero are the sum -/

theorem sum32 (g : Fin 32 → EReal) :
    ∑ f : Fin 32, g f = 0 + g 0 + g 1 + g 2 + g 3 + g 4 + g 5 + g 6 + g 7 + g 8 + g 9 + g 10 + g 11 + g 12 + g 13 + g 14 + g 15
      + g 16 + g 17 + g 18 + g 19 + g 20 + g 21 + g 22 + g 23 + g 24 + g 25 + g 26 + g 27 + g 28 + g 29 + g 30 + g 31 := by
  simp only [Fin.sum_univ_castSucc, Fin.sum_univ_zero]
  rfl

/-! ## One slot's step on the two input blocks -/

/-- Slot `f`'s addend at entry (r, o) of the tile at grid row `i 0`: the weight where the index is the absolute row. -/
def slotAt (i : grid0.Coords) (x0 : Vec Ideal S32x1024 .f32) (x1 : Vec Ideal S32x1024 .i32) (r : Fin 512) (o : Fin 1024)
    (f : Fin 32) : EReal :=
  if (x1 (ix2 f o) : BitVec 32) = BitVec.ofNat 32 (512 * (i 0).val + r.val) then (x0 (ix2 f o) : EReal) else 0

/-- The step on rows `f` of the two input blocks adds slot `f`'s addend. -/
theorem slot_step (i : grid0.Coords) (x0 : Vec Ideal S32x1024 .f32) (x1 : Vec Ideal S32x1024 .i32)
    (acc : Vec Ideal S512x1024 .f32) (r : Fin 512) (o : Fin 1024) (f : Nat) (hf : f < 32)
    (inb : ∀ a, (![f, 0] : Fin 2 → Nat) a + S1x1024.size a ≤ S32x1024.size a) :
    (k0_pay7 (F := Ideal) (k0_pay1 i) (View.ld x1 (Rect.unit (s := S32x1024) ![f, 0] S1x1024.size inb))
        (View.ld x0 (Rect.unit (s := S32x1024) ![f, 0] S1x1024.size inb)) acc (ix2 r o) : EReal)
      = (acc (ix2 r o) : EReal) + slotAt i x0 x1 r o ⟨f, hf⟩ := by
  refine (step_core _ _ _ _ r o).trans ?_
  rw [ld_row x1 f hf inb o, ld_row x0 f hf inb o, pay1_apply]
  rfl

/-- Before any slot the scratch is zero. -/
theorem acc0_0_apply (i : grid0.Coords) (x0 : Vec Ideal S32x1024 .f32) (x1 : Vec Ideal S32x1024 .i32) (r : Fin 512) (o : Fin 1024) :
    (acc0_0 (F := Ideal) i x0 x1 (ix2 r o) : EReal) = 0 := pay2_apply r o

end Cert.KernelIdeal.Hand

end
-- ==== Proof.KI.Val0Slots.lean ====
/-
  The densify body's scratch after each of its thirty-two slots, read at an entry: after slot f it is the scratch before
  slot f plus slot f's addend (the weight where the index is the absolute row, zero elsewhere). One case per slot; each is
  the one-slot step on rows f of the two input blocks.
-/
import proofs.«429429_j44581760532973_3_alg».proof.Proof.KI.Val0Core

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

theorem acc0_1_apply (i : grid0.Coords) (x0 : Vec Ideal S32x1024 .f32) (x1 : Vec Ideal S32x1024 .i32) (r : Fin 512) (o : Fin 1024) :
    (acc0_1 (F := Ideal) i x0 x1 (ix2 r o) : EReal) = acc0_0 (F := Ideal) i x0 x1 (ix2 r o) + slotAt i x0 x1 r o 0 :=
  slot_step i x0 x1 (acc0_0 i x0 x1) r o 0 (by omega) inb_S32x1024_S1x1024_0_0

theorem acc0_2_apply (i : grid0.Coords) (x0 : Vec Ideal S32x1024 .f32) (x1 : Vec Ideal S32x1024 .i32) (r : Fin 512) (o : Fin 1024) :
    (acc0_2 (F := Ideal) i x0 x1 (ix2 r o) : EReal) = acc0_1 (F := Ideal) i x0 x1 (ix2 r o) + slotAt i x0 x1 r o 1 :=
  slot_step i x0 x1 (acc0_1 i x0 x1) r o 1 (by omega) inb_S32x1024_S1x1024_1_0

theorem acc0_3_apply (i : grid0.Coords) (x0 : Vec Ideal S32x1024 .f32) (x1 : Vec Ideal S32x1024 .i32) (r : Fin 512) (o : Fin 1024) :
    (acc0_3 (F := Ideal) i x0 x1 (ix2 r o) : EReal) = acc0_2 (F := Ideal) i x0 x1 (ix2 r o) + slotAt i x0 x1 r o 2 :=
  slot_step i x0 x1 (acc0_2 i x0 x1) r o 2 (by omega) inb_S32x1024_S1x1024_2_0

theorem acc0_4_apply (i : grid0.Coords) (x0 : Vec Ideal S32x1024 .f32) (x1 : Vec Ideal S32x1024 .i32) (r : Fin 512) (o : Fin 1024) :
    (acc0_4 (F := Ideal) i x0 x1 (ix2 r o) : EReal) = acc0_3 (F := Ideal) i x0 x1 (ix2 r o) + slotAt i x0 x1 r o 3 :=
  slot_step i x0 x1 (acc0_3 i x0 x1) r o 3 (by omega) inb_S32x1024_S1x1024_3_0

theorem acc0_5_apply (i : grid0.Coords) (x0 : Vec Ideal S32x1024 .f32) (x1 : Vec Ideal S32x1024 .i32) (r : Fin 512) (o : Fin 1024) :
    (acc0_5 (F := Ideal) i x0 x1 (ix2 r o) : EReal) = acc0_4 (F := Ideal) i x0 x1 (ix2 r o) + slotAt i x0 x1 r o 4 :=
  slot_step i x0 x1 (acc0_4 i x0 x1) r o 4 (by omega) inb_S32x1024_S1x1024_4_0

theorem acc0_6_apply (i : grid0.Coords) (x0 : Vec Ideal S32x1024 .f32) (x1 : Vec Ideal S32x1024 .i32) (r : Fin 512) (o : Fin 1024) :
    (acc0_6 (F := Ideal) i x0 x1 (ix2 r o) : EReal) = acc0_5 (F := Ideal) i x0 x1 (ix2 r o) + slotAt i x0 x1 r o 5 :=
  slot_step i x0 x1 (acc0_5 i x0 x1) r o 5 (by omega) inb_S32x1024_S1x1024_5_0

theorem acc0_7_apply (i : grid0.Coords) (x0 : Vec Ideal S32x1024 .f32) (x1 : Vec Ideal S32x1024 .i32) (r : Fin 512) (o : Fin 1024) :
    (acc0_7 (F := Ideal) i x0 x1 (ix2 r o) : EReal) = acc0_6 (F := Ideal) i x0 x1 (ix2 r o) + slotAt i x0 x1 r o 6 :=
  slot_step i x0 x1 (acc0_6 i x0 x1) r o 6 (by omega) inb_S32x1024_S1x1024_6_0

theorem acc0_8_apply (i : grid0.Coords) (x0 : Vec Ideal S32x1024 .f32) (x1 : Vec Ideal S32x1024 .i32) (r : Fin 512) (o : Fin 1024) :
    (acc0_8 (F := Ideal) i x0 x1 (ix2 r o) : EReal) = acc0_7 (F := Ideal) i x0 x1 (ix2 r o) + slotAt i x0 x1 r o 7 :=
  slot_step i x0 x1 (acc0_7 i x0 x1) r o 7 (by omega) inb_S32x1024_S1x1024_7_0

theorem acc0_9_apply (i : grid0.Coords) (x0 : Vec Ideal S32x1024 .f32) (x1 : Vec Ideal S32x1024 .i32) (r : Fin 512) (o : Fin 1024) :
    (acc0_9 (F := Ideal) i x0 x1 (ix2 r o) : EReal) = acc0_8 (F := Ideal) i x0 x1 (ix2 r o) + slotAt i x0 x1 r o 8 :=
  slot_step i x0 x1 (acc0_8 i x0 x1) r o 8 (by omega) inb_S32x1024_S1x1024_8_0

theorem acc0_10_apply (i : grid0.Coords) (x0 : Vec Ideal S32x1024 .f32) (x1 : Vec Ideal S32x1024 .i32) (r : Fin 512) (o : Fin 1024) :
    (acc0_10 (F := Ideal) i x0 x1 (ix2 r o) : EReal) = acc0_9 (F := Ideal) i x0 x1 (ix2 r o) + slotAt i x0 x1 r o 9 :=
  slot_step i x0 x1 (acc0_9 i x0 x1) r o 9 (by omega) inb_S32x1024_S1x1024_9_0

theorem acc0_11_apply (i : grid0.Coords) (x0 : Vec Ideal S32x1024 .f32) (x1 : Vec Ideal S32x1024 .i32) (r : Fin 512) (o : Fin 1024) :
    (acc0_11 (F := Ideal) i x0 x1 (ix2 r o) : EReal) = acc0_10 (F := Ideal) i x0 x1 (ix2 r o) + slotAt i x0 x1 r o 10 :=
  slot_step i x0 x1 (acc0_10 i x0 x1) r o 10 (by omega) inb_S32x1024_S1x1024_10_0

theorem acc0_12_apply (i : grid0.Coords) (x0 : Vec Ideal S32x1024 .f32) (x1 : Vec Ideal S32x1024 .i32) (r : Fin 512) (o : Fin 1024) :
    (acc0_12 (F := Ideal) i x0 x1 (ix2 r o) : EReal) = acc0_11 (F := Ideal) i x0 x1 (ix2 r o) + slotAt i x0 x1 r o 11 :=
  slot_step i x0 x1 (acc0_11 i x0 x1) r o 11 (by omega) inb_S32x1024_S1x1024_11_0

theorem acc0_13_apply (i : grid0.Coords) (x0 : Vec Ideal S32x1024 .f32) (x1 : Vec Ideal S32x1024 .i32) (r : Fin 512) (o : Fin 1024) :
    (acc0_13 (F := Ideal) i x0 x1 (ix2 r o) : EReal) = acc0_12 (F := Ideal) i x0 x1 (ix2 r o) + slotAt i x0 x1 r o 12 :=
  slot_step i x0 x1 (acc0_12 i x0 x1) r o 12 (by omega) inb_S32x1024_S1x1024_12_0

theorem acc0_14_apply (i : grid0.Coords) (x0 : Vec Ideal S32x1024 .f32) (x1 : Vec Ideal S32x1024 .i32) (r : Fin 512) (o : Fin 1024) :
    (acc0_14 (F := Ideal) i x0 x1 (ix2 r o) : EReal) = acc0_13 (F := Ideal) i x0 x1 (ix2 r o) + slotAt i x0 x1 r o 13 :=
  slot_step i x0 x1 (acc0_13 i x0 x1) r o 13 (by omega) inb_S32x1024_S1x1024_13_0

theorem acc0_15_apply (i : grid0.Coords) (x0 : Vec Ideal S32x1024 .f32) (x1 : Vec Ideal S32x1024 .i32) (r : Fin 512) (o : Fin 1024) :
    (acc0_15 (F := Ideal) i x0 x1 (ix2 r o) : EReal) = acc0_14 (F := Ideal) i x0 x1 (ix2 r o) + slotAt i x0 x1 r o 14 :=
  slot_step i x0 x1 (acc0_14 i x0 x1) r o 14 (by omega) inb_S32x1024_S1x1024_14_0

theorem acc0_16_apply (i : grid0.Coords) (x0 : Vec Ideal S32x1024 .f32) (x1 : Vec Ideal S32x1024 .i32) (r : Fin 512) (o : Fin 1024) :
    (acc0_16 (F := Ideal) i x0 x1 (ix2 r o) : EReal) = acc0_15 (F := Ideal) i x0 x1 (ix2 r o) + slotAt i x0 x1 r o 15 :=
  slot_step i x0 x1 (acc0_15 i x0 x1) r o 15 (by omega) inb_S32x1024_S1x1024_15_0

theorem acc0_17_apply (i : grid0.Coords) (x0 : Vec Ideal S32x1024 .f32) (x1 : Vec Ideal S32x1024 .i32) (r : Fin 512) (o : Fin 1024) :
    (acc0_17 (F := Ideal) i x0 x1 (ix2 r o) : EReal) = acc0_16 (F := Ideal) i x0 x1 (ix2 r o) + slotAt i x0 x1 r o 16 :=
  slot_step i x0 x1 (acc0_16 i x0 x1) r o 16 (by omega) inb_S32x1024_S1x1024_16_0

theorem acc0_18_apply (i : grid0.Coords) (x0 : Vec Ideal S32x1024 .f32) (x1 : Vec Ideal S32x1024 .i32) (r : Fin 512) (o : Fin 1024) :
    (acc0_18 (F := Ideal) i x0 x1 (ix2 r o) : EReal) = acc0_17 (F := Ideal) i x0 x1 (ix2 r o) + slotAt i x0 x1 r o 17 :=
  slot_step i x0 x1 (acc0_17 i x0 x1) r o 17 (by omega) inb_S32x1024_S1x1024_17_0

theorem acc0_19_apply (i : grid0.Coords) (x0 : Vec Ideal S32x1024 .f32) (x1 : Vec Ideal S32x1024 .i32) (r : Fin 512) (o : Fin 1024) :
    (acc0_19 (F := Ideal) i x0 x1 (ix2 r o) : EReal) = acc0_18 (F := Ideal) i x0 x1 (ix2 r o) + slotAt i x0 x1 r o 18 :=
  slot_step i x0 x1 (acc0_18 i x0 x1) r o 18 (by omega) inb_S32x1024_S1x1024_18_0

theorem acc0_20_apply (i : grid0.Coords) (x0 : Vec Ideal S32x1024 .f32) (x1 : Vec Ideal S32x1024 .i32) (r : Fin 512) (o : Fin 1024) :
    (acc0_20 (F := Ideal) i x0 x1 (ix2 r o) : EReal) = acc0_19 (F := Ideal) i x0 x1 (ix2 r o) + slotAt i x0 x1 r o 19 :=
  slot_step i x0 x1 (acc0_19 i x0 x1) r o 19 (by omega) inb_S32x1024_S1x1024_19_0

theorem acc0_21_apply (i : grid0.Coords) (x0 : Vec Ideal S32x1024 .f32) (x1 : Vec Ideal S32x1024 .i32) (r : Fin 512) (o : Fin 1024) :
    (acc0_21 (F := Ideal) i x0 x1 (ix2 r o) : EReal) = acc0_20 (F := Ideal) i x0 x1 (ix2 r o) + slotAt i x0 x1 r o 20 :=
  slot_step i x0 x1 (acc0_20 i x0 x1) r o 20 (by omega) inb_S32x1024_S1x1024_20_0

theorem acc0_22_apply (i : grid0.Coords) (x0 : Vec Ideal S32x1024 .f32) (x1 : Vec Ideal S32x1024 .i32) (r : Fin 512) (o : Fin 1024) :
    (acc0_22 (F := Ideal) i x0 x1 (ix2 r o) : EReal) = acc0_21 (F := Ideal) i x0 x1 (ix2 r o) + slotAt i x0 x1 r o 21 :=
  slot_step i x0 x1 (acc0_21 i x0 x1) r o 21 (by omega) inb_S32x1024_S1x1024_21_0

theorem acc0_23_apply (i : grid0.Coords) (x0 : Vec Ideal S32x1024 .f32) (x1 : Vec Ideal S32x1024 .i32) (r : Fin 512) (o : Fin 1024) :
    (acc0_23 (F := Ideal) i x0 x1 (ix2 r o) : EReal) = acc0_22 (F := Ideal) i x0 x1 (ix2 r o) + slotAt i x0 x1 r o 22 :=
  slot_step i x0 x1 (acc0_22 i x0 x1) r o 22 (by omega) inb_S32x1024_S1x1024_22_0

theorem acc0_24_apply (i : grid0.Coords) (x0 : Vec Ideal S32x1024 .f32) (x1 : Vec Ideal S32x1024 .i32) (r : Fin 512) (o : Fin 1024) :
    (acc0_24 (F := Ideal) i x0 x1 (ix2 r o) : EReal) = acc0_23 (F := Ideal) i x0 x1 (ix2 r o) + slotAt i x0 x1 r o 23 :=
  slot_step i x0 x1 (acc0_23 i x0 x1) r o 23 (by omega) inb_S32x1024_S1x1024_23_0

theorem acc0_25_apply (i : grid0.Coords) (x0 : Vec Ideal S32x1024 .f32) (x1 : Vec Ideal S32x1024 .i32) (r : Fin 512) (o : Fin 1024) :
    (acc0_25 (F := Ideal) i x0 x1 (ix2 r o) : EReal) = acc0_24 (F := Ideal) i x0 x1 (ix2 r o) + slotAt i x0 x1 r o 24 :=
  slot_step i x0 x1 (acc0_24 i x0 x1) r o 24 (by omega) inb_S32x1024_S1x1024_24_0

theorem acc0_26_apply (i : grid0.Coords) (x0 : Vec Ideal S32x1024 .f32) (x1 : Vec Ideal S32x1024 .i32) (r : Fin 512) (o : Fin 1024) :
    (acc0_26 (F := Ideal) i x0 x1 (ix2 r o) : EReal) = acc0_25 (F := Ideal) i x0 x1 (ix2 r o) + slotAt i x0 x1 r o 25 :=
  slot_step i x0 x1 (acc0_25 i x0 x1) r o 25 (by omega) inb_S32x1024_S1x1024_25_0

theorem acc0_27_apply (i : grid0.Coords) (x0 : Vec Ideal S32x1024 .f32) (x1 : Vec Ideal S32x1024 .i32) (r : Fin 512) (o : Fin 1024) :
    (acc0_27 (F := Ideal) i x0 x1 (ix2 r o) : EReal) = acc0_26 (F := Ideal) i x0 x1 (ix2 r o) + slotAt i x0 x1 r o 26 :=
  slot_step i x0 x1 (acc0_26 i x0 x1) r o 26 (by omega) inb_S32x1024_S1x1024_26_0

theorem acc0_28_apply (i : grid0.Coords) (x0 : Vec Ideal S32x1024 .f32) (x1 : Vec Ideal S32x1024 .i32) (r : Fin 512) (o : Fin 1024) :
    (acc0_28 (F := Ideal) i x0 x1 (ix2 r o) : EReal) = acc0_27 (F := Ideal) i x0 x1 (ix2 r o) + slotAt i x0 x1 r o 27 :=
  slot_step i x0 x1 (acc0_27 i x0 x1) r o 27 (by omega) inb_S32x1024_S1x1024_27_0

theorem acc0_29_apply (i : grid0.Coords) (x0 : Vec Ideal S32x1024 .f32) (x1 : Vec Ideal S32x1024 .i32) (r : Fin 512) (o : Fin 1024) :
    (acc0_29 (F := Ideal) i x0 x1 (ix2 r o) : EReal) = acc0_28 (F := Ideal) i x0 x1 (ix2 r o) + slotAt i x0 x1 r o 28 :=
  slot_step i x0 x1 (acc0_28 i x0 x1) r o 28 (by omega) inb_S32x1024_S1x1024_28_0

theorem acc0_30_apply (i : grid0.Coords) (x0 : Vec Ideal S32x1024 .f32) (x1 : Vec Ideal S32x1024 .i32) (r : Fin 512) (o : Fin 1024) :
    (acc0_30 (F := Ideal) i x0 x1 (ix2 r o) : EReal) = acc0_29 (F := Ideal) i x0 x1 (ix2 r o) + slotAt i x0 x1 r o 29 :=
  slot_step i x0 x1 (acc0_29 i x0 x1) r o 29 (by omega) inb_S32x1024_S1x1024_29_0

theorem acc0_31_apply (i : grid0.Coords) (x0 : Vec Ideal S32x1024 .f32) (x1 : Vec Ideal S32x1024 .i32) (r : Fin 512) (o : Fin 1024) :
    (acc0_31 (F := Ideal) i x0 x1 (ix2 r o) : EReal) = acc0_30 (F := Ideal) i x0 x1 (ix2 r o) + slotAt i x0 x1 r o 30 :=
  slot_step i x0 x1 (acc0_30 i x0 x1) r o 30 (by omega) inb_S32x1024_S1x1024_30_0

theorem acc0_32_apply (i : grid0.Coords) (x0 : Vec Ideal S32x1024 .f32) (x1 : Vec Ideal S32x1024 .i32) (r : Fin 512) (o : Fin 1024) :
    (acc0_32 (F := Ideal) i x0 x1 (ix2 r o) : EReal) = acc0_31 (F := Ideal) i x0 x1 (ix2 r o) + slotAt i x0 x1 r o 31 :=
  slot_step i x0 x1 (acc0_31 i x0 x1) r o 31 (by omega) inb_S32x1024_S1x1024_31_0

end Cert.KernelIdeal.Hand

end
-- ==== Proof.KI.Val0.lean ====
/-
  The densify body's output block read at an index, at the ideal instance: entry (r, o) of the tile at grid row k is the sum
  over the 32 fan-in slots f of weight(f, o) where index(f, o) is the absolute row 512 k + r, and zero elsewhere (adding
  zero is the identity on the extended reals, so the 32 successive additions from zero are the sum; narrowing to bf16 is
  the identity).
-/
import proofs.«429429_j44581760532973_3_alg».proof.Proof.KI.Val0Slots

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

/-- The output block at an entry: the sum of the thirty-two slots' addends. -/
theorem out0_apply (i : grid0.Coords) (x0 : Vec Ideal S32x1024 .f32) (x1 : Vec Ideal S32x1024 .i32) (r : Fin 512) (o : Fin 1024) :
    (out0 (F := Ideal) i x0 x1 (ix2 r o) : EReal)
      = ∑ f : Fin 32, if (x1 (ix2 f o) : BitVec 32) = BitVec.ofNat 32 (512 * (i 0).val + r.val) then (x0 (ix2 f o) : EReal) else 0 := by
  show (acc0_32 (F := Ideal) i x0 x1 (ix2 r o) : EReal) = ∑ f : Fin 32, slotAt i x0 x1 r o f
  rw [acc0_32_apply, acc0_31_apply, acc0_30_apply, acc0_29_apply, acc0_28_apply, acc0_27_apply, acc0_26_apply, acc0_25_apply, acc0_24_apply, acc0_23_apply, acc0_22_apply, acc0_21_apply, acc0_20_apply, acc0_19_apply, acc0_18_apply, acc0_17_apply, acc0_16_apply, acc0_15_apply, acc0_14_apply, acc0_13_apply, acc0_12_apply, acc0_11_apply, acc0_10_apply, acc0_9_apply, acc0_8_apply, acc0_7_apply, acc0_6_apply, acc0_5_apply, acc0_4_apply, acc0_3_apply, acc0_2_apply, acc0_1_apply, acc0_0_apply]
  exact (sum32 (slotAt i x0 x1 r o)).symm

end Cert.KernelIdeal.Hand

end
-- ==== Proof.Spec.lean ====
/-
  The mathematics of the certificate, over no program. With x : 2048 x 4096, weight and index : 4096 x 32, bias : 4096,

    reference:  out(b, o) = (0 + sum over f < 32 of weight(o, f) * x(b, index(o, f))) + bias(o)
    kernel:     D(r, o)   = sum over f < 32 of (weight(o, f) if index(o, f) = r else 0)          (the dense matrix)
                out(b, o) = (accumulated over the 8 blocks kk of the contraction axis:
                             sum over r < 512 of x(b, 512 kk + r) * D(512 kk + r, o)) + bias(o)

  The two agree when every x and weight entry is a real number and every index lies in [0, 4096): a row of D has, for
  each slot f, exactly one r carrying weight(o, f), so summing x(b, r) * D(r, o) over r picks x at the slot's index;
  moving x(b, r) into the sum over f is distributivity, which on the extended reals needs the entries finite.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![2048, 4096]⟩
abbrev SW : Shape := ⟨2, ![4096, 32]⟩
abbrev SWT : Shape := ⟨2, ![32, 4096]⟩
abbrev SB : Shape := ⟨1, ![4096]⟩
abbrev SB2 : Shape := ⟨2, ![1, 4096]⟩
abbrev SD : Shape := ⟨2, ![4096, 4096]⟩

/-- Entry (r, o) of the dense matrix, from weight and index as the program's arguments give them (4096 x 32). -/
def denseAt (w : SW.Idx → EReal) (idx : SW.Idx → BitVec 32) (r o : Fin 4096) : EReal :=
  ∑ f : Fin 32, if idx (ix2 o f) = BitVec.ofNat 32 r.val then w (ix2 o f) else 0

/-- The same entry from the TRANSPOSED weight and index (32 x 4096), as the densify region reads them. -/
def denseTAt (wt : SWT.Idx → EReal) (it : SWT.Idx → BitVec 32) (r o : Fin 4096) : EReal :=
  ∑ f : Fin 32, if it (ix2 f o) = BitVec.ofNat 32 r.val then wt (ix2 f o) else 0

/-- Block kk of the contraction axis: the 512 products of row b of x with column o of a 4096 x 4096 matrix d. -/
def blockSum (x : SX.Idx → EReal) (d : SD.Idx → EReal) (b : Fin 2048) (o : Fin 4096) (kk : ℕ) : EReal :=
  ∑ r : Fin 512, if h : 512 * kk + r.val < 4096 then x (ix2 b ⟨512 * kk + r.val, h⟩) * d (ix2 ⟨512 * kk + r.val, h⟩ o) else 0

/-- The accumulation as the matmul region performs it: zero plus block 0, then one block more at a time. -/
def accAt (S : ℕ → EReal) : ℕ → EReal
  | 0 => 0 + S 0
  | n + 1 => accAt S n + S (n + 1)

/-- The matmul region's result at (b, o): all 8 blocks accumulated, plus the bias row (1 x 4096). -/
def mmAt (x : SX.Idx → EReal) (d : SD.Idx → EReal) (b2 : SB2.Idx → EReal) (b : Fin 2048) (o : Fin 4096) : EReal :=
  accAt (blockSum x d b o) 7 + b2 (ix2 0 o)

/-- The kernel's result at (b, o) from the program's arguments. -/
def kernelAt (x : SX.Idx → EReal) (w : SW.Idx → EReal) (bias : SB.Idx → EReal) (idx : SW.Idx → BitVec 32) (b : Fin 2048) (o : Fin 4096) : EReal :=
  mmAt x (fun j => denseAt w idx (j 0) (j 1)) (fun j => bias (ix1 (j 1))) b o

/-- The reference's result at (b, o): the 32 slots' products, summed from zero, plus the bias. -/
def refAt (x : SX.Idx → EReal) (w : SW.Idx → EReal) (bias : SB.Idx → EReal) (idx : SW.Idx → BitVec 32) (b : Fin 2048) (o : Fin 4096) : EReal :=
  (0 + ∑ f : Fin 32, w (ix2 o f) * x (ix2 b ⟨(idx (ix2 o f)).toNat % 4096, Nat.mod_lt _ (by norm_num)⟩)) + bias (ix1 o)

/-- The accumulation is the plain sum of the blocks: the leading zero is absorbed. -/
theorem accAt_eq_sum (S : ℕ → EReal) (n : ℕ) : accAt S n = ∑ kk ∈ Finset.range (n + 1), S kk := by
  induction n with
  | zero => simp [accAt]
  | succ n ih => rw [accAt, ih, Finset.sum_range_succ _ (n + 1)]

/-- The coercion of the reals into the extended reals commutes with finite sums. -/
theorem coe_finsum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The 8 blocks of 512 are the whole contraction axis: position 512 kk + r runs over all of 0 .. 4095 exactly once. -/
theorem blocks_reindex (g : Fin 4096 → EReal) :
    ∑ kk ∈ Finset.range 8, ∑ r : Fin 512, (if h : 512 * kk + r.val < 4096 then g ⟨512 * kk + r.val, h⟩ else 0) = ∑ r : Fin 4096, g r := by
  let e : Fin 8 × Fin 512 ≃ Fin 4096 := finProdFinEquiv
  calc ∑ kk ∈ Finset.range 8, ∑ r : Fin 512, (if h : 512 * kk + r.val < 4096 then g ⟨512 * kk + r.val, h⟩ else 0)
      = ∑ kk : Fin 8, ∑ r : Fin 512, (if h : 512 * kk.val + r.val < 4096 then g ⟨512 * kk.val + r.val, h⟩ else 0) :=
        (Fin.sum_univ_eq_sum_range (fun kk => ∑ r : Fin 512, (if h : 512 * kk + r.val < 4096 then g ⟨512 * kk + r.val, h⟩ else 0)) 8).symm
    _ = ∑ kk : Fin 8, ∑ r : Fin 512, g (e (kk, r)) := by
        refine Finset.sum_congr rfl fun kk _ => Finset.sum_congr rfl fun r _ => ?_
        have h : 512 * kk.val + r.val < 4096 := by have := kk.isLt; have := r.isLt; omega
        rw [dif_pos h]
        exact congrArg g (Fin.ext (by show 512 * kk.val + r.val = r.val + 512 * kk.val; omega))
    _ = ∑ p : Fin 8 × Fin 512, g (e p) := (Fintype.sum_prod_type' (fun a b => g (e (a, b)))).symm
    _ = ∑ r : Fin 4096, g r := Equiv.sum_comp e g

/-- A word below 4096 equals the word of a number below 4096 exactly when its unsigned reading is that number. -/
theorem word_eq_iff (v : BitVec 32) (r : ℕ) (hr : r < 4096) : v = BitVec.ofNat 32 r ↔ v.toNat = r := by
  constructor
  · intro h
    rw [h, BitVec.toNat_ofNat]
    exact Nat.mod_eq_of_lt (by omega)
  · intro h
    apply BitVec.eq_of_toNat_eq
    rw [BitVec.toNat_ofNat, h]
    exact (Nat.mod_eq_of_lt (by omega)).symm

/-- THE BRIDGE: for real entries of x and weight and indices in range the two results agree. -/
theorem kernelAt_eq_refAt (x : SX.Idx → EReal) (w : SW.Idx → EReal) (bias : SB.Idx → EReal) (idx : SW.Idx → BitVec 32)
    (hx : ∀ i, ∃ r : ℝ, x i = (r : EReal)) (hw : ∀ i, ∃ r : ℝ, w i = (r : EReal)) (hidx : ∀ i, (idx i).toNat < 4096)
    (b : Fin 2048) (o : Fin 4096) : kernelAt x w bias idx b o = refAt x w bias idx b o := by
  choose xr hxr using hx
  choose wr hwr using hw
  -- a dense entry is the coercion of a real sum
  have hd : ∀ r : Fin 4096, denseAt w idx r o
      = ((∑ f : Fin 32, (if idx (ix2 o f) = BitVec.ofNat 32 r.val then wr (ix2 o f) else 0) : ℝ) : EReal) := by
    intro r
    unfold denseAt
    rw [coe_finsum]
    refine Finset.sum_congr rfl fun f _ => ?_
    split_ifs
    · exact hwr _
    · exact EReal.coe_zero.symm
  -- the kernel's accumulated blocks are the coercion of a real double sum
  have hk : accAt (blockSum x (fun j => denseAt w idx (j 0) (j 1)) b o) 7
      = ((∑ r : Fin 4096, xr (ix2 b r) * ∑ f : Fin 32, (if idx (ix2 o f) = BitVec.ofNat 32 r.val then wr (ix2 o f) else 0) : ℝ) : EReal) := by
    rw [accAt_eq_sum]
    refine Eq.trans (blocks_reindex (fun q : Fin 4096 => x (ix2 b q) * denseAt w idx q o)) ?_
    rw [coe_finsum]
    refine Finset.sum_congr rfl fun r _ => ?_
    rw [EReal.coe_mul, ← hxr, ← hd]
  -- the reference's slots are the coercion of a real sum
  have hr : (∑ f : Fin 32, w (ix2 o f) * x (ix2 b ⟨(idx (ix2 o f)).toNat % 4096, Nat.mod_lt _ (by norm_num)⟩))
      = ((∑ f : Fin 32, wr (ix2 o f) * xr (ix2 b ⟨(idx (ix2 o f)).toNat % 4096, Nat.mod_lt _ (by norm_num)⟩) : ℝ) : EReal) := by
    rw [coe_finsum]
    refine Finset.sum_congr rfl fun f _ => ?_
    rw [EReal.coe_mul, ← hwr, ← hxr]
  -- in the reals: distribute, exchange the sums, and each slot's sum over r has its one term at the slot's index
  have hreal : (∑ r : Fin 4096, xr (ix2 b r) * ∑ f : Fin 32, (if idx (ix2 o f) = BitVec.ofNat 32 r.val then wr (ix2 o f) else 0))
      = ∑ f : Fin 32, wr (ix2 o f) * xr (ix2 b ⟨(idx (ix2 o f)).toNat % 4096, Nat.mod_lt _ (by norm_num)⟩) := by
    simp_rw [Finset.mul_sum]
    rw [Finset.sum_comm]
    refine Finset.sum_congr rfl fun f _ => ?_
    have hlt := hidx (ix2 o f)
    have hmod : (idx (ix2 o f)).toNat % 4096 = (idx (ix2 o f)).toNat := Nat.mod_eq_of_lt hlt
    rw [Finset.sum_eq_single (⟨(idx (ix2 o f)).toNat % 4096, Nat.mod_lt _ (by norm_num)⟩ : Fin 4096)]
    · rw [if_pos ((word_eq_iff _ _ (Nat.mod_lt _ (by norm_num))).2 hmod.symm), mul_comm]
    · intro r _ hne
      rw [if_neg, mul_zero]
      intro heq
      exact hne (Fin.ext (((word_eq_iff _ _ r.isLt).1 heq).symm.trans hmod.symm))
    · intro h
      exact absurd (Finset.mem_univ _) h
  unfold kernelAt mmAt refAt
  show accAt (blockSum x (fun j => denseAt w idx (j 0) (j 1)) b o) 7 + bias (ix1 o) = _
  rw [hk, hreal, zero_add, hr]

end Cert.Spec

end
-- ==== Proof.KI.Arr0.lean ====
/-
  The dense matrix as the densify region leaves it, as ONE function of the region's two input arrays: block (k, j) of the
  output array is what point (k, j) wrote (every point writes its block back, and the 8 x 4 blocks tile the array), and that
  block's entry is `out0_apply`'s sum read at the input blocks, which are rows 0..31, columns 1024 j .. of the inputs.
-/
import proofs.«429429_j44581760532973_3_alg».proof.Proof.KI.Dat0
import proofs.«429429_j44581760532973_3_alg».proof.Proof.KI.Val0
import proofs.«429429_j44581760532973_3_alg».proof.Proof.Spec

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

/-- The printed index maps, decided over the grid: point t = 4 k + j writes output block (k, j) and reads the inputs'
    column block j (all 32 rows); its first grid coordinate is k. -/
theorem idx0 : ∀ t : Fin cfg0.N,
    win0_2.index t (0 : Fin 2) = t.val / 4 ∧ win0_2.index t (1 : Fin 2) = t.val % 4
    ∧ win0_0.index t (0 : Fin 2) = 0 ∧ win0_0.index t (1 : Fin 2) = t.val % 4
    ∧ win0_1.index t (0 : Fin 2) = 0 ∧ win0_1.index t (1 : Fin 2) = t.val % 4
    ∧ ((grid0.coords t) 0).val = t.val / 4 :=
  (by decide +kernel : ∀ t : Fin grid0.N, _)

section
variable (V : (c : Dev nD) → (b : Ref sig .tc) → Buf (Elt Ideal) ((c : Thread nD τ).loc b)) (c : Dev nD)

/-- The whole-array function the output array ends holding: entry (r, o) of the dense matrix from the transposed inputs. -/
abbrev dense0 : S4096x4096.Idx → EReal := fun j => Cert.Spec.denseTAt (V c main_v0) (V c main_v1) (j 0) (j 1)

/-- The weight block at point t: entry (f, o') is entry (f, 1024 j + o') of the transposed weight. -/
theorem iblk0_0_apply (t : Fin cfg0.N) (f : Fin 32) (o' : Fin 1024) (o : Fin 4096)
    (ho : o.val = 1024 * (t.val % 4) + o'.val) :
    (iblk0 V c 0 t (ix2 f o') : EReal) = (V c main_v0 : S32x4096.Idx → EReal) (ix2 f o) := by
  obtain ⟨-, -, e0, e1, -, -, -⟩ := idx0 t
  show (V c main_v0 : S32x4096.Idx → EReal) (((cfg0.win 0).blk t).view.emb (ix2 f o')) = _
  congr 1
  funext a
  apply Fin.ext
  match a with
  | ⟨0, _⟩ => show win0_0.index t (0 : Fin 2) * 32 + 1 * f.val = f.val; omega
  | ⟨1, _⟩ => show win0_0.index t (1 : Fin 2) * 1024 + 1 * o'.val = o.val; omega

/-- The index block at point t: entry (f, o') is entry (f, 1024 j + o') of the transposed index. -/
theorem iblk0_1_apply (t : Fin cfg0.N) (f : Fin 32) (o' : Fin 1024) (o : Fin 4096)
    (ho : o.val = 1024 * (t.val % 4) + o'.val) :
    (iblk0 V c 1 t (ix2 f o') : BitVec 32) = (V c main_v1 : S32x4096.Idx → BitVec 32) (ix2 f o) := by
  obtain ⟨-, -, -, -, e0, e1, -⟩ := idx0 t
  show (V c main_v1 : S32x4096.Idx → BitVec 32) (((cfg0.win 1).blk t).view.emb (ix2 f o')) = _
  congr 1
  funext a
  apply Fin.ext
  match a with
  | ⟨0, _⟩ => show win0_1.index t (0 : Fin 2) * 32 + 1 * f.val = f.val; omega
  | ⟨1, _⟩ => show win0_1.index t (1 : Fin 2) * 1024 + 1 * o'.val = o.val; omega

/-- Entry (r, o') of what point t = 4 k + j leaves in its output block is entry (512 k + r, 1024 j + o') of the dense matrix. -/
theorem out0_blk (t : Fin cfg0.N) (r : Fin 512) (o' : Fin 1024) (R O : Fin 4096)
    (hR : R.val = 512 * (t.val / 4) + r.val) (hO : O.val = 1024 * (t.val % 4) + o'.val) :
    (out0 (F := Ideal) (grid0.coords t) (iblk0 V c 0 t) (iblk0 V c 1 t) (ix2 r o') : EReal)
      = Cert.Spec.denseTAt (V c main_v0) (V c main_v1) R O := by
  obtain ⟨-, -, -, -, -, -, ek⟩ := idx0 t
  rw [out0_apply]
  unfold Cert.Spec.denseTAt
  refine Finset.sum_congr rfl fun f _ => ?_
  rw [iblk0_0_apply V c t f o' O hO, iblk0_1_apply V c t f o' O hO, ek, hR]

/-- The same at the block's own embedding into the array. -/
theorem out0_emb (t : Fin cfg0.N) (r : Fin 512) (o' : Fin 1024) :
    (out0 (F := Ideal) (grid0.coords t) (iblk0 V c 0 t) (iblk0 V c 1 t) (ix2 r o') : EReal)
      = dense0 V c (((cfg0.win 2).blk t).view.emb (ix2 r o')) := by
  obtain ⟨e0, e1, -⟩ := idx0 t
  refine out0_blk V c t r o' _ _ ?_ ?_
  · show win0_2.index t (0 : Fin 2) * 512 + 1 * r.val = _; omega
  · show win0_2.index t (1 : Fin 2) * 1024 + 1 * o'.val = _; omega

/-- WHAT POINT t WRITES BACK is block t of the dense matrix. -/
theorem flushed0_eq (t : Fin cfg0.N) :
    (dat0 (F := Ideal) V c).flushed 2 t = ((cfg0.win 2).blk t).view.read (Elt Ideal) (dense0 V c) := by
  show (dat0 (F := Ideal) V c).after 2 t = _
  rw [after0_2]
  refine funext fun (y : S512x1024.Idx) => ?_
  obtain ⟨r, o', rfl⟩ : ∃ (r : Fin 512) (o' : Fin 1024), y = ix2 r o' := ⟨y 0, y 1, eq_ix2 y⟩
  exact out0_emb V c t r o'

end

/-- An index of the array is in point t's block iff each coordinate is in the block's range on its axis. -/
theorem mem_blk0 (t : Fin cfg0.N) (i : S4096x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v2).slice (win0_2.rect t)).set ↔ _
  rw [View.set_slice_whole, Rect.mem_set_unit]
  exact Iff.rfl

/-- The 8 x 4 blocks tile the array: entry (r, o) is in the block of point 4 (r / 512) + o / 1024. -/
theorem cover0 (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 32 := N_0
  obtain ⟨t, ht⟩ : ∃ t : Fin cfg0.N, t.val = 4 * ((i 0).val / 512) + (i 1).val / 1024 :=
    ⟨⟨4 * ((i 0).val / 512) + (i 1).val / 1024, by rw [hN]; omega⟩, rfl⟩
  obtain ⟨e0, e1, -⟩ := idx0 t
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

theorem arr0 (V : (c : Dev nD) → (b : Ref sig .tc) → Buf (Elt Ideal) ((c : Thread nD τ).loc b)) (c : Dev nD) :
    ((dat0 (F := Ideal) V c).arrAt 2 cfg0.N : S4096x4096.Idx → EReal)
      = fun j => Cert.Spec.denseTAt (V c main_v0) (V c main_v1) (j 0) (j 1) :=
  (dat0 (F := Ideal) V c).arrAt_eq_of_cover 2 (dense0 V c) (fun t _ => flushed0_eq V c t) cover0

end Cert.KernelIdeal.Hand

end
-- ==== Proof.KI.Val1.lean ====
/-
  The matmul body's three results read at an index, at the ideal instance: a format change is the identity, the matrix unit's
  product into a zero accumulator is the plain sum over the contracted axis, and the additions are the extended reals'.
-/
import proofs.«429429_j44581760532973_3_alg».proof.Proof.KI.Run1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

/-! ## The matrix unit's operand indices, axis by axis -/

private theorem lhs_dot1_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
private theorem lhs_dot1_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
private theorem rhs_dot1_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
private theorem rhs_dot1_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The matrix unit's product into a zero accumulator, read at an index: the sum over the contracted axis. -/
theorem matmul1_apply (a : FVec Ideal S1024x512 .bf16) (b : FVec Ideal S512x1024 .bf16) (p q : Fin 1024) :
    (matmul dot_S1024x512_S512x1024_S1024x1024_1_0_0_1_n_n none a b (constant S1024x1024 .f32 0x00000000#32) (ix2 p q) : EReal)
      = ∑ r : Fin 512, (a (ix2 p r) : EReal) * (b (ix2 r q) : EReal) := by
  show FloatOps.matmul _ none a b _ (ix2 p q) = _
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k := funext fun ax => Fin.ext (by
    match ax with
    | ⟨0, _⟩ => exact lhs_dot1_0 _ _
    | ⟨1, _⟩ => exact (lhs_dot1_1 _ _).trans hk)
  have er : dot_S1024x512_S512x1024_S1024x1024_1_0_0_1_n_n.rhsIdx (ix2 p q)
      ((contrEquiv1 dot_S1024x512_S512x1024_S1024x1024_1_0_0_1_n_n 512 rfl rfl).symm k) = ix2 k q := funext fun ax => Fin.ext (by
    match ax with
    | ⟨0, _⟩ => exact (rhs_dot1_0 _ _).trans hk
    | ⟨1, _⟩ => exact rhs_dot1_1 _ _)
  rw [el, er]

/-- The accumulating step read at an index. -/
theorem k1_pay2_apply (xs : Vec Ideal S1024x1024 .f32) (x0 : Vec Ideal S1024x512 .bf16) (x1 : Vec Ideal S512x1024 .bf16) (p q : Fin 1024) :
    (k1_pay2 (F := Ideal) xs x0 x1 (ix2 p q) : EReal) = (xs (ix2 p q) : EReal) + ∑ r : Fin 512, (x0 (ix2 p r) : EReal) * (x1 (ix2 r q) : EReal) := by
  unfold k1_pay2
  simp only [shapeCast_self]
  rw [addf_apply, matmul1_apply]

/-- The reset value read at an index. -/
theorem k1_pay1_apply (j : S1024x1024.Idx) : (k1_pay1 (F := Ideal) j : EReal) = 0 := by
  unfold k1_pay1
  simp only [shapeCast_self]
  show Ideal.ofBits .f32 0x00000000#32 = 0
  exact Ideal.ofBits_zero_f32

/-- The output step read at an index. -/
theorem k1_pay3_apply (acc : Vec Ideal S1024x1024 .f32) (x2 : Vec Ideal S1x1024 .f32) (p q : Fin 1024) :
    (k1_pay3 (F := Ideal) acc x2 (ix2 p q) : EReal) = (acc (ix2 p q) : EReal) + (x2 (ix2 0 q) : EReal) := by
  unfold k1_pay3
  simp only [shapeCast_self]
  rw [addf_apply, broadcastTo_1b_ab_apply]

/-! ## The three results read at an index -/

theorem sout1_A_apply (x0 : Vec Ideal S1024x512 .bf16) (x1 : Vec Ideal S512x1024 .bf16) (p q : Fin 1024) :
    (sout1_A (F := Ideal) x0 x1 (ix2 p q) : EReal) = 0 + ∑ r : Fin 512, (x0 (ix2 p r) : EReal) * (x1 (ix2 r q) : EReal) := by
  unfold sout1_A
  rw [k1_pay2_apply, k1_pay1_apply]

theorem sout1_B_apply (xs : Vec Ideal S1024x1024 .f32) (x0 : Vec Ideal S1024x512 .bf16) (x1 : Vec Ideal S512x1024 .bf16) (p q : Fin 1024) :
    (sout1_B (F := Ideal) xs x0 x1 (ix2 p q) : EReal) = (xs (ix2 p q) : EReal) + ∑ r : Fin 512, (x0 (ix2 p r) : EReal) * (x1 (ix2 r q) : EReal) := by
  unfold sout1_B
  exact k1_pay2_apply xs x0 x1 p q

theorem out1_C_apply (xs : Vec Ideal S1024x1024 .f32) (x0 : Vec Ideal S1024x512 .bf16) (x1 : Vec Ideal S512x1024 .bf16) (x2 : Vec Ideal S1x1024 .f32) (p q : Fin 1024) :
    (out1_C (F := Ideal) xs x0 x1 x2 (ix2 p q) : EReal)
      = ((xs (ix2 p q) : EReal) + ∑ r : Fin 512, (x0 (ix2 p r) : EReal) * (x1 (ix2 r q) : EReal)) + (x2 (ix2 0 q) : EReal) := by
  unfold out1_C
  rw [k1_pay3_apply, k1_pay2_apply]

end Cert.KernelIdeal.Hand

end
-- ==== Proof.KI.Arr1.lean ====
/-
  The result array as the matmul region leaves it, as ONE function of the region's three input arrays: by induction along
  the contraction axis the accumulator after point (i, j, k) holds `accAt` of the first k + 1 block sums at every (p, q) of
  the tile; the point k = 7 stores that plus the bias row into the output block, which is the only write-back of block
  (i, j); the 2 x 4 blocks tile the array.
-/
import proofs.«429429_j44581760532973_3_alg».proof.Proof.KI.Dat1
import proofs.«429429_j44581760532973_3_alg».proof.Proof.KI.Val1
import proofs.«429429_j44581760532973_3_alg».proof.Proof.Spec

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

section Arrays
variable (V : (c : Dev nD) → (b : Ref sig .tc) → Buf (Elt Ideal) ((c : Thread nD τ).loc b))

/-- The three input arrays as the region finds them, and the result array's type, each at its literal type. -/
abbrev xarr (c : Dev nD) : S2048x4096.Idx → EReal := V c main_v3
abbrev darr (c : Dev nD) : S4096x4096.Idx → EReal := V c main_v2
abbrev barr (c : Dev nD) : S1x4096.Idx → EReal := V c main_v4
/-- The three input blocks at a point, each at its literal type. -/
abbrev xblk (c : Dev nD) (t : Fin cfg1.N) : Vec Ideal S1024x512 .bf16 := iblk1 V c 0 t
abbrev dblk (c : Dev nD) (t : Fin cfg1.N) : Vec Ideal S512x1024 .bf16 := iblk1 V c 1 t
abbrev bblk (c : Dev nD) (t : Fin cfg1.N) : Vec Ideal S1x1024 .f32 := iblk1 V c 2 t

/-- The printed index maps over the grid: point t = (4 i + j) * 8 + k reads x at block (i, k), the dense matrix at (k, j),
    the bias row at (0, j), and holds output block (i, j). -/
theorem idx1 : ∀ t : Fin cfg1.N,
    win1_0.index t (0 : Fin 2) = t.val / 32 ∧ win1_0.index t (1 : Fin 2) = t.val % 8
    ∧ win1_1.index t (0 : Fin 2) = t.val % 8 ∧ win1_1.index t (1 : Fin 2) = t.val / 8 % 4
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- Block (i, k) of x, read where its rectangle says. -/
theorem xblk_apply (c : Dev nD) (t : Fin cfg1.N) (p : Fin 1024) (r : Fin 512) (b : Fin 2048) (s : Fin 4096)
    (hb : b.val = 1024 * (t.val / 32) + p.val) (hs : s.val = 512 * (t.val % 8) + r.val) :
    (xblk V c t (ix2 p r) : EReal) = xarr V c (ix2 b s) := by
  obtain ⟨e0, e1, -⟩ := idx1 t
  show V c main_v3 (((cfg1.win 0).blk t).view.emb (ix2 p r)) = V c main_v3 (ix2 b s)
  refine congrArg (V c main_v3) ?_
  funext a; apply Fin.ext
  match a with
  | ⟨0, _⟩ => show win1_0.index t (0 : Fin 2) * 1024 + 1 * p.val = b.val; omega
  | ⟨1, _⟩ => show win1_0.index t (1 : Fin 2) * 512 + 1 * r.val = s.val; omega

/-- Block (k, j) of the dense matrix, read where its rectangle says. -/
theorem dblk_apply (c : Dev nD) (t : Fin cfg1.N) (r : Fin 512) (q : Fin 1024) (s : Fin 4096) (o : Fin 4096)
    (hs : s.val = 512 * (t.val % 8) + r.val) (ho : o.val = 1024 * (t.val / 8 % 4) + q.val) :
    (dblk V c t (ix2 r q) : EReal) = darr V c (ix2 s o) := by
  obtain ⟨-, -, e0, e1, -⟩ := idx1 t
  show V c main_v2 (((cfg1.win 1).blk t).view.emb (ix2 r q)) = V c main_v2 (ix2 s o)
  refine congrArg (V c main_v2) ?_
  funext a; apply Fin.ext
  match a with
  | ⟨0, _⟩ => show win1_1.index t (0 : Fin 2) * 512 + 1 * r.val = s.val; omega
  | ⟨1, _⟩ => show win1_1.index t (1 : Fin 2) * 1024 + 1 * q.val = o.val; omega

/-- Block (0, j) of the bias row, read where its rectangle says. -/
theorem bblk_apply (c : Dev nD) (t : Fin cfg1.N) (q : Fin 1024) (o : Fin 4096)
    (ho : o.val = 1024 * (t.val / 8 % 4) + q.val) :
    (bblk V c t (ix2 0 q) : EReal) = barr V c (ix2 0 o) := by
  obtain ⟨-, -, -, -, e0, e1, -⟩ := idx1 t
  show V c main_v4 (((cfg1.win 2).blk t).view.emb (ix2 0 q)) = V c main_v4 (ix2 0 o)
  refine congrArg (V c main_v4) ?_
  funext a; apply Fin.ext
  match a with
  | ⟨0, _⟩ => show win1_2.index t (0 : Fin 2) * 1 + 1 * (0 : Fin 1).val = (0 : Fin 1).val; rw [e0]; rfl
  | ⟨1, _⟩ => show win1_2.index t (1 : Fin 2) * 1024 + 1 * q.val = o.val; omega

/-- One point's 512 products at (p, q) of the tile are block k of the contraction at the array's (b, o). -/
theorem blk_sum (c : Dev nD) (t : Fin cfg1.N) (p q : Fin 1024) (b : Fin 2048) (o : Fin 4096)
    (hb : b.val = 1024 * (t.val / 32) + p.val) (ho : o.val = 1024 * (t.val / 8 % 4) + q.val) :
    (∑ r : Fin 512, (xblk V c t (ix2 p r) : EReal) * (dblk V c t (ix2 r q) : EReal))
      = Cert.Spec.blockSum (xarr V c) (darr V c) b o (t.val % 8) := by
  unfold Cert.Spec.blockSum
  refine Finset.sum_congr rfl fun r _ => ?_
  have hr : r.val < 512 := r.isLt
  have h : 512 * (t.val % 8) + r.val < 4096 := by omega
  rw [dif_pos h, xblk_apply V c t p r b ⟨512 * (t.val % 8) + r.val, h⟩ hb rfl,
    dblk_apply V c t r q ⟨512 * (t.val % 8) + r.val, h⟩ o rfl ho]

/-- THE ACCUMULATOR after point n = (4 i + j) * 8 + k: at (p, q) of the tile, the first k + 1 blocks of the contraction
    at the array's (1024 i + p, 1024 j + q), accumulated from zero in block order. -/
theorem acc_eq (c : Dev nD) : ∀ (n : ℕ) (hn : n < cfg1.N) (p q : Fin 1024) (b : Fin 2048) (o : Fin 4096),
    b.val = 1024 * (n / 32) + p.val → o.val = 1024 * (n / 8 % 4) + q.val →
    ((outsAt1 V c n hn).2 (ix2 p q) : EReal)
      = Cert.Spec.accAt (Cert.Spec.blockSum (xarr V c) (darr V c) b o) (n % 8)
  | 0, hn, p, q, b, o, hb, ho => by
    rw [outsAt1_A V c ⟨0, hn⟩ rfl]
    refine (sout1_A_apply (xblk V c ⟨0, hn⟩) (dblk V c ⟨0, hn⟩) p q).trans ?_
    rw [blk_sum V c ⟨0, hn⟩ p q b o hb ho]
    rfl
  | n + 1, hn, p, q, b, o, hb, ho => by
    by_cases h0 : (n + 1) % 8 = 0
    · rw [outsAt1_A V c ⟨n + 1, hn⟩ h0]
      refine (sout1_A_apply (xblk V c ⟨n + 1, hn⟩) (dblk V c ⟨n + 1, hn⟩) p q).trans ?_
      rw [blk_sum V c ⟨n + 1, hn⟩ p q b o hb ho]
      show 0 + Cert.Spec.blockSum (xarr V c) (darr V c) b o ((n + 1) % 8) = Cert.Spec.accAt _ ((n + 1) % 8)
      rw [h0]
      rfl
    · rw [outsAt1_B V c ⟨n + 1, hn⟩ h0]
      refine (sout1_B_apply (outsAt1 V c n (Nat.lt_of_succ_lt hn)).2 (xblk V c ⟨n + 1, hn⟩) (dblk V c ⟨n + 1, hn⟩) p q).trans ?_
      rw [blk_sum V c ⟨n + 1, hn⟩ p q b o hb ho, acc_eq c n (Nat.lt_of_succ_lt hn) p q b o (by omega) (by omega)]
      show _ + Cert.Spec.blockSum (xarr V c) (darr V c) b o ((n + 1) % 8) = Cert.Spec.accAt _ ((n + 1) % 8)
      rw [show (n + 1) % 8 = n % 8 + 1 from by omega]
      rfl

/-- THE OUTPUT BLOCK at a point k = 7: at (p, q) of the tile, all 8 blocks accumulated plus the bias row, i.e. the
    region's result at the array's (1024 i + p, 1024 j + q). -/
theorem out_eq (c : Dev nD) (t : Fin cfg1.N) (h7 : t.val % 8 = 7) (p q : Fin 1024) (b : Fin 2048) (o : Fin 4096)
    (hb : b.val = 1024 * (t.val / 32) + p.val) (ho : o.val = 1024 * (t.val / 8 % 4) + q.val) :
    ((outsAt1 V c t.val t.isLt).1 (ix2 p q) : EReal)
      = Cert.Spec.mmAt (xarr V c) (darr V c) (barr V c) b o := by
  rw [outsAt1_C V c t h7]
  refine (out1_C_apply (outsAt1 V c (t.val - 1) (Nat.lt_of_le_of_lt (Nat.sub_le _ _) t.isLt)).2
    (xblk V c t) (dblk V c t) (bblk V c t) p q).trans ?_
  rw [blk_sum V c t p q b o hb ho,
    acc_eq V c (t.val - 1) (Nat.lt_of_le_of_lt (Nat.sub_le _ _) t.isLt) p q b o (by omega) (by omega),
    bblk_apply V c t q o ho, h7, show (t.val - 1) % 8 = 6 from by omega]
  rfl

/-- The result array's contents the write-backs add up to. -/
abbrev G1 (c : Dev nD) : Buf (Elt Ideal) ((c : Thread nD τ).loc main_v5) :=
  fun j => Cert.Spec.mmAt (xarr V c) (darr V c) (barr V c) (j 0) (j 1)

/-- WHAT A FLUSHING POINT WRITES BACK is its block of that array. -/
theorem flushed1_eq (c : Dev nD) (t : Fin cfg1.N) (hf : (cfg1.win 3).flush t = true) :
    (dat1 (F := Ideal) V c).flushed 3 t = ((cfg1.win 3).blk t).view.read (Elt Ideal) (G1 V c) := by
  have h7 : t.val % 8 = 7 := (flush1_3 t).mp hf
  obtain ⟨-, -, -, -, -, -, e0, e1⟩ := idx1 t
  show (cfg1.win 3).cut (grid1.coords t) ((dat1 (F := Ideal) V c).after 3 t) = _
  rw [after1_3]
  funext y
  obtain ⟨p, q, rfl⟩ : ∃ p q, y = ix2 p q := ⟨y 0, y 1, eq_ix2 y⟩
  have hb : ((((cfg1.win 3).blk t).view.emb (ix2 p q)) 0).val = 1024 * (t.val / 32) + p.val := by
    show win1_3.index t (0 : Fin 2) * 1024 + 1 * p.val = _; omega
  have ho : ((((cfg1.win 3).blk t).view.emb (ix2 p q)) 1).val = 1024 * (t.val / 8 % 4) + q.val := by
    show win1_3.index t (1 : Fin 2) * 1024 + 1 * q.val = _; omega
  exact out_eq V c t h7 p q _ _ hb ho

/-- THE RESULT ARRAY after the region: the 2 x 4 output blocks, each written back once at its point k = 7, tile it. -/
theorem arr1_G (c : Dev nD) : (dat1 (F := Ideal) V c).arrAt 3 cfg1.N = G1 V c :=
  (dat1 (F := Ideal) V c).arrAt_eq_of_cover 3 (G1 V c) (fun t ht => flushed1_eq V c t ht) fun i => by
    have hi0 : (i 0).val < 2048 := (i 0).isLt
    have hi1 : (i 1).val < 4096 := (i 1).isLt
    have hN : cfg1.N = 64 := N_1
    have ht : (4 * ((i 0).val / 1024) + (i 1).val / 1024) * 8 + 7 < cfg1.N := by rw [hN]; omega
    refine ⟨⟨(4 * ((i 0).val / 1024) + (i 1).val / 1024) * 8 + 7, ht⟩, (flush1_3 _).mpr (by show ((4 * ((i 0).val / 1024) + (i 1).val / 1024) * 8 + 7) % 8 = 7; omega), ?_⟩
    obtain ⟨-, -, -, -, -, -, e0, e1⟩ := idx1 ⟨(4 * ((i 0).val / 1024) + (i 1).val / 1024) * 8 + 7, ht⟩
    have v : (⟨(4 * ((i 0).val / 1024) + (i 1).val / 1024) * 8 + 7, ht⟩ : Fin cfg1.N).val = (4 * ((i 0).val / 1024) + (i 1).val / 1024) * 8 + 7 := rfl
    rw [v] at e0 e1
    show i ∈ ((View.whole main_v5).slice (win1_3.rect ⟨(4 * ((i 0).val / 1024) + (i 1).val / 1024) * 8 + 7, ht⟩)).set
    rw [View.set_slice_whole, Rect.mem_set_unit]
    intro a
    match a with
    | ⟨0, _⟩ =>
      show win1_3.index ⟨(4 * ((i 0).val / 1024) + (i 1).val / 1024) * 8 + 7, ht⟩ (0 : Fin 2) * 1024 ≤ (i 0).val
        ∧ (i 0).val < win1_3.index ⟨(4 * ((i 0).val / 1024) + (i 1).val / 1024) * 8 + 7, ht⟩ (0 : Fin 2) * 1024 + 1024
      rw [e0]; omega
    | ⟨1, _⟩ =>
      show win1_3.index ⟨(4 * ((i 0).val / 1024) + (i 1).val / 1024) * 8 + 7, ht⟩ (1 : Fin 2) * 1024 ≤ (i 1).val
        ∧ (i 1).val < win1_3.index ⟨(4 * ((i 0).val / 1024) + (i 1).val / 1024) * 8 + 7, ht⟩ (1 : Fin 2) * 1024 + 1024
      rw [e1]; omega

end Arrays

theorem arr1 (V : (c : Dev nD) → (b : Ref sig .tc) → Buf (Elt Ideal) ((c : Thread nD τ).loc b)) (c : Dev nD) :
    ((dat1 (F := Ideal) V c).arrAt 3 cfg1.N : S2048x4096.Idx → EReal)
      = fun j => Cert.Spec.mmAt (V c main_v3) (V c main_v2) (V c main_v4) (j 0) (j 1) :=
  arr1_G V c

end Cert.KernelIdeal.Hand

end
-- ==== Proof.KI.Assemble.lean ====
/-
  The result array at the end of the idealized kernel's run, as a function of the four arguments: the matmul region's
  closed form over its three input arrays, which are the converted x (the identity on the extended reals), the dense
  matrix the densify region left (a function of the transposed weight and index), and the bias as a row.
-/
import proofs.«429429_j44581760532973_3_alg».proof.Proof.KI.Main
import proofs.«429429_j44581760532973_3_alg».proof.Proof.KI.Arr0
import proofs.«429429_j44581760532973_3_alg».proof.Proof.KI.Arr1
import proofs.«429429_j44581760532973_3_alg».proof.Proof.Spec
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The four arguments as the program finds them on core `c`. -/
abbrev argX (c : Dev nD) : S2048x4096.Idx → EReal := m ((c.tc : Thread nD τ).loc main_arg0)
abbrev argW (c : Dev nD) : S4096x32.Idx → EReal := m ((c.tc : Thread nD τ).loc main_arg1)
abbrev argB (c : Dev nD) : S4096.Idx → EReal := m ((c.tc : Thread nD τ).loc main_arg2)
abbrev argI (c : Dev nD) : S4096x32.Idx → BitVec 32 := m ((c.tc : Thread nD τ).loc main_arg3)

/-- The densify region's first input array is the transposed weight. -/
theorem V1_v0 (c : Dev nD) (f : Fin 32) (o : Fin 4096) : (V1 m c main_v0 : S32x4096.Idx → EReal) (ix2 f o) = argW m c (ix2 o f) := by
  have e : (V1 m c main_v0 : S32x4096.Idx → EReal) = transpose S32x4096 [1, 0] (argW m c) transposes_S4096x32_S32x4096_1_0 := by
    show StableHlo.after hostOps0 (W0 m c) (Proc.devRef .tc main_v0) = _
    after_results <;> rfl
  rw [e]; exact transpose_ix2_apply _ _ _ _
/-- Its second input array is the transposed index. -/
theorem V1_v1 (c : Dev nD) (f : Fin 32) (o : Fin 4096) : (V1 m c main_v1 : S32x4096.Idx → BitVec 32) (ix2 f o) = argI m c (ix2 o f) := by
  have e : (V1 m c main_v1 : S32x4096.Idx → BitVec 32) = transpose S32x4096 [1, 0] (argI m c) transposes_S4096x32_S32x4096_1_0 := by
    show StableHlo.after hostOps0 (W0 m c) (Proc.devRef .tc main_v1) = _
    after_results <;> rfl
  rw [e]; exact transpose_ix2_apply _ _ _ _

/-- The dense matrix at the densify region's exit, from the program's weight and index. -/
theorem V2_v2 (c : Dev nD) : (V2 m c main_v2 : S4096x4096.Idx → EReal) = fun j => Cert.Spec.denseAt (argW m c) (argI m c) (j 0) (j 1) := by
  have h := (hF0 m c 2).symm.trans (arr0 (V1 m) c)
  refine h.trans (funext fun j => ?_)
  unfold Cert.Spec.denseTAt Cert.Spec.denseAt
  refine Finset.sum_congr rfl fun f _ => ?_
  rw [V1_v0 m c f (j 1), V1_v1 m c f (j 1)]

/-- No host operation between the two regions writes the dense matrix or an argument. -/
theorem V3_v2 (c : Dev nD) : V3 m c main_v2 = V2 m c main_v2 :=
  StableHlo.after_of_writes_sub hostOps1 _ hostOps1_writes (by decide)
theorem V2_arg (c : Dev nD) (r : Ref sig .tc) (h0 : r ∉ hostOps0_W) (h1 : ∀ w, Pipeline.arrRef spec0 w ≠ r) :
    W2 m c (Proc.devRef .tc r) = m ((c.tc : Thread nD τ).loc r) :=
  (W2_of_ne m c r h1).trans (StableHlo.after_of_writes_sub hostOps0 _ hostOps0_writes h0)

/-- The matmul region's first input array is x (the convert is the identity on the extended reals). -/
theorem V3_v3 (c : Dev nD) : (V3 m c main_v3 : S2048x4096.Idx → EReal) = argX m c := by
  have e : (V3 m c main_v3 : S2048x4096.Idx → EReal) = (truncf .bf16 (W2 m c (Proc.devRef .tc main_arg0) : FVec Ideal S2048x4096 .f32) bitsLt_bf16_f32 : FVec Ideal S2048x4096 .bf16) := by
    show StableHlo.after hostOps1 (W2 m c) (Proc.devRef .tc main_v3) = _
    after_results <;> rfl
  rw [e, V2_arg m c main_arg0 (by decide) (by decide)]; rfl
/-- Its third input array is the bias as a row. -/
theorem V3_v4 (c : Dev nD) (o : Fin 4096) : (V3 m c main_v4 : S1x4096.Idx → EReal) (ix2 0 o) = argB m c (ix1 o) := by
  have e : (V3 m c main_v4 : S1x4096.Idx → EReal) = shapeCast S1x4096 (W2 m c (Proc.devRef .tc main_arg2) : S4096.Idx → EReal) shapeCasts_S4096_S1x4096 := by
    show StableHlo.after hostOps1 (W2 m c) (Proc.devRef .tc main_v4) = _
    after_results <;> rfl
  rw [e, V2_arg m c main_arg2 (by decide) (by decide)]
  exact shapeCast_a_1a_apply _ _ _ _

/-- THE KERNEL'S VALUE: the result array at the end is `kernelAt` of the four arguments. -/
theorem result_eq (c : Dev nD) :
    (W4 m c (Proc.devRef .tc main_v5) : S2048x4096.Idx → EReal)
      = fun j => Cert.Spec.kernelAt (argX m c) (argW m c) (argB m c) (argI m c) (j 0) (j 1) := by
  refine ((W4_main_v5 m c).trans (arr1 (V3 m) c)).trans (funext fun j => ?_)
  unfold Cert.Spec.kernelAt Cert.Spec.mmAt
  rw [V3_v3 m c, V3_v2 m c, V2_v2 m c, V3_v4 m c (j 1)]
  rfl

end Cert.KernelIdeal.Hand

end
-- ==== Proof.RefRun.lean ====
/-
  The reference's run: its @main is a call of jnp.take's outlined function (the indices wrapped when negative, the
  gather, the in-range mask, the select against the NaN fill) followed by the product with the broadcast weight, the sum
  over the fan-in axis from zero, and the bias. Every weakly fair execution terminates with the result buffer at the
  operations' composed pure term of the four arguments, which end unchanged.
-/
import proofs.«429429_j44581760532973_3_alg».proof.Proof.Gen.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Facts₀

variable {F : FTy → Type} [FloatOps F]

/-! ## The term, piece by piece -/

/-- The index array with a negative entry moved up by the axis length 4096 (jnp.take's wrap of negative indices). -/
def wrapIdx (idx : IVec S4096x32 32) : IVec S4096x32 32 :=
  select (cmpi .slt idx (broadcastInDim S4096x32 ![] bcast_S_S4096x32 (constantI S_ 32 0#32)))
    (addi idx (broadcastInDim S4096x32 ![] bcast_S_S4096x32 (constantI S_ 32 4096#32))) idx

/-- The wrapped indices with a trailing unit axis: the gather's start indices, 4096 x 32 x 1. -/
def idx3 (idx : IVec S4096x32 32) : IVec S4096x32x1 32 :=
  broadcastInDim S4096x32x1 ![0, 1] bcast_S4096x32_S4096x32x1_0_1 (wrapIdx idx)

/-- The in-range mask: at each (o, f), the conjunction over the unit axis of 0 <= index and index <= 4095 (signed). -/
def okMask (idx : IVec S4096x32 32) : IVec S4096x32 1 :=
  Host.reduce IntOp.andi
    (andi (cmpi .sge (idx3 idx) (broadcastInDim S4096x32x1 ![] bcast_S_S4096x32x1 (constantI S_ 32 0#32)))
      (cmpi .sle (idx3 idx) (broadcastInDim S4096x32x1 ![0, 1, 2] bcast_S1x1x1_S4096x32x1_0_1_2
        (broadcastInDim S1x1x1 ![2] bcast_S1_S1x1x1_2 (constantI S1 32 4095#32)))))
    (constantI S_ 1 1#1) reducesTo_S4096x32x1_S4096x32_d2 h_S_

/-- The taken entries, 2048 x 4096 x 32: the gather of x along its second axis where the mask holds, the NaN fill
    elsewhere. -/
def taken (x : FVec F S2048x4096 .f32) (idx : IVec S4096x32 32) : FVec F S2048x4096x32 .f32 :=
  select (broadcastInDim S2048x4096x32 ![1, 2] bcast_S4096x32_S2048x4096x32_1_2 (okMask idx))
    (Host.gather gather_S2048x4096_S4096x32x1_S2048x4096x32_0_1_n_n_1_2_20481 x (idx3 idx))
    (broadcastInDim S2048x4096x32 ![] bcast_S_S2048x4096x32 (constant S_ .f32 0x7FC00000#32))

/-- The reference's result as a pure function of its four arguments: the operations of @_take and of @main composed. -/
def refTerm (x : FVec F S2048x4096 .f32) (w : FVec F S4096x32 .f32) (b : FVec F S4096 .f32) (idx : IVec S4096x32 32) : FVec F S2048x4096 .f32 :=
  addf
    (Host.reduceAdd
      (mulf
        (broadcastInDim S2048x4096x32 ![0, 1, 2] bcast_S1x4096x32_S2048x4096x32_0_1_2
          (broadcastInDim S1x4096x32 ![1, 2] bcast_S4096x32_S1x4096x32_1_2 w))
        (taken x idx))
      (constant S_ .f32 0x00000000#32) reducesTo_S2048x4096x32_S2048x4096_d2 h_S_)
    (broadcastInDim S2048x4096 ![0, 1] bcast_S1x4096_S2048x4096_0_1
      (broadcastInDim S1x4096 ![1] bcast_S4096_S1x4096_1 b))

/-! ## The operations -/

/-- @main's operations in order, the two calls unfolded: @_take's twenty-three, with @_where's select in the place of
    its call (into the record main_call0_call0's buffer), then @main's own eight. -/
abbrev ops : List (HloOp τ sig (Elt F)) :=
  [ TRef.nullary main_call0.c (constantI S_ 32 0#32),
    TRef.unary main_call0.c main_call0.v0 (broadcastInDim S4096x32 ![] bcast_S_S4096x32),
    TRef.binary (.of main_arg3) main_call0.v0 main_call0.v1 (cmpi .slt),
    TRef.nullary main_call0.c_0 (constantI S_ 32 4096#32),
    TRef.unary main_call0.c_0 main_call0.v2 (broadcastInDim S4096x32 ![] bcast_S_S4096x32),
    TRef.binary (.of main_arg3) main_call0.v2 main_call0.v3 addi,
    TRef.ternary main_call0.v1 main_call0.v3 (.of main_arg3) main_call0.call0.v0 select,
    TRef.unary main_call0.call0.v0 main_call0.v5 (broadcastInDim S4096x32x1 ![0, 1] bcast_S4096x32_S4096x32x1_0_1),
    TRef.nullary main_call0.c_1 (constantI S1 32 4095#32),
    TRef.nullary main_call0.c_2 (constantI S_ 32 0#32),
    TRef.unary main_call0.c_2 main_call0.v6 (broadcastInDim S4096x32x1 ![] bcast_S_S4096x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x32x1 ![0, 1, 2] bcast_S1x1x1_S4096x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x32x1_S4096x32_d2 h_S_),
    TRef.binary (.of main_arg0) main_call0.v5 main_call0.v13 (fun x i => Host.gather gather_S2048x4096_S4096x32x1_S2048x4096x32_0_1_n_n_1_2_20481 x i),
    TRef.unary main_call0.v12 main_call0.v14 (broadcastInDim S2048x4096x32 ![1, 2] bcast_S4096x32_S2048x4096x32_1_2),
    TRef.nullary main_call0.cst (constant S_ .f32 0x7FC00000#32),
    TRef.unary main_call0.cst main_call0.v15 (broadcastInDim S2048x4096x32 ![] bcast_S_S2048x4096x32),
    TRef.ternary main_call0.v14 main_call0.v13 main_call0.v15 main_call0.v16 select,
    unary main_arg1 main_v1 (broadcastInDim S1x4096x32 ![1, 2] bcast_S4096x32_S1x4096x32_1_2 : (⟨S4096x32, .f32⟩ : BufTy).Contents (Elt F) → (⟨S1x4096x32, .f32⟩ : BufTy).Contents (Elt F)),
    unary main_v1 main_v2 (broadcastInDim S2048x4096x32 ![0, 1, 2] bcast_S1x4096x32_S2048x4096x32_0_1_2 : (⟨S1x4096x32, .f32⟩ : BufTy).Contents (Elt F) → (⟨S2048x4096x32, .f32⟩ : BufTy).Contents (Elt F)),
    binary main_v2 main_v0 main_v3 (mulf : (⟨S2048x4096x32, .f32⟩ : BufTy).Contents (Elt F) → (⟨S2048x4096x32, .f32⟩ : BufTy).Contents (Elt F) → (⟨S2048x4096x32, .f32⟩ : BufTy).Contents (Elt F)),
    nullary main_cst (constant S_ .f32 0x00000000#32),
    binary main_v3 main_cst main_v4 ((fun x v => Host.reduceAdd x v reducesTo_S2048x4096x32_S2048x4096_d2 h_S_) : (⟨S2048x4096x32, .f32⟩ : BufTy).Contents (Elt F) → (⟨S_, .f32⟩ : BufTy).Contents (Elt F) → (⟨S2048x4096, .f32⟩ : BufTy).Contents (Elt F)),
    unary main_arg2 main_v5 (broadcastInDim S1x4096 ![1] bcast_S4096_S1x4096_1 : (⟨S4096, .f32⟩ : BufTy).Contents (Elt F) → (⟨S1x4096, .f32⟩ : BufTy).Contents (Elt F)),
    unary main_v5 main_v6 (broadcastInDim S2048x4096 ![0, 1] bcast_S1x4096_S2048x4096_0_1 : (⟨S1x4096, .f32⟩ : BufTy).Contents (Elt F) → (⟨S2048x4096, .f32⟩ : BufTy).Contents (Elt F)),
    binary main_v4 main_v6 main_v7 (addf : (⟨S2048x4096, .f32⟩ : BufTy).Contents (Elt F) → (⟨S2048x4096, .f32⟩ : BufTy).Contents (Elt F) → (⟨S2048x4096, .f32⟩ : BufTy).Contents (Elt F)) ]

-- thirty-one binds re-associated: the rewrite under the chain recurses once per statement
set_option maxRecDepth 1024 in
/-- @main is that straight line: the two functions' definitions unfolded at their calls, both sides are one chain of
    operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    unary_bufs_sub .., binary_bufs_sub ..⟩

set_option maxRecDepth 8192 in
/-- The fold at the result buffer is the term: the fold unrolled, each operation's result at its own buffer its
    function's value and at any other buffer what was there; a typed reference's transport of contents between the
    value's type and its buffer's is a cast between equal types at these literal references, hence the identity. -/
theorem out_eq (V : Valuation τ sig (Elt F)) :
    after ops V (main_v7 : DevRef τ sig)
      = refTerm (V (main_arg0 : DevRef τ sig)) (V (main_arg1 : DevRef τ sig)) (V (main_arg2 : DevRef τ sig))
          (V (main_arg3 : DevRef τ sig)) := by
  unfold refTerm taken okMask idx3 wrapIdx
  after_results_simp
  simp only [TRef.toBuf, TRef.ofBuf, cast_eq]

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v7)
          = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v7).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.Hand

end
-- ==== Proof.RefRead.lean ====
/-
  The reference's term read at an index, at the ideal instance, for indices in [0, 4096): a non-negative index is not
  wrapped, the in-range mask is true, so the select returns the gathered entry x(b, index(o, f)); the product with the
  broadcast weight and the sum over the fan-in axis from zero, plus the bias, is `refAt`.
-/
import proofs.«429429_j44581760532973_3_alg».proof.Proof.RefRun
import proofs.«429429_j44581760532973_3_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

set_option maxRecDepth 16384

noncomputable section

open scoped BigOperators

namespace Cert.ReferenceIdeal.Hand

open Idealize.ShloMosaic Idealize.ShloMosaic.TcCoe Idealize.SL.Sem Idealize.ShloMosaic.ValueIdx
open Cert.ReferenceIdeal Cert.ReferenceIdeal.Facts₀

/-! ## Words: a 32-bit word below 4096, read signed -/

/-- Below 2^31 a word's signed reading is its unsigned one. -/
theorem toInt_of_lt {v : BitVec 32} (h : v.toNat < 4096) : v.toInt = (v.toNat : Int) :=
  BitVec.toInt_eq_toNat_of_lt (by omega)

/-- Such a word is not negative … -/
theorem cmpi_slt_zero {v : BitVec 32} (h : v.toNat < 4096) : IntOp.cmpi .slt v 0#32 = 0#1 := by
  have hv := toInt_of_lt h
  simp only [IntOp.cmpi, BitVec.slt_eq_decide, BitVec.toInt_zero, hv]
  rw [decide_eq_false (by omega)]
  rfl

/-- … it is at least zero … -/
theorem cmpi_sge_zero {v : BitVec 32} (h : v.toNat < 4096) : IntOp.cmpi .sge v 0#32 = 1#1 := by
  have hv := toInt_of_lt h
  simp only [IntOp.cmpi, BitVec.sle_eq_decide, BitVec.toInt_zero, hv]
  rw [decide_eq_true (by omega)]
  rfl

/-- … and at most 4095. -/
theorem cmpi_sle_max {v : BitVec 32} (h : v.toNat < 4096) : IntOp.cmpi .sle v 4095#32 = 1#1 := by
  have hv := toInt_of_lt h
  have hc : (4095#32 : BitVec 32).toInt = 4095 := by decide
  simp only [IntOp.cmpi, BitVec.sle_eq_decide, hc, hv]
  rw [decide_eq_true (by omega)]
  rfl

/-- A left fold by `and` of ones from one is one. -/
theorem foldl_andi_ones {ι : Type} : ∀ l : List ι, l.foldl (fun r _ => IntOp.andi r 1#1) 1#1 = 1#1
  | [] => rfl
  | _ :: l => by
    rw [List.foldl_cons, show IntOp.andi 1#1 1#1 = 1#1 from by decide]
    exact foldl_andi_ones l

/-! ## The pieces of the term at an index -/

section Pieces

variable (idx : IVec S4096x32 32)

/-- An index in [0, 4096) is not wrapped. -/
theorem wrapIdx_apply (hidx : ∀ i, (idx i).toNat < 4096) (i : S4096x32.Idx) : wrapIdx idx i = idx i := by
  unfold wrapIdx
  rw [select_apply]
  have h0 : cmpi .slt idx (broadcastInDim S4096x32 ![] bcast_S_S4096x32 (constantI S_ 32 0#32)) i = 0#1 :=
    cmpi_slt_zero (hidx i)
  rw [h0, select_zero]

/-- The start indices at (o, f, 0) are the indices at (o, f). -/
theorem idx3_apply (hidx : ∀ i, (idx i).toNat < 4096) (o : Fin 4096) (f : Fin 32) (z : Fin 1) :
    idx3 idx (ix3 o f z) = idx (ix2 o f) := by
  unfold idx3
  rw [broadcastInDim_apply _ _ _ (ix3 o f z) (ix2 o f) (fun a => by
    match a with
    | ⟨0, _⟩ => rfl
    | ⟨1, _⟩ => rfl)]
  exact wrapIdx_apply idx hidx _

/-- The two comparisons hold at every start index. -/
theorem mask_operand (hidx : ∀ i, (idx i).toNat < 4096) :
    andi (cmpi .sge (idx3 idx) (broadcastInDim S4096x32x1 ![] bcast_S_S4096x32x1 (constantI S_ 32 0#32)))
        (cmpi .sle (idx3 idx) (broadcastInDim S4096x32x1 ![0, 1, 2] bcast_S1x1x1_S4096x32x1_0_1_2
          (broadcastInDim S1x1x1 ![2] bcast_S1_S1x1x1_2 (constantI S1 32 4095#32))))
      = fun _ => 1#1 := by
  funext k
  have hk : idx3 idx k = idx (ix2 (k 0) (k 1)) := by
    rw [eq_ix3 k]; exact idx3_apply idx hidx _ _ _
  show IntOp.andi (IntOp.cmpi .sge (idx3 idx k) 0#32) (IntOp.cmpi .sle (idx3 idx k) 4095#32) = 1#1
  rw [hk, cmpi_sge_zero (hidx _), cmpi_sle_max (hidx _)]
  decide

/-- So the in-range mask is true everywhere. -/
theorem okMask_apply (hidx : ∀ i, (idx i).toNat < 4096) (i : S4096x32.Idx) : okMask idx i = 1#1 := by
  unfold okMask
  rw [mask_operand idx hidx, Host.reduce_eq_foldl]
  exact foldl_andi_ones _

end Pieces

/-! ## The gather read at an index -/

/-- The gather of a 2048 x 4096 operand along its second axis by a 4096 x 32 x 1 array of start indices, read at
    (b, o, f): the operand at (b, start), the start index at (o, f, 0) read signed and clamped into [0, 4095] — the
    identity on a start index in [0, 4096). -/
theorem gather_apply {α : Type} (x : S2048x4096.Idx → α) (i3 : IVec S4096x32x1 32) (b : Fin 2048) (o : Fin 4096) (f : Fin 32)
    (h : (i3 (ix3 o f 0)).toNat < 4096) :
    Host.gather gather_S2048x4096_S4096x32x1_S2048x4096x32_0_1_n_n_1_2_20481 x i3 (ix3 b o f)
      = x (ix2 b ⟨(i3 (ix3 o f 0)).toNat, h⟩) := by
  unfold Host.gather
  refine congrArg x (funext fun a => Fin.ext ?_)
  match a with
  | ⟨0, _⟩ =>
    show GatherDims.start _ (ix3 b o f) i3 0 + GatherDims.batchCoord _ (ix3 b o f) 0 + GatherDims.offCoord _ (ix3 b o f) 0 = b.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show GatherDims.start _ (ix3 b o f) i3 1 + GatherDims.batchCoord _ (ix3 b o f) 1 + GatherDims.offCoord _ (ix3 b o f) 1
      = (i3 (ix3 o f 0)).toNat
    rw [GatherDims.batchCoord_eq_zero _ _ _ List.not_mem_nil, GatherDims.offCoord_eq_zero _ _ _ (by decide)]
    simp only [Nat.add_zero]
    unfold GatherDims.start
    rw [dif_pos (by decide)]
    have hsi : ∀ c, GatherDims.siIdx gather_S2048x4096_S4096x32x1_S2048x4096x32_0_1_n_n_1_2_20481 (ix3 b o f) c = ix3 o f 0 := by
      intro c
      have hc : c.val = 0 := by
        have h1 := c.isLt
        change c.val < 1 at h1
        omega
      funext e; refine Fin.ext ?_
      match e with
      | ⟨0, _⟩ => rfl
      | ⟨1, _⟩ => rfl
      | ⟨2, _⟩ => exact hc
    rw [hsi]
    have hn : (i3 (ix3 o f 0)).toInt.toNat = (i3 (ix3 o f 0)).toNat := by
      rw [toInt_of_lt h]; exact Int.toNat_natCast _
    show min (i3 (ix3 o f 0)).toInt.toNat (4096 - 1) = (i3 (ix3 o f 0)).toNat
    rw [hn]
    exact Nat.min_eq_left (by omega)

/-! ## The sum over the fan-in axis -/

/-- The host's sum over the last axis of a 2048 x 4096 x 32 array from the zero constant, at the ideal instance: zero
    plus the sum over the 32 slots. -/
theorem reduceAdd_apply (X : FVec Ideal S2048x4096x32 .f32) (b : Fin 2048) (o : Fin 4096) :
    (Host.reduceAdd X (constant S_ .f32 0x00000000#32) reducesTo_S2048x4096x32_S2048x4096_d2 h_S_ (ix2 b o) : EReal)
      = 0 + ∑ f : Fin 32, X (ix3 b o f) := by
  have hR : S2048x4096x32.Reduces [2] S2048x4096 := by decide
  show Ideal.hostReduceAdd reducesTo_S2048x4096x32_S2048x4096_d2 X (Ideal.ofBits .f32 0x00000000#32) (ix2 b o) = _
  rw [Ideal.hostReduceAdd_single _ hR, Ideal.ofBits_zero_f32]
  refine congrArg (fun s : EReal => 0 + s) (Finset.sum_congr rfl fun f _ => congrArg X (funext fun c => Fin.ext ?_))
  match c with
  | ⟨0, _⟩ => rfl
  | ⟨1, _⟩ => rfl
  | ⟨2, _⟩ => rfl

/-! ## The broadcasts and the taken entries at an index -/

/-- The weight broadcast to 2048 x 4096 x 32 reads, at (b, o, f), the weight at (o, f). -/
theorem wbcast_apply {α : Type} (w : S4096x32.Idx → α) (b : Fin 2048) (o : Fin 4096) (f : Fin 32) :
    broadcastInDim S2048x4096x32 ![0, 1, 2] bcast_S1x4096x32_S2048x4096x32_0_1_2
        (broadcastInDim S1x4096x32 ![1, 2] bcast_S4096x32_S1x4096x32_1_2 w) (ix3 b o f) = w (ix2 o f) := by
  rw [broadcastInDim_apply _ _ _ (ix3 b o f) (ix3 (0 : Fin 1) o f) (fun a => by
      match a with
      | ⟨0, _⟩ => rfl
      | ⟨1, _⟩ => rfl
      | ⟨2, _⟩ => rfl),
    broadcastInDim_apply _ _ _ (ix3 (0 : Fin 1) o f) (ix2 o f) (fun a => by
      match a with
      | ⟨0, _⟩ => rfl
      | ⟨1, _⟩ => rfl)]

/-- The bias broadcast to 2048 x 4096 reads, at (b, o), the bias at o. -/
theorem bias_apply {α : Type} (bias : S4096.Idx → α) (b : Fin 2048) (o : Fin 4096) :
    broadcastInDim S2048x4096 ![0, 1] bcast_S1x4096_S2048x4096_0_1
        (broadcastInDim S1x4096 ![1] bcast_S4096_S1x4096_1 bias) (ix2 b o) = bias (ix1 o) := by
  rw [broadcastInDim_apply _ _ _ (ix2 b o) (ix2 (0 : Fin 1) o) (fun a => by
      match a with
      | ⟨0, _⟩ => rfl
      | ⟨1, _⟩ => rfl),
    broadcastInDim_apply _ _ _ (ix2 (0 : Fin 1) o) (ix1 o) (fun a => by
      match a with
      | ⟨0, _⟩ => rfl)]

/-- For indices in [0, 4096) the taken entry at (b, o, f) is x at (b, index(o, f)): the mask holds, so the select
    returns the gathered entry, whose start index is not clamped. -/
theorem taken_apply (x : FVec Ideal S2048x4096 .f32) (idx : IVec S4096x32 32) (hidx : ∀ i, (idx i).toNat < 4096)
    (b : Fin 2048) (o : Fin 4096) (f : Fin 32) :
    (taken x idx (ix3 b o f) : EReal) = x (ix2 b ⟨(idx (ix2 o f)).toNat % 4096, Nat.mod_lt _ (by norm_num)⟩) := by
  unfold taken
  rw [select_apply]
  have hm : broadcastInDim S2048x4096x32 ![1, 2] bcast_S4096x32_S2048x4096x32_1_2 (okMask idx) (ix3 b o f) = 1#1 := by
    rw [broadcastInDim_apply _ _ _ (ix3 b o f) (ix2 o f) (fun a => by
      match a with
      | ⟨0, _⟩ => rfl
      | ⟨1, _⟩ => rfl)]
    exact okMask_apply idx hidx _
  rw [hm, select_one]
  have h3 : idx3 idx (ix3 o f 0) = idx (ix2 o f) := idx3_apply idx hidx o f 0
  rw [gather_apply x (idx3 idx) b o f (by rw [h3]; exact hidx _)]
  refine congrArg x (funext fun a => Fin.ext ?_)
  match a with
  | ⟨0, _⟩ => rfl
  | ⟨1, _⟩ =>
    show (idx3 idx (ix3 o f 0)).toNat = (idx (ix2 o f)).toNat % 4096
    rw [h3, Nat.mod_eq_of_lt (hidx _)]

/-! ## The term at an index -/

theorem refTerm_apply (x : FVec Ideal S2048x4096 .f32) (w : FVec Ideal S4096x32 .f32) (b : FVec Ideal S4096 .f32) (idx : IVec S4096x32 32)
    (hidx : ∀ i, (idx i).toNat < 4096) (j : S2048x4096.Idx) :
    (refTerm (F := Ideal) x w b idx j : EReal) = Cert.Spec.refAt x w b idx (j 0) (j 1) := by
  obtain ⟨r, o, rfl⟩ : ∃ (r : Fin 2048) (o : Fin 4096), j = ix2 r o := ⟨j 0, j 1, eq_ix2 j⟩
  show (refTerm (F := Ideal) x w b idx (ix2 r o) : EReal) = Cert.Spec.refAt x w b idx r o
  unfold refTerm Cert.Spec.refAt
  rw [addf_apply, reduceAdd_apply, bias_apply]
  refine congrArg (fun s : EReal => (0 + s) + b (ix1 o)) (Finset.sum_congr rfl fun f _ => ?_)
  rw [mulf_apply, wbcast_apply, taken_apply x idx hidx]

end Cert.ReferenceIdeal.Hand

end
-- ==== Proof.PreDecode.lean ====
/-
  What the precondition says of the arguments: every entry of x and of weight (and of bias) is a real number — its
  absolute value is below +infinity —, and every index lies in [0, 4096) — it is at least 0 and below 4096 as a signed
  word, so its unsigned reading is below 4096.
-/
import proofs.«429429_j44581760532973_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.Pre_finite_inputs.Hand

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-- An extended real whose absolute value is below the value of the pattern 0x7F800000 (+infinity) is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := of_decide_eq_true ((StableHlo.Predicate.ofBool_eq_one_iff _).1 h)
  rw [max_lt_iff] at hlt
  have hnt : (x : EReal) ≠ ⊤ := hlt.1.ne
  have hnb : (x : EReal) ≠ ⊥ := by
    intro hb
    rw [hb] at hlt
    simp at hlt
  exact ⟨(x : EReal).toReal, (EReal.coe_toReal hnt hnb).symm⟩

/-- A word that is at least 0 and below 4096 as a signed word reads below 4096 unsigned. -/
theorem toNat_lt_of_signed (v : BitVec 32) (h0 : IntOp.cmpi .sge v 0#32 = 1#1) (h1 : IntOp.cmpi .slt v 4096#32 = 1#1) :
    v.toNat < 4096 := by
  have h0' : (0#32 : BitVec 32).sle v = true := (StableHlo.Predicate.ofBool_eq_one_iff _).1 h0
  have h1' : v.slt (4096#32 : BitVec 32) = true := (StableHlo.Predicate.ofBool_eq_one_iff _).1 h1
  simp only [BitVec.sle, BitVec.slt, decide_eq_true_eq] at h0' h1'
  have e0 : (0#32 : BitVec 32).toInt = 0 := by decide
  have e1 : (4096#32 : BitVec 32).toInt = 4096 := by decide
  rw [e0] at h0'
  rw [e1] at h1'
  have hv := BitVec.toInt_eq_toNat_cond v
  have hlt := v.isLt
  split_ifs at hv <;> omega

theorem decode (x : FVec Ideal S2048x4096 .f32) (w : FVec Ideal S4096x32 .f32) (b : FVec Ideal S4096 .f32) (idx : IVec S4096x32 32)
    (h : Cert.Pre_finite_inputs.fn (F := Ideal) x w b idx = fun _ => 1#1) :
    (∀ i, ∃ r : ℝ, (x i : EReal) = (r : EReal)) ∧ (∀ i, ∃ r : ℝ, (w i : EReal) = (r : EReal)) ∧ (∀ i, (idx i).toNat < 4096) := by
  have e := congrFun h ValueIdx.ix0
  dsimp only [Cert.Pre_finite_inputs.fn, Cert.Pre_finite_inputs.fn_part1] at e
  obtain ⟨h1234, h5⟩ := IntOp.andi_eq_one.1 e
  obtain ⟨h123, h4⟩ := IntOp.andi_eq_one.1 h1234
  obtain ⟨h12, h3⟩ := IntOp.andi_eq_one.1 h123
  obtain ⟨h1, h2⟩ := IntOp.andi_eq_one.1 h12
  exact ⟨fun i => real_of_abs_lt_inf (x i) (Host.reduce_andi_all _ _ _ _ _ h1 i),
    fun i => real_of_abs_lt_inf (w i) (Host.reduce_andi_all _ _ _ _ _ h2 i),
    fun i => toNat_lt_of_signed (idx i) (Host.reduce_andi_all _ _ _ _ _ h4 i) (Host.reduce_andi_all _ _ _ _ _ h5 i)⟩

end Cert.Pre_finite_inputs.Hand

end
-- ==== Proof.lean ====
/-
  The certificate's proof. Both programs compute, for x : 2048 x 4096, weight and index : 4096 x 32, bias : 4096,

      out(b, o) = sum over the 32 fan-in slots f of weight(o, f) * x(b, index(o, f)),  plus bias(o).

  The reference gathers the 32 columns of x that row o of the index names and sums the products. The kernel first builds
  the dense 4096 x 4096 matrix D with D(r, o) = sum over f of (weight(o, f) where index(o, f) = r, else 0) — a
  scatter-add written as 32 one-hot compares against a row counter — and then multiplies, out = x D + bias, block by
  block with an accumulator carried along the contraction axis. For finite x and weight and indices in [0, 4096) the two
  agree: each slot's weight sits in exactly one row of D, so the sum over r of x(b, r) D(r, o) picks x at the slot's
  index (distributing x(b, r) over the 32 slots needs the entries finite). Outside [0, 4096) they differ — the reference
  wraps a negative index and fills NaN beyond the array, the kernel's compare matches no row — which is why the
  precondition bounds the indices.

  The three frames: each kernel program is run item by item (transposes, the densify region, convert and reshape, the
  matmul region) with every unscoped buffer's contents known at each boundary; no item writes an argument. The reference is
  a host program whose run is its operations' composed term. The idealization rewrote nothing, so `preserves` is trivial.
-/
import proofs.«429429_j44581760532973_3_alg».proof.Defs
import proofs.«429429_j44581760532973_3_alg».proof.Proof.Gen.Kernel
import proofs.«429429_j44581760532973_3_alg».proof.Proof.Gen.KernelIdeal
import proofs.«429429_j44581760532973_3_alg».proof.Proof.Gen.ReferenceIdeal
import proofs.«429429_j44581760532973_3_alg».proof.Proof.Gen.Pre_finite_inputs
import proofs.«429429_j44581760532973_3_alg».proof.Proof.K.Main
import proofs.«429429_j44581760532973_3_alg».proof.Proof.KI.Assemble
import proofs.«429429_j44581760532973_3_alg».proof.Proof.RefRead
import proofs.«429429_j44581760532973_3_alg».proof.Proof.PreDecode
import proofs.«429429_j44581760532973_3_alg».proof.Proof.Spec

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

open Cert.KernelIdeal Cert.KernelIdeal.Hand in
/-- Both runs end, from memories agreeing on the arguments, with the result array at the same function of them: the
    kernel's closed form and the reference's meet by the bridge law, whose hypotheses the precondition supplies. -/
theorem algebraic : Cert.algebraic_KernelIdeal_ReferenceIdeal := by
  intro m ρ m' ρ' hpre hagree
  refine ⟨fun c => V4 m c main_v5, ?_, ?_⟩
  · exact (θ_run Cert.KernelIdeal.defs _ _).mono (fun r h c =>
      ⟨h c _ (mem_uc main_v5 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩) (run_main m ρ)
  · refine (θ_run Cert.ReferenceIdeal.defs _ _).mono (fun r h c => ⟨(h c).1.trans ?_, (h c).2⟩)
      (Cert.ReferenceIdeal.Hand.run (F := Ideal) m' ρ')
    rw [(hagree c).1, (hagree c).2.1, (hagree c).2.2.1, (hagree c).2.2.2]
    obtain ⟨hx, hw, hidx⟩ := Cert.Pre_finite_inputs.Hand.decode _ _ _ _ (hpre c)
    funext j
    refine (Cert.ReferenceIdeal.Hand.refTerm_apply _ _ _ _ hidx j).trans ?_
    refine ((Cert.Spec.kernelAt_eq_refAt _ _ _ _ hx hw hidx (j 0) (j 1)).symm).trans ?_
    exact (congrFun (result_eq m c) j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
